-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S1000000 : Shape := ⟨1, ![1000000]⟩
abbrev S1000 : Shape := ⟨1, ![1000]⟩
abbrev S32768 : Shape := ⟨1, ![32768]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S1000 : S_.BroadcastsInDim S1000 (![] : Fin 0 → Fin S1000.rank)
  reducesTo_S1000_S_d0 : S1000.ReducesTo [0] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg3 : IVec S32768 32) (main_v13 : IVec S_ 1) (main_v15 : IVec S32768 1) (main_c_5 : IVec S_ 32) : IVec S_ 1 :=
  let main_v16 : IVec S32768 32 := broadcastInDim S32768 ![] bcast_S_S32768 main_c_5
  let main_v17 : IVec S32768 1 := cmpi .slt main_arg3 main_v16
  let main_v18 : IVec S32768 1 := andi main_v15 main_v17
  let main_c_6 : IVec S_ 1 := constantI S_ 1 1#1
  let main_v19 : IVec S_ 1 := (fun x v => Host.reduce IntOp.andi x v reducesTo_S32768_S_d0 h_S_) main_v18 main_c_6
  let main_v20 : IVec S_ 1 := andi main_v13 main_v19
  main_v20

def fn {F : FTy → Type} [FloatOps F] (main_arg0 : FVec F S32768x1000 .f32) (main_arg1 : FVec F S1000000 .f32) (main_arg2 : FVec F S1000 .f32) (main_arg3 : IVec S32768 32) (main_arg4 : IVec S32768 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_c_4 : IVec S_ 32 := constantI S_ 32 0#32
  let main_v14 : IVec S32768 32 := broadcastInDim S32768 ![] bcast_S_S32768 main_c_4
  let main_v15 : IVec S32768 1 := cmpi .sge main_arg3 main_v14
  let main_c_5 : IVec S_ 32 := constantI S_ 32 1000#32
  fn_part1 (F := F) main_arg3 main_v13 main_v15 main_c_5
-- ==== Kernel.lean ====
abbrev S32768x1000 : Shape := ⟨2, ![32768, 1000]⟩
abbrev S1000000 : Shape := ⟨1, ![1000000]⟩
abbrev S1000 : Shape := ⟨1, ![1000]⟩
abbrev S32768 : Shape := ⟨1, ![32768]⟩
abbrev S31 : Shape := ⟨1, ![31]⟩
abbrev S512x1000 : Shape := ⟨2, ![512, 1000]⟩
abbrev S512 : Shape := ⟨1, ![512]⟩
abbrev S512x1 : Shape := ⟨2, ![512, 1]⟩
abbrev S_ : Shape := ⟨0, ![]⟩
abbrev S32768x1 : Shape := ⟨2, ![32768, 1]⟩

abbrev nBuf : Space → Nat
  | .hbm => 231
  | .vmem => 6
  | .smem => 0
  | _ => 0

abbrev hbmTy0_0 (i : Nat) : BufTy := match i % 128 with
  | 0 => ⟨S32768x1000, .f32⟩
  | 1 => ⟨S1000000, .f32⟩
  | 2 => ⟨S1000, .f32⟩
  | 3 => ⟨S32768, .i32⟩
  | 4 => ⟨S32768, .i32⟩
  | 5 => ⟨S31, .f32⟩
  | 6 => ⟨S32768, .f32⟩
  | 7 => ⟨S_, .f32⟩
  | 8 => ⟨S1000000, .f32⟩
  | 9 => ⟨S32768x1, .i32⟩
  | 10 => ⟨S1000000, .f32⟩
  | 11 => ⟨S_, .f32⟩
  | 12 => ⟨S32768, .f32⟩
  | 13 => ⟨S_, .f32⟩
  | 14 => ⟨S1000000, .f32⟩
  | 15 => ⟨S32768x1, .i32⟩
  | 16 => ⟨S1000000, .f32⟩
  | 17 => ⟨S_, .f32⟩
  | 18 => ⟨S1000000, .f32⟩
  | 19 => ⟨S1000000, .i1⟩
  | 20 => ⟨S_, .f32⟩
  | 21 => ⟨S1000000, .f32⟩
  | 22 => ⟨S1000000, .f32⟩
  | 23 => ⟨S1000000, .f32⟩
  | 24 => ⟨S_, .f32⟩
  | 25 => ⟨S_, .f32⟩
  | 26 => ⟨S1000000, .f32⟩
  | 27 => ⟨S1000000, .f32⟩
  | 28 => ⟨S_, .f32⟩
  | 29 => ⟨S1000000, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S1000000, .f32⟩
  | 36 => ⟨S1000000, .f32⟩
  | 37 => ⟨S1000000, .f32⟩
  | 38 => ⟨S_, .i32⟩
  | 39 => ⟨S32768, .i32⟩
  | 40 => ⟨S32768, .i1⟩
  | 41 => ⟨S_, .i32⟩
  | 42 => ⟨S32768, .i32⟩
  | 43 => ⟨S32768, .i32⟩
  | 44 => ⟨S32768, .i32⟩
  | 45 => ⟨S32768x1, .i32⟩
  | 46 => ⟨S32768, .f32⟩
  | 47 => ⟨S_, .f32⟩
  | 48 => ⟨S32768, .f32⟩
  | 49 => ⟨S32768, .f32⟩
  | 50 => ⟨S_, .f32⟩
  | 51 => ⟨S32768, .f32⟩
  | 52 => ⟨S32768, .f32⟩
  | 53 => ⟨S32768, .f32⟩
  | 54 => ⟨S_, .f32⟩
  | 55 => ⟨S32768, .f32⟩
  | 56 => ⟨S32768, .f32⟩
  | 57 => ⟨S_, .f32⟩
  | 58 => ⟨S32768, .f32⟩
  | 59 => ⟨S32768, .f32⟩
  | 60 => ⟨S32768, .i1⟩
  | 61 => ⟨S_, .f32⟩
  | 62 => ⟨S_, .f32⟩
  | 63 => ⟨S32768, .f32⟩
  | 64 => ⟨S32768, .f32⟩
  | 65 => ⟨S_, .f32⟩
  | 66 => ⟨S32768, .f32⟩
  | 67 => ⟨S32768, .f32⟩
  | 68 => ⟨S_, .f32⟩
  | 69 => ⟨S32768, .f32⟩
  | 70 => ⟨S32768, .f32⟩
  | 71 => ⟨S_, .f32⟩
  | 72 => ⟨S32768, .f32⟩
  | 73 => ⟨S32768, .f32⟩
  | 74 => ⟨S_, .f32⟩
  | 75 => ⟨S_, .i32⟩
  | 76 => ⟨S_, .f32⟩
  | 77 => ⟨S32768, .f32⟩
  | 78 => ⟨S32768, .f32⟩
  | 79 => ⟨S_, .f32⟩
  | 80 => ⟨S32768, .f32⟩
  | 81 => ⟨S32768, .f32⟩
  | 82 => ⟨S32768, .f32⟩
  | 83 => ⟨S32768, .f32⟩
  | 84 => ⟨S32768, .i32⟩
  | 85 => ⟨S_, .i32⟩
  | 86 => ⟨S32768, .i32⟩
  | 87 => ⟨S32768, .i32⟩
  | 88 => ⟨S_, .i32⟩
  | 89 => ⟨S32768, .i32⟩
  | 90 => ⟨S32768, .i32⟩
  | 91 => ⟨S_, .i32⟩
  | 92 => ⟨S32768, .i32⟩
  | 93 => ⟨S32768, .i1⟩
  | 94 => ⟨S_, .i32⟩
  | 95 => ⟨S32768, .i32⟩
  | 96 => ⟨S32768, .i32⟩
  | 97 => ⟨S32768, .i32⟩
  | 98 => ⟨S32768x1, .i32⟩
  | 99 => ⟨S32768, .f32⟩
  | 100 => ⟨S_, .f32⟩
  | 101 => ⟨S32768, .f32⟩
  | 102 => ⟨S32768, .f32⟩
  | 103 => ⟨S32768, .f32⟩
  | 104 => ⟨S_, .i32⟩
  | 105 => ⟨S32768, .i32⟩
  | 106 => ⟨S32768, .i1⟩
  | 107 => ⟨S_, .i32⟩
  | 108 => ⟨S32768, .i32⟩
  | 109 => ⟨S32768, .i32⟩
  | 110 => ⟨S32768, .i32⟩
  | 111 => ⟨S32768x1, .i32⟩
  | 112 => ⟨S32768, .f32⟩
  | 113 => ⟨S32768, .f32⟩
  | 114 => ⟨S32768, .f32⟩
  | 115 => ⟨S32768, .f32⟩
  | 116 => ⟨S_, .f32⟩
  | 117 => ⟨S1000, .f32⟩
  | 118 => ⟨S32768x1, .i32⟩
  | 119 => ⟨S1000, .f32⟩
  | 120 => ⟨S_, .f32⟩
  | 121 => ⟨S32768, .f32⟩
  | 122 => ⟨S_, .f32⟩
  | 123 => ⟨S1000, .f32⟩
  | 124 => ⟨S32768x1, .i32⟩
  | 125 => ⟨S1000, .f32⟩
  | 126 => ⟨S_, .f32⟩
  | 127 => ⟨S1000, .f32⟩
  | _ => ⟨S32768x1000, .f32⟩

abbrev hbmTy0_1 (i : Nat) : BufTy := match i % 128 with
  | 0 => ⟨S1000, .i1⟩
  | 1 => ⟨S_, .f32⟩
  | 2 => ⟨S1000, .f32⟩
  | 3 => ⟨S1000, .f32⟩
  | 4 => ⟨S1000, .f32⟩
  | 5 => ⟨S_, .f32⟩
  | 6 => ⟨S_, .f32⟩
  | 7 => ⟨S1000, .f32⟩
  | 8 => ⟨S1000, .f32⟩
  | 9 => ⟨S_, .f32⟩
  | 10 => ⟨S1000, .f32⟩
  | 11 => ⟨S1000, .f32⟩
  | 12 => ⟨S1000, .f32⟩
  | 13 => ⟨S_, .f32⟩
  | 14 => ⟨S1000, .f32⟩
  | 15 => ⟨S1000, .f32⟩
  | 16 => ⟨S1000, .f32⟩
  | 17 => ⟨S1000, .f32⟩
  | 18 => ⟨S1000, .f32⟩
  | 19 => ⟨S_, .i32⟩
  | 20 => ⟨S32768, .i32⟩
  | 21 => ⟨S32768, .i1⟩
  | 22 => ⟨S_, .i32⟩
  | 23 => ⟨S32768, .i32⟩
  | 24 => ⟨S32768, .i32⟩
  | 25 => ⟨S32768, .i32⟩
  | 26 => ⟨S32768x1, .i32⟩
  | 27 => ⟨S32768, .f32⟩
  | 28 => ⟨S_, .f32⟩
  | 29 => ⟨S32768, .f32⟩
  | 30 => ⟨S32768, .f32⟩
  | 31 => ⟨S_, .f32⟩
  | 32 => ⟨S32768, .f32⟩
  | 33 => ⟨S32768, .f32⟩
  | 34 => ⟨S32768, .f32⟩
  | 35 => ⟨S_, .f32⟩
  | 36 => ⟨S32768, .f32⟩
  | 37 => ⟨S32768, .f32⟩
  | 38 => ⟨S_, .f32⟩
  | 39 => ⟨S32768, .f32⟩
  | 40 => ⟨S32768, .f32⟩
  | 41 => ⟨S32768, .i1⟩
  | 42 => ⟨S_, .f32⟩
  | 43 => ⟨S_, .f32⟩
  | 44 => ⟨S32768, .f32⟩
  | 45 => ⟨S32768, .f32⟩
  | 46 => ⟨S_, .f32⟩
  | 47 => ⟨S32768, .f32⟩
  | 48 => ⟨S32768, .f32⟩
  | 49 => ⟨S_, .f32⟩
  | 50 => ⟨S32768, .f32⟩
  | 51 => ⟨S32768, .f32⟩
  | 52 => ⟨S_, .f32⟩
  | 53 => ⟨S32768, .f32⟩
  | 54 => ⟨S32768, .f32⟩
  | 55 => ⟨S_, .f32⟩
  | 56 => ⟨S_, .i32⟩
  | 57 => ⟨S_, .f32⟩
  | 58 => ⟨S32768, .f32⟩
  | 59 => ⟨S32768, .f32⟩
  | 60 => ⟨S_, .f32⟩
  | 61 => ⟨S32768, .f32⟩
  | 62 => ⟨S32768, .f32⟩
  | 63 => ⟨S32768, .f32⟩
  | 64 => ⟨S32768, .f32⟩
  | 65 => ⟨S32768, .i32⟩
  | 66 => ⟨S_, .i32⟩
  | 67 => ⟨S32768, .i32⟩
  | 68 => ⟨S32768, .i32⟩
  | 69 => ⟨S_, .i32⟩
  | 70 => ⟨S32768, .i32⟩
  | 71 => ⟨S32768, .i32⟩
  | 72 => ⟨S_, .i32⟩
  | 73 => ⟨S32768, .i32⟩
  | 74 => ⟨S32768, .i1⟩
  | 75 => ⟨S_, .i32⟩
  | 76 => ⟨S32768, .i32⟩
  | 77 => ⟨S32768, .i32⟩
  | 78 => ⟨S32768, .i32⟩
  | 79 => ⟨S32768x1, .i32⟩
  | 80 => ⟨S32768, .f32⟩
  | 81 => ⟨S_, .f32⟩
  | 82 => ⟨S32768, .f32⟩
  | 83 => ⟨S32768, .f32⟩
  | 84 => ⟨S32768, .f32⟩
  | 85 => ⟨S_, .i32⟩
  | 86 => ⟨S32768, .i32⟩
  | 87 => ⟨S32768, .i1⟩
  | 88 => ⟨S_, .i32⟩
  | 89 => ⟨S32768, .i32⟩
  | 90 => ⟨S32768, .i32⟩
  | 91 => ⟨S32768, .i32⟩
  | 92 => ⟨S32768x1, .i32⟩
  | 93 => ⟨S32768, .f32⟩
  | 94 => ⟨S32768, .f32⟩
  | 95 => ⟨S32768, .f32⟩
  | 96 => ⟨S32768, .f32⟩
  | 97 => ⟨S32768, .f32⟩
  | 98 => ⟨S32768, .f32⟩
  | 99 => ⟨S_, .f32⟩
  | 100 => ⟨S_, .f32⟩
  | 101 => ⟨S_, .f32⟩
  | 102 => ⟨S_, .f32⟩
  | _ => ⟨S32768x1000, .f32⟩

abbrev hbmTy (i : Nat) : BufTy := match i / 128 with
  | 0 => hbmTy0_0 i
  | 1 => hbmTy0_1 i
  | _ => ⟨S32768x1000, .f32⟩

abbrev bufTy : (tb : Table) → Fin (tcTables nBuf tb) → BufTy
  | .hbm, ⟨i, _⟩ => hbmTy i
  | .local _ .vmem, ⟨0, _⟩ => ⟨S512x1000, .f32⟩
  | .local _ .vmem, ⟨1, _⟩ => ⟨S512x1000, .f32⟩
  | .local _ .vmem, ⟨2, _⟩ => ⟨S512, .i32⟩
  | .local _ .vmem, ⟨3, _⟩ => ⟨S512, .i32⟩
  | .local _ .vmem, ⟨4, _⟩ => ⟨S512, .f32⟩
  | .local _ .vmem, ⟨5, _⟩ => ⟨S512, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_13 : Ref sig .tc := ⟨.hbm, 61, rfl⟩
abbrev main_call2_v0 : Ref sig .tc := ⟨.hbm, 62, rfl⟩
abbrev main_call2_v1 : Ref sig .tc := ⟨.hbm, 63, rfl⟩
abbrev main_v39 : Ref sig .tc := ⟨.hbm, 64, rfl⟩
abbrev main_cst_14 : Ref sig .tc := ⟨.hbm, 65, rfl⟩
abbrev main_v40 : Ref sig .tc := ⟨.hbm, 66, rfl⟩
abbrev main_v41 : Ref sig .tc := ⟨.hbm, 67, rfl⟩
abbrev main_cst_15 : Ref sig .tc := ⟨.hbm, 68, rfl⟩
abbrev main_v42 : Ref sig .tc := ⟨.hbm, 69, rfl⟩
abbrev main_v43 : Ref sig .tc := ⟨.hbm, 70, rfl⟩
abbrev main_cst_16 : Ref sig .tc := ⟨.hbm, 71, rfl⟩
abbrev main_v44 : Ref sig .tc := ⟨.hbm, 72, rfl⟩
abbrev main_v45 : Ref sig .tc := ⟨.hbm, 73, rfl⟩
abbrev main_cst_17 : Ref sig .tc := ⟨.hbm, 74, rfl⟩
abbrev main_c_18 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_19 : Ref sig .tc := ⟨.hbm, 85, rfl⟩
abbrev main_v50 : Ref sig .tc := ⟨.hbm, 86, rfl⟩
abbrev main_v51 : Ref sig .tc := ⟨.hbm, 87, rfl⟩
abbrev main_c_20 : Ref sig .tc := ⟨.hbm, 88, rfl⟩
abbrev main_v52 : Ref sig .tc := ⟨.hbm, 89, rfl⟩
abbrev main_v53 : Ref sig .tc := ⟨.hbm, 90, rfl⟩
abbrev main_c_21 : Ref sig .tc := ⟨.hbm, 91, rfl⟩
abbrev main_v54 : Ref sig .tc := ⟨.hbm, 92, rfl⟩
abbrev main_v55 : Ref sig .tc := ⟨.hbm, 93, rfl⟩
abbrev main_c_22 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_23 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_24 : Ref sig .tc := ⟨.hbm, 104, rfl⟩
abbrev main_v64 : Ref sig .tc := ⟨.hbm, 105, rfl⟩
abbrev main_v65 : Ref sig .tc := ⟨.hbm, 106, rfl⟩
abbrev main_c_25 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_26 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_27 : Ref sig .tc := ⟨.hbm, 120, rfl⟩
abbrev main_v77 : Ref sig .tc := ⟨.hbm, 121, rfl⟩
abbrev main_cst_28 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_29 : Ref sig .tc := ⟨.hbm, 126, rfl⟩
abbrev main_v81 : Ref sig .tc := ⟨.hbm, 127, rfl⟩
abbrev main_v82 : Ref sig .tc := ⟨.hbm, 128, rfl⟩
abbrev main_cst_30 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_cst_31 : Ref sig .tc := ⟨.hbm, 133, rfl⟩
abbrev main_call4_v0 : Ref sig .tc := ⟨.hbm, 134, rfl⟩
abbrev main_call4_v1 : Ref sig .tc := ⟨.hbm, 135, rfl⟩
abbrev main_v86 : Ref sig .tc := ⟨.hbm, 136, rfl⟩
abbrev main_cst_32 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_33 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_c_34 : Ref sig .tc := ⟨.hbm, 147, rfl⟩
abbrev main_v95 : Ref sig .tc := ⟨.hbm, 148, rfl⟩
abbrev main_v96 : Ref sig .tc := ⟨.hbm, 149, rfl⟩
abbrev main_c_35 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_36 : Ref sig .tc := ⟨.hbm, 156, rfl⟩
abbrev main_v102 : Ref sig .tc := ⟨.hbm, 157, rfl⟩
abbrev main_v103 : Ref sig .tc := ⟨.hbm, 158, rfl⟩
abbrev main_cst_37 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_38 : Ref sig .tc := ⟨.hbm, 163, rfl⟩
abbrev main_v107 : Ref sig .tc := ⟨.hbm, 164, rfl⟩
abbrev main_v108 : Ref sig .tc := ⟨.hbm, 165, rfl⟩
abbrev main_cst_39 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_cst_40 : Ref sig .tc := ⟨.hbm, 170, rfl⟩
abbrev main_call6_v0 : Ref sig .tc := ⟨.hbm, 171, rfl⟩
abbrev main_call6_v1 : Ref sig .tc := ⟨.hbm, 172, rfl⟩
abbrev main_v112 : Ref sig .tc := ⟨.hbm, 173, rfl⟩
abbrev main_cst_41 : Ref sig .tc := ⟨.hbm, 174, rfl⟩
abbrev main_v113 : Ref sig .tc := ⟨.hbm, 175, rfl⟩
abbrev main_v114 : Ref sig .tc := ⟨.hbm, 176, rfl⟩
abbrev main_cst_42 : Ref sig .tc := ⟨.hbm, 177, rfl⟩
abbrev main_v115 : Ref sig .tc := ⟨.hbm, 178, rfl⟩
abbrev main_v116 : Ref sig .tc := ⟨.hbm, 179, rfl⟩
abbrev main_cst_43 : Ref sig .tc := ⟨.hbm, 180, rfl⟩
abbrev main_v117 : Ref sig .tc := ⟨.hbm, 181, rfl⟩
abbrev main_v118 : Ref sig .tc := ⟨.hbm, 182, rfl⟩
abbrev main_cst_44 : Ref sig .tc := ⟨.hbm, 183, rfl⟩
abbrev main_c_45 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_c_46 : Ref sig .tc := ⟨.hbm, 194, rfl⟩
abbrev main_v123 : Ref sig .tc := ⟨.hbm, 195, rfl⟩
abbrev main_v124 : Ref sig .tc := ⟨.hbm, 196, rfl⟩
abbrev main_c_47 : Ref sig .tc := ⟨.hbm, 197, rfl⟩
abbrev main_v125 : Ref sig .tc := ⟨.hbm, 198, rfl⟩
abbrev main_v126 : Ref sig .tc := ⟨.hbm, 199, rfl⟩
abbrev main_c_48 : Ref sig .tc := ⟨.hbm, 200, rfl⟩
abbrev main_v127 : Ref sig .tc := ⟨.hbm, 201, rfl⟩
abbrev main_v128 : Ref sig .tc := ⟨.hbm, 202, rfl⟩
abbrev main_c_49 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_cst_50 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_c_51 : Ref sig .tc := ⟨.hbm, 213, rfl⟩
abbrev main_v137 : Ref sig .tc := ⟨.hbm, 214, rfl⟩
abbrev main_v138 : Ref sig .tc := ⟨.hbm, 215, rfl⟩
abbrev main_c_52 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_cst_53 : Ref sig .tc := ⟨.hbm, 227, rfl⟩
abbrev main_v149 : Ref sig .tc := ⟨.hbm, 228, rfl⟩
abbrev main_cst_54 : Ref sig .tc := ⟨.hbm, 229, rfl⟩
abbrev main_v150 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x1000_S512x1000_0_0 : ∀ a, (![0, 0] : Fin 2 → Nat) a + S512x1000.size a ≤ S512x1000.size a
  h_S512x1000 : 0 < S512x1000.numel
  inb_S512_S512_0 : ∀ a, (![0] : Fin 1 → Nat) a + S512.size a ≤ S512.size a
  h_S512 : 0 < S512.numel
  reduces_S512x1000_S512 : S512x1000.Reduces [1] S512
  shapeCasts_S512_S512x1 : S512.ShapeCasts S512x1
  broadcasts_S512x1_S512x1000 : S512x1.Broadcasts S512x1000
  iota_S512x1000_d1_w32 : S512x1000.Iotas .tc 32 [1]
  shapeCasts_S512x1_S512 : S512x1.ShapeCasts S512
  bcast_S_S1000000 : S_.BroadcastsInDim S1000000 (![] : Fin 0 → Fin S1000000.rank)
  bcast_S32768_S32768x1_0 : S32768.BroadcastsInDim S32768x1 (![0] : Fin 1 → Fin S32768x1.rank)
  bcast_S_S32768 : S_.BroadcastsInDim S32768 (![] : Fin 0 → Fin S32768.rank)
  bcast_S_S1000 : S_.BroadcastsInDim S1000 (![] : Fin 0 → Fin S1000.rank)
  reducesTo_S32768_S_d0 : S32768.ReducesTo [0] S_
  h_S_ : 0 < S_.numel
  scatter_S1000000_S32768x1_S32768_n_0_0_1_wf : ScatterDims.WF S1000000 S32768x1 S32768 [] [0] [0] 1
  gather_S1000000_S32768x1_S32768_n_0_n_n_0_1_1_wf : GatherDims.WF S1000000 S32768x1 S32768 [] [0] [] [0] [] 1 ![1]
  gather_S31_S32768x1_S32768_n_0_n_n_0_1_1_wf : GatherDims.WF S31 S32768x1 S32768 [] [0] [] [0] [] 1 ![1]
  scatter_S1000_S32768x1_S32768_n_0_0_1_wf : ScatterDims.WF S1000 S32768x1 S32768 [] [0] [0] 1
  gather_S1000_S32768x1_S32768_n_0_n_n_0_1_1_wf : GatherDims.WF S1000 S32768x1 S32768 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S32768x1000.size a
  hwx0_0 : ∀ i : grid0.Coords, EltTy.bits .f32 = 32 ∨ (Rect.block (s := S32768x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S32768.size a
  hwx0_1 : ∀ i : grid0.Coords, EltTy.bits .i32 = 32 ∨ (Rect.block (s := S32768) S512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S32768.size a
  hwx0_2 : ∀ i : grid0.Coords, EltTy.bits .f32 = 32 ∨ (Rect.block (s := S32768) S512.size (cc0_transform_2 i) (hinb0_2 i)).WholeWords (EltTy.packing .f32)

variable [Facts₀]

def scatter_S1000000_S32768x1_S32768_n_0_0_1 : ScatterDims S1000000 S32768x1 S32768 where
  updateWindowDims := []
  insertedWindowDims := [0]
  scatterDimsToOperandDims := [0]
  indexVectorDim := 1
  wf := scatter_S1000000_S32768x1_S32768_n_0_0_1_wf
def gather_S1000000_S32768x1_S32768_n_0_n_n_0_1_1 : GatherDims S1000000 S32768x1 S32768 where
  offsetDims := []
  collapsedSliceDims := [0]
  operandBatchingDims := []
  startIndicesBatchingDims := []
  startIndexMap := [0]
  indexVectorDim := 1
  sliceSizes := ![1]
  wf := gather_S1000000_S32768x1_S32768_n_0_n_n_0_1_1_wf
def gather_S31_S32768x1_S32768_n_0_n_n_0_1_1 : GatherDims S31 S32768x1 S32768 where
  offsetDims := []
  collapsedSliceDims := [0]
  operandBatchingDims := []
  startIndicesBatchingDims := []
  startIndexMap := [0]
  indexVectorDim := 1
  sliceSizes := ![1]
  wf := gather_S31_S32768x1_S32768_n_0_n_n_0_1_1_wf
def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf
def gather_S1000_S32768x1_S32768_n_0_n_n_0_1_1 : GatherDims S1000 S32768x1 S32768 where
  offsetDims := []
  collapsedSliceDims := [0]
  operandBatchingDims := []
  startIndicesBatchingDims := []
  startIndexMap := [0]
  indexVectorDim := 1
  sliceSizes := ![1]
  wf := gather_S1000_S32768x1_S32768_n_0_n_n_0_1_1_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x1000 : Shape := ⟨2, ![32768, 1000]⟩
abbrev S1000000 : Shape := ⟨1, ![1000000]⟩
abbrev S1000 : Shape := ⟨1, ![1000]⟩
abbrev S32768 : Shape := ⟨1, ![32768]⟩
abbrev S31 : Shape := ⟨1, ![31]⟩
abbrev S_ : Shape := ⟨0, ![]⟩
abbrev S32768x1 : Shape := ⟨2, ![32768, 1]⟩
abbrev S32768x1x1 : Shape := ⟨3, ![32768, 1, 1]⟩
abbrev S1 : Shape := ⟨1, ![1]⟩
abbrev S1x1x1 : Shape := ⟨3, ![1, 1, 1]⟩

abbrev nBuf : Space → Nat
  | .hbm => 270
  | .vmem => 0
  | .smem => 0
  | _ => 0

abbrev hbmTy0_0 (i : Nat) : BufTy := match i % 128 with
  | 0 => ⟨S32768x1000, .f32⟩
  | 1 => ⟨S1000000, .f32⟩
  | 2 => ⟨S1000, .f32⟩
  | 3 => ⟨S32768, .i32⟩
  | 4 => ⟨S32768, .i32⟩
  | 5 => ⟨S31, .f32⟩
  | 6 => ⟨S_, .f32⟩
  | 7 => ⟨S32768, .f32⟩
  | 8 => ⟨S_, .f32⟩
  | 9 => ⟨S32768, .f32⟩
  | 10 => ⟨S32768, .f32⟩
  | 11 => ⟨S32768x1, .f32⟩
  | 12 => ⟨S32768x1000, .f32⟩
  | 13 => ⟨S32768x1000, .f32⟩
  | 14 => ⟨S32768x1000, .f32⟩
  | 15 => ⟨S_, .f32⟩
  | 16 => ⟨S32768, .f32⟩
  | 17 => ⟨S32768x1, .f32⟩
  | 18 => ⟨S32768x1, .f32⟩
  | 19 => ⟨S32768x1000, .f32⟩
  | 20 => ⟨S32768x1000, .f32⟩
  | 21 => ⟨S32768x1, .i32⟩
  | 22 => ⟨S_, .i32⟩
  | 23 => ⟨S32768x1, .i32⟩
  | 24 => ⟨S32768x1, .i1⟩
  | 25 => ⟨S_, .i32⟩
  | 26 => ⟨S32768x1, .i32⟩
  | 27 => ⟨S32768x1, .i32⟩
  | 28 => ⟨S32768x1, .i32⟩
  | 29 => ⟨S32768x1x1, .i32⟩
  | 30 => ⟨S1, .i32⟩
  | 31 => ⟨S_, .i32⟩
  | 32 => ⟨S32768x1x1, .i32⟩
  | 33 => ⟨S32768x1x1, .i1⟩
  | 34 => ⟨S1x1x1, .i32⟩
  | 35 => ⟨S32768x1x1, .i32⟩
  | 36 => ⟨S32768x1x1, .i1⟩
  | 37 => ⟨S32768x1x1, .i1⟩
  | 38 => ⟨S_, .i1⟩
  | 39 => ⟨S32768x1, .i1⟩
  | 40 => ⟨S32768x1, .f32⟩
  | 41 => ⟨S_, .f32⟩
  | 42 => ⟨S32768x1, .f32⟩
  | 43 => ⟨S32768x1, .f32⟩
  | 44 => ⟨S32768, .f32⟩
  | 45 => ⟨S32768, .f32⟩
  | 46 => ⟨S_, .f32⟩
  | 47 => ⟨S1000000, .f32⟩
  | 48 => ⟨S32768x1, .i32⟩
  | 49 => ⟨S1000000, .f32⟩
  | 50 => ⟨S_, .f32⟩
  | 51 => ⟨S32768, .f32⟩
  | 52 => ⟨S_, .f32⟩
  | 53 => ⟨S1000000, .f32⟩
  | 54 => ⟨S32768x1, .i32⟩
  | 55 => ⟨S1000000, .f32⟩
  | 56 => ⟨S_, .f32⟩
  | 57 => ⟨S1000000, .f32⟩
  | 58 => ⟨S1000000, .i1⟩
  | 59 => ⟨S_, .f32⟩
  | 60 => ⟨S1000000, .f32⟩
  | 61 => ⟨S1000000, .f32⟩
  | 62 => ⟨S1000000, .f32⟩
  | 63 => ⟨S_, .f32⟩
  | 64 => ⟨S_, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S1000000, .f32⟩
  | 75 => ⟨S1000000, .f32⟩
  | 76 => ⟨S1000000, .f32⟩
  | 77 => ⟨S_, .i32⟩
  | 78 => ⟨S32768, .i32⟩
  | 79 => ⟨S32768, .i1⟩
  | 80 => ⟨S_, .i32⟩
  | 81 => ⟨S32768, .i32⟩
  | 82 => ⟨S32768, .i32⟩
  | 83 => ⟨S32768, .i32⟩
  | 84 => ⟨S32768x1, .i32⟩
  | 85 => ⟨S32768, .f32⟩
  | 86 => ⟨S_, .f32⟩
  | 87 => ⟨S32768, .f32⟩
  | 88 => ⟨S32768, .f32⟩
  | 89 => ⟨S_, .f32⟩
  | 90 => ⟨S32768, .f32⟩
  | 91 => ⟨S32768, .f32⟩
  | 92 => ⟨S32768, .f32⟩
  | 93 => ⟨S_, .f32⟩
  | 94 => ⟨S32768, .f32⟩
  | 95 => ⟨S32768, .f32⟩
  | 96 => ⟨S_, .f32⟩
  | 97 => ⟨S32768, .f32⟩
  | 98 => ⟨S32768, .f32⟩
  | 99 => ⟨S32768, .i1⟩
  | 100 => ⟨S_, .f32⟩
  | 101 => ⟨S_, .f32⟩
  | 102 => ⟨S32768, .f32⟩
  | 103 => ⟨S32768, .f32⟩
  | 104 => ⟨S_, .f32⟩
  | 105 => ⟨S32768, .f32⟩
  | 106 => ⟨S32768, .f32⟩
  | 107 => ⟨S_, .f32⟩
  | 108 => ⟨S32768, .f32⟩
  | 109 => ⟨S32768, .f32⟩
  | 110 => ⟨S_, .f32⟩
  | 111 => ⟨S32768, .f32⟩
  | 112 => ⟨S32768, .f32⟩
  | 113 => ⟨S_, .f32⟩
  | 114 => ⟨S_, .i32⟩
  | 115 => ⟨S_, .f32⟩
  | 116 => ⟨S32768, .f32⟩
  | 117 => ⟨S32768, .f32⟩
  | 118 => ⟨S_, .f32⟩
  | 119 => ⟨S32768, .f32⟩
  | 120 => ⟨S32768, .f32⟩
  | 121 => ⟨S32768, .f32⟩
  | 122 => ⟨S32768, .f32⟩
  | 123 => ⟨S32768, .i32⟩
  | 124 => ⟨S_, .i32⟩
  | 125 => ⟨S32768, .i32⟩
  | 126 => ⟨S32768, .i32⟩
  | 127 => ⟨S_, .i32⟩
  | _ => ⟨S32768x1000, .f32⟩

abbrev hbmTy0_1 (i : Nat) : BufTy := match i % 128 with
  | 0 => ⟨S32768, .i32⟩
  | 1 => ⟨S32768, .i32⟩
  | 2 => ⟨S_, .i32⟩
  | 3 => ⟨S32768, .i32⟩
  | 4 => ⟨S32768, .i1⟩
  | 5 => ⟨S_, .i32⟩
  | 6 => ⟨S32768, .i32⟩
  | 7 => ⟨S32768, .i32⟩
  | 8 => ⟨S32768, .i32⟩
  | 9 => ⟨S32768x1, .i32⟩
  | 10 => ⟨S32768, .f32⟩
  | 11 => ⟨S_, .f32⟩
  | 12 => ⟨S32768, .f32⟩
  | 13 => ⟨S32768, .f32⟩
  | 14 => ⟨S32768, .f32⟩
  | 15 => ⟨S_, .i32⟩
  | 16 => ⟨S32768, .i32⟩
  | 17 => ⟨S32768, .i1⟩
  | 18 => ⟨S_, .i32⟩
  | 19 => ⟨S32768, .i32⟩
  | 20 => ⟨S32768, .i32⟩
  | 21 => ⟨S32768, .i32⟩
  | 22 => ⟨S32768x1, .i32⟩
  | 23 => ⟨S32768, .f32⟩
  | 24 => ⟨S32768, .f32⟩
  | 25 => ⟨S32768, .f32⟩
  | 26 => ⟨S32768, .f32⟩
  | 27 => ⟨S_, .f32⟩
  | 28 => ⟨S1000, .f32⟩
  | 29 => ⟨S32768x1, .i32⟩
  | 30 => ⟨S1000, .f32⟩
  | 31 => ⟨S_, .f32⟩
  | 32 => ⟨S32768, .f32⟩
  | 33 => ⟨S_, .f32⟩
  | 34 => ⟨S1000, .f32⟩
  | 35 => ⟨S32768x1, .i32⟩
  | 36 => ⟨S1000, .f32⟩
  | 37 => ⟨S_, .f32⟩
  | 38 => ⟨S1000, .f32⟩
  | 39 => ⟨S1000, .i1⟩
  | 40 => ⟨S_, .f32⟩
  | 41 => ⟨S1000, .f32⟩
  | 42 => ⟨S1000, .f32⟩
  | 43 => ⟨S1000, .f32⟩
  | 44 => ⟨S_, .f32⟩
  | 45 => ⟨S_, .f32⟩
  | 46 => ⟨S1000, .f32⟩
  | 47 => ⟨S1000, .f32⟩
  | 48 => ⟨S_, .f32⟩
  | 49 => ⟨S1000, .f32⟩
  | 50 => ⟨S1000, .f32⟩
  | 51 => ⟨S1000, .f32⟩
  | 52 => ⟨S_, .f32⟩
  | 53 => ⟨S1000, .f32⟩
  | 54 => ⟨S1000, .f32⟩
  | 55 => ⟨S1000, .f32⟩
  | 56 => ⟨S1000, .f32⟩
  | 57 => ⟨S1000, .f32⟩
  | 58 => ⟨S_, .i32⟩
  | 59 => ⟨S32768, .i32⟩
  | 60 => ⟨S32768, .i1⟩
  | 61 => ⟨S_, .i32⟩
  | 62 => ⟨S32768, .i32⟩
  | 63 => ⟨S32768, .i32⟩
  | 64 => ⟨S32768, .i32⟩
  | 65 => ⟨S32768x1, .i32⟩
  | 66 => ⟨S32768, .f32⟩
  | 67 => ⟨S_, .f32⟩
  | 68 => ⟨S32768, .f32⟩
  | 69 => ⟨S32768, .f32⟩
  | 70 => ⟨S_, .f32⟩
  | 71 => ⟨S32768, .f32⟩
  | 72 => ⟨S32768, .f32⟩
  | 73 => ⟨S32768, .f32⟩
  | 74 => ⟨S_, .f32⟩
  | 75 => ⟨S32768, .f32⟩
  | 76 => ⟨S32768, .f32⟩
  | 77 => ⟨S_, .f32⟩
  | 78 => ⟨S32768, .f32⟩
  | 79 => ⟨S32768, .f32⟩
  | 80 => ⟨S32768, .i1⟩
  | 81 => ⟨S_, .f32⟩
  | 82 => ⟨S_, .f32⟩
  | 83 => ⟨S32768, .f32⟩
  | 84 => ⟨S32768, .f32⟩
  | 85 => ⟨S_, .f32⟩
  | 86 => ⟨S32768, .f32⟩
  | 87 => ⟨S32768, .f32⟩
  | 88 => ⟨S_, .f32⟩
  | 89 => ⟨S32768, .f32⟩
  | 90 => ⟨S32768, .f32⟩
  | 91 => ⟨S_, .f32⟩
  | 92 => ⟨S32768, .f32⟩
  | 93 => ⟨S32768, .f32⟩
  | 94 => ⟨S_, .f32⟩
  | 95 => ⟨S_, .i32⟩
  | 96 => ⟨S_, .f32⟩
  | 97 => ⟨S32768, .f32⟩
  | 98 => ⟨S32768, .f32⟩
  | 99 => ⟨S_, .f32⟩
  | 100 => ⟨S32768, .f32⟩
  | 101 => ⟨S32768, .f32⟩
  | 102 => ⟨S32768, .f32⟩
  | 103 => ⟨S32768, .f32⟩
  | 104 => ⟨S32768, .i32⟩
  | 105 => ⟨S_, .i32⟩
  | 106 => ⟨S32768, .i32⟩
  | 107 => ⟨S32768, .i32⟩
  | 108 => ⟨S_, .i32⟩
  | 109 => ⟨S32768, .i32⟩
  | 110 => ⟨S32768, .i32⟩
  | 111 => ⟨S_, .i32⟩
  | 112 => ⟨S32768, .i32⟩
  | 113 => ⟨S32768, .i1⟩
  | 114 => ⟨S_, .i32⟩
  | 115 => ⟨S32768, .i32⟩
  | 116 => ⟨S32768, .i32⟩
  | 117 => ⟨S32768, .i32⟩
  | 118 => ⟨S32768x1, .i32⟩
  | 119 => ⟨S32768, .f32⟩
  | 120 => ⟨S_, .f32⟩
  | 121 => ⟨S32768, .f32⟩
  | 122 => ⟨S32768, .f32⟩
  | 123 => ⟨S32768, .f32⟩
  | 124 => ⟨S_, .i32⟩
  | 125 => ⟨S32768, .i32⟩
  | 126 => ⟨S32768, .i1⟩
  | 127 => ⟨S_, .i32⟩
  | _ => ⟨S32768x1000, .f32⟩

abbrev hbmTy0_2 (i : Nat) : BufTy := match i % 128 with
  | 0 => ⟨S32768, .i32⟩
  | 1 => ⟨S32768, .i32⟩
  | 2 => ⟨S32768, .i32⟩
  | 3 => ⟨S32768x1, .i32⟩
  | 4 => ⟨S32768, .f32⟩
  | 5 => ⟨S32768, .f32⟩
  | 6 => ⟨S32768, .f32⟩
  | 7 => ⟨S32768, .f32⟩
  | 8 => ⟨S32768, .f32⟩
  | 9 => ⟨S32768, .f32⟩
  | 10 => ⟨S_, .f32⟩
  | 11 => ⟨S_, .f32⟩
  | 12 => ⟨S_, .f32⟩
  | 13 => ⟨S_, .f32⟩
  | _ => ⟨S32768x1000, .f32⟩

abbrev hbmTy (i : Nat) : BufTy := match i / 128 with
  | 0 => hbmTy0_0 i
  | 1 => hbmTy0_1 i
  | 2 => hbmTy0_2 i
  | _ => ⟨S32768x1000, .f32⟩

abbrev bufTy : (tb : Table) → Fin (tcTables nBuf tb) → BufTy
  | .hbm, ⟨i, _⟩ => hbmTy i
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v0 : Ref sig .tc := ⟨.hbm, 20, rfl⟩
abbrev main_v1 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_cst_0 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst_1 : Ref sig .tc := ⟨.hbm, 50, rfl⟩
abbrev main_v8 : Ref sig .tc := ⟨.hbm, 51, rfl⟩
abbrev main_cst_2 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst_3 : Ref sig .tc := ⟨.hbm, 56, rfl⟩
abbrev main_v12 : Ref sig .tc := ⟨.hbm, 57, rfl⟩
abbrev main_v13 : Ref sig .tc := ⟨.hbm, 58, rfl⟩
abbrev main_cst_4 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst_5 : Ref sig .tc := ⟨.hbm, 63, rfl⟩
abbrev main_call2_v0 : Ref sig .tc := ⟨.hbm, 64, rfl⟩
abbrev main_call2_v1 : Ref sig .tc := ⟨.hbm, 65, rfl⟩
abbrev main_v17 : Ref sig .tc := ⟨.hbm, 66, rfl⟩
abbrev main_cst_6 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_cst_7 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c : Ref sig .tc := ⟨.hbm, 77, rfl⟩
abbrev main_v26 : Ref sig .tc := ⟨.hbm, 78, rfl⟩
abbrev main_v27 : Ref sig .tc := ⟨.hbm, 79, rfl⟩
abbrev main_c_8 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_9 : Ref sig .tc := ⟨.hbm, 86, rfl⟩
abbrev main_v33 : Ref sig .tc := ⟨.hbm, 87, rfl⟩
abbrev main_v34 : Ref sig .tc := ⟨.hbm, 88, rfl⟩
abbrev main_cst_10 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_cst_11 : Ref sig .tc := ⟨.hbm, 93, rfl⟩
abbrev main_v38 : Ref sig .tc := ⟨.hbm, 94, rfl⟩
abbrev main_v39 : Ref sig .tc := ⟨.hbm, 95, rfl⟩
abbrev main_cst_12 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_cst_13 : Ref sig .tc := ⟨.hbm, 100, rfl⟩
abbrev main_call4_v0 : Ref sig .tc := ⟨.hbm, 101, rfl⟩
abbrev main_call4_v1 : Ref sig .tc := ⟨.hbm, 102, rfl⟩
abbrev main_v43 : Ref sig .tc := ⟨.hbm, 103, rfl⟩
abbrev main_cst_14 : Ref sig .tc := ⟨.hbm, 104, rfl⟩
abbrev main_v44 : Ref sig .tc := ⟨.hbm, 105, rfl⟩
abbrev main_v45 : Ref sig .tc := ⟨.hbm, 106, rfl⟩
abbrev main_cst_15 : Ref sig .tc := ⟨.hbm, 107, rfl⟩
abbrev main_v46 : Ref sig .tc := ⟨.hbm, 108, rfl⟩
abbrev main_v47 : Ref sig .tc := ⟨.hbm, 109, rfl⟩
abbrev main_cst_16 : Ref sig .tc := ⟨.hbm, 110, rfl⟩
abbrev main_v48 : Ref sig .tc := ⟨.hbm, 111, rfl⟩
abbrev main_v49 : Ref sig .tc := ⟨.hbm, 112, rfl⟩
abbrev main_cst_17 : Ref sig .tc := ⟨.hbm, 113, rfl⟩
abbrev main_c_18 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_call5_v3 : Ref sig .tc := ⟨.hbm, 118, rfl⟩
abbrev main_call5_v4 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_c_19 : Ref sig .tc := ⟨.hbm, 124, rfl⟩
abbrev main_v54 : Ref sig .tc := ⟨.hbm, 125, rfl⟩
abbrev main_v55 : Ref sig .tc := ⟨.hbm, 126, rfl⟩
abbrev main_c_20 : Ref sig .tc := ⟨.hbm, 127, rfl⟩
abbrev main_v56 : Ref sig .tc := ⟨.hbm, 128, rfl⟩
abbrev main_v57 : Ref sig .tc := ⟨.hbm, 129, rfl⟩
abbrev main_c_21 : Ref sig .tc := ⟨.hbm, 130, rfl⟩
abbrev main_v58 : Ref sig .tc := ⟨.hbm, 131, rfl⟩
abbrev main_v59 : Ref sig .tc := ⟨.hbm, 132, rfl⟩
abbrev main_c_22 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_23 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_c_24 : Ref sig .tc := ⟨.hbm, 143, rfl⟩
abbrev main_v68 : Ref sig .tc := ⟨.hbm, 144, rfl⟩
abbrev main_v69 : Ref sig .tc := ⟨.hbm, 145, rfl⟩
abbrev main_c_25 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_cst_26 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_27 : Ref sig .tc := ⟨.hbm, 159, rfl⟩
abbrev main_v81 : Ref sig .tc := ⟨.hbm, 160, rfl⟩
abbrev main_cst_28 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_cst_29 : Ref sig .tc := ⟨.hbm, 165, rfl⟩
abbrev main_v85 : Ref sig .tc := ⟨.hbm, 166, rfl⟩
abbrev main_v86 : Ref sig .tc := ⟨.hbm, 167, rfl⟩
abbrev main_cst_30 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_cst_31 : Ref sig .tc := ⟨.hbm, 172, rfl⟩
abbrev main_call6_v0 : Ref sig .tc := ⟨.hbm, 173, rfl⟩
abbrev main_call6_v1 : Ref sig .tc := ⟨.hbm, 174, rfl⟩
abbrev main_v90 : Ref sig .tc := ⟨.hbm, 175, rfl⟩
abbrev main_cst_32 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_cst_33 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_c_34 : Ref sig .tc := ⟨.hbm, 186, rfl⟩
abbrev main_v99 : Ref sig .tc := ⟨.hbm, 187, rfl⟩
abbrev main_v100 : Ref sig .tc := ⟨.hbm, 188, rfl⟩
abbrev main_c_35 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_cst_36 : Ref sig .tc := ⟨.hbm, 195, rfl⟩
abbrev main_v106 : Ref sig .tc := ⟨.hbm, 196, rfl⟩
abbrev main_v107 : Ref sig .tc := ⟨.hbm, 197, rfl⟩
abbrev main_cst_37 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_cst_38 : Ref sig .tc := ⟨.hbm, 202, rfl⟩
abbrev main_v111 : Ref sig .tc := ⟨.hbm, 203, rfl⟩
abbrev main_v112 : Ref sig .tc := ⟨.hbm, 204, rfl⟩
abbrev main_cst_39 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_cst_40 : Ref sig .tc := ⟨.hbm, 209, rfl⟩
abbrev main_call8_v0 : Ref sig .tc := ⟨.hbm, 210, rfl⟩
abbrev main_call8_v1 : Ref sig .tc := ⟨.hbm, 211, rfl⟩
abbrev main_v116 : Ref sig .tc := ⟨.hbm, 212, rfl⟩
abbrev main_cst_41 : Ref sig .tc := ⟨.hbm, 213, rfl⟩
abbrev main_v117 : Ref sig .tc := ⟨.hbm, 214, rfl⟩
abbrev main_v118 : Ref sig .tc := ⟨.hbm, 215, rfl⟩
abbrev main_cst_42 : Ref sig .tc := ⟨.hbm, 216, rfl⟩
abbrev main_v119 : Ref sig .tc := ⟨.hbm, 217, rfl⟩
abbrev main_v120 : Ref sig .tc := ⟨.hbm, 218, rfl⟩
abbrev main_cst_43 : Ref sig .tc := ⟨.hbm, 219, rfl⟩
abbrev main_v121 : Ref sig .tc := ⟨.hbm, 220, rfl⟩
abbrev main_v122 : Ref sig .tc := ⟨.hbm, 221, rfl⟩
abbrev main_cst_44 : Ref sig .tc := ⟨.hbm, 222, rfl⟩
abbrev main_c_45 : Ref sig .tc := ⟨.hbm, 223, rfl⟩
abbrev main_call9_v0 : Ref sig .tc := ⟨.hbm, 224, rfl⟩
abbrev main_call9_v1 : Ref sig .tc := ⟨.hbm, 225, rfl⟩
abbrev main_call9_v2 : Ref sig .tc := ⟨.hbm, 226, rfl⟩
abbrev main_call9_v3 : Ref sig .tc := ⟨.hbm, 227, rfl⟩
abbrev main_call9_v4 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_c_46 : Ref sig .tc := ⟨.hbm, 233, rfl⟩
abbrev main_v127 : Ref sig .tc := ⟨.hbm, 234, rfl⟩
abbrev main_v128 : Ref sig .tc := ⟨.hbm, 235, rfl⟩
abbrev main_c_47 : Ref sig .tc := ⟨.hbm, 236, rfl⟩
abbrev main_v129 : Ref sig .tc := ⟨.hbm, 237, rfl⟩
abbrev main_v130 : Ref sig .tc := ⟨.hbm, 238, rfl⟩
abbrev main_c_48 : Ref sig .tc := ⟨.hbm, 239, rfl⟩
abbrev main_v131 : Ref sig .tc := ⟨.hbm, 240, rfl⟩
abbrev main_v132 : Ref sig .tc := ⟨.hbm, 241, rfl⟩
abbrev main_c_49 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_cst_50 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_c_51 : Ref sig .tc := ⟨.hbm, 252, rfl⟩
abbrev main_v141 : Ref sig .tc := ⟨.hbm, 253, rfl⟩
abbrev main_v142 : Ref sig .tc := ⟨.hbm, 254, rfl⟩
abbrev main_c_52 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_cst_53 : Ref sig .tc := ⟨.hbm, 266, rfl⟩
abbrev main_v153 : Ref sig .tc := ⟨.hbm, 267, rfl⟩
abbrev main_cst_54 : Ref sig .tc := ⟨.hbm, 268, rfl⟩
abbrev main_v154 : Ref sig .tc := ⟨.hbm, 269, rfl⟩

abbrev nD : Nat := 1
abbrev τ : Topo := Topo.v7x

variable {F : FTy → Type} [FloatOps F]

class Facts₀ : Prop where
  reducesTo_S32768x1000_S32768_d1 : S32768x1000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  shapeCasts_S32768x1_S32768 : S32768x1.ShapeCasts S32768
  bcast_S_S1000000 : S_.BroadcastsInDim S1000000 (![] : Fin 0 → Fin S1000000.rank)
  bcast_S_S1000 : S_.BroadcastsInDim S1000 (![] : Fin 0 → Fin S1000.rank)
  reducesTo_S32768_S_d0 : S32768.ReducesTo [0] S_
  gather_S32768x1000_S32768x1x1_S32768x1_n_1_0_0_1_2_11_wf : GatherDims.WF S32768x1000 S32768x1x1 S32768x1 [] [1] [0] [1] [0] 2 ![1, 1]
  scatter_S1000000_S32768x1_S32768_n_0_0_1_wf : ScatterDims.WF S1000000 S32768x1 S32768 [] [0] [0] 1
  gather_S1000000_S32768x1_S32768_n_0_n_n_0_1_1_wf : GatherDims.WF S1000000 S32768x1 S32768 [] [0] [] [0] [] 1 ![1]
  gather_S31_S32768x1_S32768_n_0_n_n_0_1_1_wf : GatherDims.WF S31 S32768x1 S32768 [] [0] [] [0] [] 1 ![1]
  scatter_S1000_S32768x1_S32768_n_0_0_1_wf : ScatterDims.WF S1000 S32768x1 S32768 [] [0] [0] 1
  gather_S1000_S32768x1_S32768_n_0_n_n_0_1_1_wf : GatherDims.WF S1000 S32768x1 S32768 [] [0] [] [0] [] 1 ![1]

variable [Facts₀]

def gather_S32768x1000_S32768x1x1_S32768x1_n_1_0_0_1_2_11 : GatherDims S32768x1000 S32768x1x1 S32768x1 where
  offsetDims := []
  collapsedSliceDims := [1]
  operandBatchingDims := [0]
  startIndicesBatchingDims := [0]
  startIndexMap := [1]
  indexVectorDim := 2
  sliceSizes := ![1, 1]
  wf := gather_S32768x1000_S32768x1x1_S32768x1_n_1_0_0_1_2_11_wf
def scatter_S1000000_S32768x1_S32768_n_0_0_1 : ScatterDims S1000000 S32768x1 S32768 where
  updateWindowDims := []
  insertedWindowDims := [0]
  scatterDimsToOperandDims := [0]
  indexVectorDim := 1
  wf := scatter_S1000000_S32768x1_S32768_n_0_0_1_wf
def gather_S1000000_S32768x1_S32768_n_0_n_n_0_1_1 : GatherDims S1000000 S32768x1 S32768 where
  offsetDims := []
  collapsedSliceDims := [0]
  operandBatchingDims := []
  startIndicesBatchingDims := []
  startIndexMap := [0]
  indexVectorDim := 1
  sliceSizes := ![1]
  wf := gather_S1000000_S32768x1_S32768_n_0_n_n_0_1_1_wf
def gather_S31_S32768x1_S32768_n_0_n_n_0_1_1 : GatherDims S31 S32768x1 S32768 where
  offsetDims := []
  collapsedSliceDims := [0]
  operandBatchingDims := []
  startIndicesBatchingDims := []
  startIndexMap := [0]
  indexVectorDim := 1
  sliceSizes := ![1]
  wf := gather_S31_S32768x1_S32768_n_0_n_n_0_1_1_wf
def scatter_S1000_S32768x1_S32768_n_0_0_1 : ScatterDims S1000 S32768x1 S32768 where
  updateWindowDims := []
  insertedWindowDims := [0]
  scatterDimsToOperandDims := [0]
  indexVectorDim := 1
  wf := scatter_S1000_S32768x1_S32768_n_0_0_1_wf
def gather_S1000_S32768x1_S32768_n_0_n_n_0_1_1 : GatherDims S1000 S32768x1 S32768 where
  offsetDims := []
  collapsedSliceDims := [0]
  operandBatchingDims := []
  startIndicesBatchingDims := []
  startIndexMap := [0]
  indexVectorDim := 1
  sliceSizes := ![1]
  wf := gather_S1000_S32768x1_S32768_n_0_n_n_0_1_1_wf

class Facts : Prop extends Facts₀ where

variable [Facts]
-- ==== Proof.KBody.lean ====
/-
  The kernel region of the program, on its own: what the body of the cross-entropy kernel leaves in its output
  block, and the data the pipeline's frame run is stated over.

  The pallas_call has three windows over a grid of 64 points: window 0 is a 512 × 1000 block of the scores (rows
  512 t … 512 t + 511 at point t), window 1 the 512 labels of those rows, window 2 the 512 losses it writes back.
  At every point the body loads the two input blocks whole, computes one value per row and stores the 512 values
  over the whole output block; it keeps nothing between points. So the output block after the body is one piece,
  the body's arithmetic (the payload) applied to the two input blocks, and each input block is what the region
  found in its array.
-/
import proofs.«404843_j25503515804375_1_alg».proof.Proof.Gen.Kernel.Launch
import proofs.«404843_j25503515804375_1_alg».proof.Proof.Gen.Kernel.Skeleton
import proofs.«404843_j25503515804375_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the one host operation
    before it (the 31-entry table). -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scores' staging buffer holds the scores' block at every point, for any proof data over these arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the labels' staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The whole scores block, the whole labels block, the whole loss block, as rectangles. -/
abbrev rScores : Rect S512x1000 := Rect.unit (s := S512x1000) ![0, 0] S512x1000.size inb_S512x1000_S512x1000_0_0
abbrev rRows : Rect S512 := Rect.unit (s := S512) ![0] S512.size inb_S512_S512_0

/-- The loss block after the body: its one store, the body's arithmetic of the two blocks it loaded. -/
def out0_2 (x0 : Vec F S512x1000 .f32) (x1 : Vec F S512 .i32) : Vec F S512 .f32 :=
  View.canon [⟨rRows, k0_pay1 (View.ld x0 rScores) (View.ld x1 rRows)⟩]

/-- The one store covers the block. -/
theorem cover0_2 (p0 : Vec F S512 .f32) (y : S512.Idx) :
    ∃ pc ∈ ([⟨rRows, p0⟩] : List (View.Piece (Elt F) S512 .f32)), y ∈ pc.1.set :=
  View.cover_of_tiled [⟨rRows, p0⟩] S512.size (by rfl) y

set_option maxHeartbeats 1000000 in
/-- The body on whole staging memrefs — the two inputs' at contents `x0`, `x1`, the output's at anything — runs to
    the continuation with the inputs' as they were and the output's at `out0_2 x0 x1`. -/
theorem sound_kernel (c : Dev nD) (E : Set ℕ) (i : grid0.Coords) (arg1 : Memref sig .tc .vmem S512x1000 .f32) (harg1 : arg1.IsWhole)
    (arg2 : Memref sig .tc .vmem S512 .i32) (harg2 : arg2.IsWhole) (arg3 : Memref sig .tc .vmem S512 .f32) (harg3 : arg3.IsWhole)
    (x0 : Vec F S512x1000 .f32) (x1 : Vec F S512 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__cross_entropy_kernel i arg1 harg1 arg2 harg2 arg3 harg3) K := by
  simp only [cc0__cross_entropy_kernel_eq_skeleton]; unfold cc0__cross_entropy_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the output's at `out0_2` of the two input blocks; the class invariant (nothing of the
    kernel's own); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KTailFacts.lean ====
import proofs.«404843_j25503515804375_1_alg».proof.Proof.Gen.Kernel.Launch
import Idealize.ShloMosaic.Lib.Pipeline.FrameSuffix
import Idealize.ShloMosaic.Lib.StableHlo.Run

/-! # The host operations around the kernel region: which buffers they touch

The program is one host operation (a constant table), the kernel region, and then seventeen lists of host
operations. Every host operation writes exactly one buffer, its own result, and that result is never one of
the five argument arrays, the constant table, or the region's result array. From this single fact per list
follow: the three arrays the region's windows read and write are left alone by everything after the region;
the arguments and the table are the same before and after each stretch of host operations; no host operation
allocates; and every buffer a later operation touches is an unscoped on-device reference. -/

set_option maxRecDepth 8192

noncomputable section

namespace Cert.Kernel.Hand

open Cert.Kernel Cert.Kernel.Gen Idealize.ShloMosaic Idealize.ShloMosaic.TcCoe

variable {F : FTy → Type} [FloatOps F]

/-- The seventeen lists of host operations after the region, in program order. -/
abbrev sfxOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- The references that no host operation after the region may overwrite: the five arguments, the constant
    table, and the region's result. -/
abbrev guarded : List (Ref sig .tc) := [main_arg0, main_arg1, main_arg2, main_arg3, main_arg4, main_cst, main_v0]

/-! ## Nothing is allocated -/

/-- The one operation before the region allocates nothing. -/
theorem hostOps0_fresh : (hostOps0 : List (HloOp τ sig (Elt F))).Forall fun op => op.fresh = ∅ := by
  simp only [List.Forall]; repeat' constructor

theorem fresh_0 : (hostOps1 : List (HloOp τ sig (Elt F))).Forall fun op => op.fresh = ∅ := by
  simp only [List.Forall]; repeat' constructor
theorem fresh_1 : (hostOps1_1 : List (HloOp τ sig (Elt F))).Forall fun op => op.fresh = ∅ := by
  simp only [List.Forall]; repeat' constructor
theorem fresh_2 : (hostOps1_2 : List (HloOp τ sig (Elt F))).Forall fun op => op.fresh = ∅ := by
  simp only [List.Forall]; repeat' constructor
theorem fresh_3 : (hostOps1_3 : List (HloOp τ sig (Elt F))).Forall fun op => op.fresh = ∅ := by
  simp only [List.Forall]; repeat' constructor
theorem fresh_4 : (hostOps1_4 : List (HloOp τ sig (Elt F))).Forall fun op => op.fresh = ∅ := by
  simp only [List.Forall]; repeat' constructor
theorem fresh_5 : (hostOps1_5 : List (HloOp τ sig (Elt F))).Forall fun op => op.fresh = ∅ := by
  simp only [List.Forall]; repeat' constructor
theorem fresh_6 : (hostOps1_6 : List (HloOp τ sig (Elt F))).Forall fun op => op.fresh = ∅ := by
  simp only [List.Forall]; repeat' constructor
theorem fresh_7 : (hostOps1_7 : List (HloOp τ sig (Elt F))).Forall fun op => op.fresh = ∅ := by
  simp only [List.Forall]; repeat' constructor
theorem fresh_8 : (hostOps1_8 : List (HloOp τ sig (Elt F))).Forall fun op => op.fresh = ∅ := by
  simp only [List.Forall]; repeat' constructor
theorem fresh_9 : (hostOps1_9 : List (HloOp τ sig (Elt F))).Forall fun op => op.fresh = ∅ := by
  simp only [List.Forall]; repeat' constructor
theorem fresh_10 : (hostOps1_10 : List (HloOp τ sig (Elt F))).Forall fun op => op.fresh = ∅ := by
  simp only [List.Forall]; repeat' constructor
theorem fresh_11 : (hostOps1_11 : List (HloOp τ sig (Elt F))).Forall fun op => op.fresh = ∅ := by
  simp only [List.Forall]; repeat' constructor
theorem fresh_12 : (hostOps1_12 : List (HloOp τ sig (Elt F))).Forall fun op => op.fresh = ∅ := by
  simp only [List.Forall]; repeat' constructor
theorem fresh_13 : (hostOps1_13 : List (HloOp τ sig (Elt F))).Forall fun op => op.fresh = ∅ := by
  simp only [List.Forall]; repeat' constructor
theorem fresh_14 : (hostOps1_14 : List (HloOp τ sig (Elt F))).Forall fun op => op.fresh = ∅ := by
  simp only [List.Forall]; repeat' constructor
theorem fresh_15 : (hostOps1_15 : List (HloOp τ sig (Elt F))).Forall fun op => op.fresh = ∅ := by
  simp only [List.Forall]; repeat' constructor
theorem fresh_16 : (hostOps1_16 : List (HloOp τ sig (Elt F))).Forall fun op => op.fresh = ∅ := by
  simp only [List.Forall]; repeat' constructor

/-! ## Each list writes none of the guarded references

An operation's set of written buffers is the singleton of its result; the result is a different reference
from each guarded one, and distinct references are distinct device buffers. -/

set_option maxHeartbeats 2000000 in
theorem keeps_0 : (hostOps1 : List (HloOp τ sig (Elt F))).Forall fun op =>
    ∀ b ∈ guarded, Proc.devRef (τ := τ) .tc b ∉ op.writes := by
  simp only [hostOps1, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_1 : (hostOps1_1 : List (HloOp τ sig (Elt F))).Forall fun op =>
    ∀ b ∈ guarded, Proc.devRef (τ := τ) .tc b ∉ op.writes := by
  simp only [hostOps1_1, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_2 : (hostOps1_2 : List (HloOp τ sig (Elt F))).Forall fun op =>
    ∀ b ∈ guarded, Proc.devRef (τ := τ) .tc b ∉ op.writes := by
  simp only [hostOps1_2, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_3 : (hostOps1_3 : List (HloOp τ sig (Elt F))).Forall fun op =>
    ∀ b ∈ guarded, Proc.devRef (τ := τ) .tc b ∉ op.writes := by
  simp only [hostOps1_3, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_4 : (hostOps1_4 : List (HloOp τ sig (Elt F))).Forall fun op =>
    ∀ b ∈ guarded, Proc.devRef (τ := τ) .tc b ∉ op.writes := by
  simp only [hostOps1_4, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_5 : (hostOps1_5 : List (HloOp τ sig (Elt F))).Forall fun op =>
    ∀ b ∈ guarded, Proc.devRef (τ := τ) .tc b ∉ op.writes := by
  simp only [hostOps1_5, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_6 : (hostOps1_6 : List (HloOp τ sig (Elt F))).Forall fun op =>
    ∀ b ∈ guarded, Proc.devRef (τ := τ) .tc b ∉ op.writes := by
  simp only [hostOps1_6, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_7 : (hostOps1_7 : List (HloOp τ sig (Elt F))).Forall fun op =>
    ∀ b ∈ guarded, Proc.devRef (τ := τ) .tc b ∉ op.writes := by
  simp only [hostOps1_7, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_8 : (hostOps1_8 : List (HloOp τ sig (Elt F))).Forall fun op =>
    ∀ b ∈ guarded, Proc.devRef (τ := τ) .tc b ∉ op.writes := by
  simp only [hostOps1_8, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_9 : (hostOps1_9 : List (HloOp τ sig (Elt F))).Forall fun op =>
    ∀ b ∈ guarded, Proc.devRef (τ := τ) .tc b ∉ op.writes := by
  simp only [hostOps1_9, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_10 : (hostOps1_10 : List (HloOp τ sig (Elt F))).Forall fun op =>
    ∀ b ∈ guarded, Proc.devRef (τ := τ) .tc b ∉ op.writes := by
  simp only [hostOps1_10, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_11 : (hostOps1_11 : List (HloOp τ sig (Elt F))).Forall fun op =>
    ∀ b ∈ guarded, Proc.devRef (τ := τ) .tc b ∉ op.writes := by
  simp only [hostOps1_11, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_12 : (hostOps1_12 : List (HloOp τ sig (Elt F))).Forall fun op =>
    ∀ b ∈ guarded, Proc.devRef (τ := τ) .tc b ∉ op.writes := by
  simp only [hostOps1_12, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_13 : (hostOps1_13 : List (HloOp τ sig (Elt F))).Forall fun op =>
    ∀ b ∈ guarded, Proc.devRef (τ := τ) .tc b ∉ op.writes := by
  simp only [hostOps1_13, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_14 : (hostOps1_14 : List (HloOp τ sig (Elt F))).Forall fun op =>
    ∀ b ∈ guarded, Proc.devRef (τ := τ) .tc b ∉ op.writes := by
  simp only [hostOps1_14, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_15 : (hostOps1_15 : List (HloOp τ sig (Elt F))).Forall fun op =>
    ∀ b ∈ guarded, Proc.devRef (τ := τ) .tc b ∉ op.writes := by
  simp only [hostOps1_15, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_16 : (hostOps1_16 : List (HloOp τ sig (Elt F))).Forall fun op =>
    ∀ b ∈ guarded, Proc.devRef (τ := τ) .tc b ∉ op.writes := by
  simp only [hostOps1_16, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-! ## The three facts about the operations after the region -/

/-- Over all seventeen lists at once: no operation after the region writes a guarded reference. -/
theorem sfx_guard : ∀ ops ∈ (sfxOpss : List (List (HloOp τ sig (Elt F)))), ∀ op ∈ ops,
    ∀ b ∈ guarded, Proc.devRef (τ := τ) .tc b ∉ op.writes := by
  intro ops hops op hop
  simp only [sfxOpss, List.mem_cons, List.mem_nil_iff, or_false] at hops
  rcases hops with rfl | rfl | rfl | rfl | rfl | rfl | rfl | rfl | rfl | rfl | rfl | rfl | rfl | rfl | rfl | rfl | rfl
  · exact (List.forall_iff_forall_mem.mp keeps_0) op hop
  · exact (List.forall_iff_forall_mem.mp keeps_1) op hop
  · exact (List.forall_iff_forall_mem.mp keeps_2) op hop
  · exact (List.forall_iff_forall_mem.mp keeps_3) op hop
  · exact (List.forall_iff_forall_mem.mp keeps_4) op hop
  · exact (List.forall_iff_forall_mem.mp keeps_5) op hop
  · exact (List.forall_iff_forall_mem.mp keeps_6) op hop
  · exact (List.forall_iff_forall_mem.mp keeps_7) op hop
  · exact (List.forall_iff_forall_mem.mp keeps_8) op hop
  · exact (List.forall_iff_forall_mem.mp keeps_9) op hop
  · exact (List.forall_iff_forall_mem.mp keeps_10) op hop
  · exact (List.forall_iff_forall_mem.mp keeps_11) op hop
  · exact (List.forall_iff_forall_mem.mp keeps_12) op hop
  · exact (List.forall_iff_forall_mem.mp keeps_13) op hop
  · exact (List.forall_iff_forall_mem.mp keeps_14) op hop
  · exact (List.forall_iff_forall_mem.mp keeps_15) op hop
  · exact (List.forall_iff_forall_mem.mp keeps_16) op hop

/-- Every buffer a later operation touches is an array of the pipeline or a buffer bypassing it: with nothing
    prefetched these two kinds together are all the unscoped on-device references, and each operation touches
    only such references. -/
theorem sfx_sub : ∀ ops ∈ (sfxOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [sfxOpss, List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)

/-- No later operation allocates. -/
theorem sfx_fresh : ∀ ops ∈ (sfxOpss : List (List (HloOp τ sig (Elt F)))), ∀ op ∈ ops, op.fresh = ∅ := by
  intro ops hops op hop
  simp only [sfxOpss, List.mem_cons, List.mem_nil_iff, or_false] at hops
  rcases hops with rfl | rfl | rfl | rfl | rfl | rfl | rfl | rfl | rfl | rfl | rfl | rfl | rfl | rfl | rfl | rfl | rfl
  · exact (List.forall_iff_forall_mem.mp fresh_0) op hop
  · exact (List.forall_iff_forall_mem.mp fresh_1) op hop
  · exact (List.forall_iff_forall_mem.mp fresh_2) op hop
  · exact (List.forall_iff_forall_mem.mp fresh_3) op hop
  · exact (List.forall_iff_forall_mem.mp fresh_4) op hop
  · exact (List.forall_iff_forall_mem.mp fresh_5) op hop
  · exact (List.forall_iff_forall_mem.mp fresh_6) op hop
  · exact (List.forall_iff_forall_mem.mp fresh_7) op hop
  · exact (List.forall_iff_forall_mem.mp fresh_8) op hop
  · exact (List.forall_iff_forall_mem.mp fresh_9) op hop
  · exact (List.forall_iff_forall_mem.mp fresh_10) op hop
  · exact (List.forall_iff_forall_mem.mp fresh_11) op hop
  · exact (List.forall_iff_forall_mem.mp fresh_12) op hop
  · exact (List.forall_iff_forall_mem.mp fresh_13) op hop
  · exact (List.forall_iff_forall_mem.mp fresh_14) op hop
  · exact (List.forall_iff_forall_mem.mp fresh_15) op hop
  · exact (List.forall_iff_forall_mem.mp fresh_16) op hop

/-- No later operation writes an array of the pipeline: window 0 reads the first argument, window 1 the
    fourth, and window 2 writes the region's result; all three are guarded. -/
theorem sfx_keeps : ∀ ops ∈ (sfxOpss : List (List (HloOp τ sig (Elt F)))), ∀ op ∈ ops,
    ∀ w, Proc.devRef .tc (Pipeline.arrRef spec0 w) ∉ op.writes := by
  intro ops hops op hop w
  have h := sfx_guard ops hops op hop
  fin_cases w
  · exact h main_arg0 (by simp only [guarded, List.mem_cons, true_or, or_true])
  · exact h main_arg3 (by simp only [guarded, List.mem_cons, true_or, or_true])
  · exact h main_v0 (by simp only [guarded, List.mem_cons, true_or, or_true])

/-! ## Before the region: the arguments as launched, the table at its literal -/

/-- The one operation before the region writes the table only, so a reference other than the table keeps
    its contents. -/
theorem pre_kept_of_ne (V : Valuation τ sig (Elt F)) {r : Ref sig .tc} (h : r ≠ main_cst) :
    StableHlo.after (List.flatten [hostOps0]) V (Proc.devRef .tc r) = V (Proc.devRef .tc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.nullary_writes, Finset.mem_singleton]
    exact StableHlo.devRef_ne_of_ne h))

theorem pre_kept_arg0 (V : Valuation τ sig (Elt F)) :
    StableHlo.after (List.flatten [hostOps0]) V (Proc.devRef .tc main_arg0) = V (Proc.devRef .tc main_arg0) :=
  pre_kept_of_ne V (by decide)
theorem pre_kept_arg1 (V : Valuation τ sig (Elt F)) :
    StableHlo.after (List.flatten [hostOps0]) V (Proc.devRef .tc main_arg1) = V (Proc.devRef .tc main_arg1) :=
  pre_kept_of_ne V (by decide)
theorem pre_kept_arg2 (V : Valuation τ sig (Elt F)) :
    StableHlo.after (List.flatten [hostOps0]) V (Proc.devRef .tc main_arg2) = V (Proc.devRef .tc main_arg2) :=
  pre_kept_of_ne V (by decide)
theorem pre_kept_arg3 (V : Valuation τ sig (Elt F)) :
    StableHlo.after (List.flatten [hostOps0]) V (Proc.devRef .tc main_arg3) = V (Proc.devRef .tc main_arg3) :=
  pre_kept_of_ne V (by decide)
theorem pre_kept_arg4 (V : Valuation τ sig (Elt F)) :
    StableHlo.after (List.flatten [hostOps0]) V (Proc.devRef .tc main_arg4) = V (Proc.devRef .tc main_arg4) :=
  pre_kept_of_ne V (by decide)

/-- After the one operation before the region, the table holds its thirty-one literal entries. -/
theorem pre_table (V : Valuation τ sig (Elt F)) :
    StableHlo.after (List.flatten [hostOps0]) V (Proc.devRef .tc main_cst)
      = fun i => FloatOps.ofBits .f32 (lit0 (S31.rowMajor i)) := by
  simp only [hostOps0, List.flatten_cons, List.flatten_nil, List.append_nil, StableHlo.after_cons, StableHlo.after_nil]
  exact StableHlo.nullary_result main_cst _ _ V

/-! ## After the region: the arguments and the table are never overwritten -/

/-- A guarded reference keeps its contents through all seventeen lists run in order. -/
theorem sfx_kept_of_mem (V : Valuation τ sig (Elt F)) {r : Ref sig .tc} (h : r ∈ guarded) :
    StableHlo.after (sfxOpss (F := F)).flatten V (Proc.devRef .tc r) = V (Proc.devRef .tc r) :=
  StableHlo.after_of_forall_not_mem (b := Proc.devRef .tc r) _ _ (fun op hop => by
    obtain ⟨ops, hops, hin⟩ := List.mem_flatten.mp hop
    exact sfx_guard ops hops op hin r h)

theorem sfx_kept_arg0 (V : Valuation τ sig (Elt F)) :
    StableHlo.after (sfxOpss (F := F)).flatten V (Proc.devRef .tc main_arg0) = V (Proc.devRef .tc main_arg0) :=
  sfx_kept_of_mem V (by simp only [guarded, List.mem_cons, true_or, or_true])
theorem sfx_kept_arg1 (V : Valuation τ sig (Elt F)) :
    StableHlo.after (sfxOpss (F := F)).flatten V (Proc.devRef .tc main_arg1) = V (Proc.devRef .tc main_arg1) :=
  sfx_kept_of_mem V (by simp only [guarded, List.mem_cons, true_or, or_true])
theorem sfx_kept_arg2 (V : Valuation τ sig (Elt F)) :
    StableHlo.after (sfxOpss (F := F)).flatten V (Proc.devRef .tc main_arg2) = V (Proc.devRef .tc main_arg2) :=
  sfx_kept_of_mem V (by simp only [guarded, List.mem_cons, true_or, or_true])
theorem sfx_kept_arg3 (V : Valuation τ sig (Elt F)) :
    StableHlo.after (sfxOpss (F := F)).flatten V (Proc.devRef .tc main_arg3) = V (Proc.devRef .tc main_arg3) :=
  sfx_kept_of_mem V (by simp only [guarded, List.mem_cons, true_or, or_true])
theorem sfx_kept_arg4 (V : Valuation τ sig (Elt F)) :
    StableHlo.after (sfxOpss (F := F)).flatten V (Proc.devRef .tc main_arg4) = V (Proc.devRef .tc main_arg4) :=
  sfx_kept_of_mem V (by simp only [guarded, List.mem_cons, true_or, or_true])
theorem sfx_kept_table (V : Valuation τ sig (Elt F)) :
    StableHlo.after (sfxOpss (F := F)).flatten V (Proc.devRef .tc main_cst) = V (Proc.devRef .tc main_cst) :=
  sfx_kept_of_mem V (by simp only [guarded, List.mem_cons, true_or, or_true])

end Cert.Kernel.Hand

end
-- ==== Proof.KFrame.lean ====
/-
  The frame run of the kernel's program: @main is one host operation (the table), the kernel region, and the host
  operations after it. The region's run is the library's frame run around a region; what it needs of the host
  operations after the region is structural (they touch unscoped buffers only, allocate nothing, and write none of the
  region's arrays), and what it gives is every array of the region at what the proof data says and every other
  buffer at what the later operations compute from them. The five arguments end as launched: no host operation
  writes one, and the region only reads the two it stages.
-/
import proofs.«404843_j25503515804375_1_alg».proof.Proof.KBody
import proofs.«404843_j25503515804375_1_alg».proof.Proof.KTailFacts

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- @main around the region: the table's line before it, the region, the later lines as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfxOpss (F := F)).map StableHlo.seq)) :=
  Pipeline.hmain_around cfgs 0 defs₀ 𝒱₀ m main [hostOps0] sfxOpss (by simp only [List.Forall]; exact hostOps0_sub)
    (by simp only [List.Forall]; exact hostOps0_fresh) main_chain

set_option backward.isDefEq.respectTransparency.types false in
/-- Every weakly fair execution of @main terminates; at the end every array of the region holds what the proof data
    computes and every other unscoped buffer what the later host operations leave. -/
theorem run_main : θ_run defs (onTc (τ := τ) (main (F := F))) (s₀ m ρ)
    (Pipeline.FramePost cfgs (dats m) 0 (Pipeline.afterTail₀ cfgs (dats m) 0 (V0 m) sfxOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfxOpss) (hsub := sfx_sub) (hfresh := sfx_fresh) (hkeep := sfx_keeps)
    (hmain := hmain m Variants.none) (hA := A_eq m) (hΦ := fun _ _ => rfl)

/-- An argument no window stages ends as launched: the later lines do not write it, the region does not see it, the
    table's line does not write it. -/
theorem tail_arg1 (c : Dev nD) : Pipeline.afterTail₀ cfgs (dats m) 0 (V0 m) sfxOpss c main_arg1 = m ((c : Thread nD τ).loc main_arg1) := by
  unfold Pipeline.afterTail₀
  rw [sfx_kept_arg1, Pipeline.withArrays_of_ne _ c (V0 m c) _ main_arg1 (by exact (by decide : ∀ w, Pipeline.arrRef spec0 w ≠ main_arg1))]
  exact pre_kept_arg1 _
theorem tail_arg2 (c : Dev nD) : Pipeline.afterTail₀ cfgs (dats m) 0 (V0 m) sfxOpss c main_arg2 = m ((c : Thread nD τ).loc main_arg2) := by
  unfold Pipeline.afterTail₀
  rw [sfx_kept_arg2, Pipeline.withArrays_of_ne _ c (V0 m c) _ main_arg2 (by exact (by decide : ∀ w, Pipeline.arrRef spec0 w ≠ main_arg2))]
  exact pre_kept_arg2 _
theorem tail_arg4 (c : Dev nD) : Pipeline.afterTail₀ cfgs (dats m) 0 (V0 m) sfxOpss c main_arg4 = m ((c : Thread nD τ).loc main_arg4) := by
  unfold Pipeline.afterTail₀
  rw [sfx_kept_arg4, Pipeline.withArrays_of_ne _ c (V0 m c) _ main_arg4 (by exact (by decide : ∀ w, Pipeline.arrRef spec0 w ≠ main_arg4))]
  exact pre_kept_arg4 _

/-- The arguments of any frame run's end state: the two staged ones are input arrays of the region, the other three
    bypass it. -/
theorem args_of_post (r : PUnit × MemSt nD τ sig (Elt F))
    (h : Pipeline.FramePost cfgs (dats m) 0 (Pipeline.afterTail₀ cfgs (dats m) 0 (V0 m) sfxOpss) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans ((A_eq m c 0).trans (pre_kept_arg0 _))),
   ((h c).2 main_arg1 (Pipeline.mem_restRefs_of main_arg1 (by decide) (by decide))).trans (tail_arg1 m c),
   ((h c).2 main_arg2 (Pipeline.mem_restRefs_of main_arg2 (by decide) (by decide))).trans (tail_arg2 m c),
   ((h c).1 1).trans (((dats m 0 c).arrAt_in 1 rfl _).trans ((A_eq m c 1).trans (pre_kept_arg3 _))),
   ((h c).2 main_arg4 (Pipeline.mem_restRefs_of main_arg4 (by decide) (by decide))).trans (tail_arg4 m c)⟩

/-- THE FRAME: the program runs to the end, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_of_post m r h c) (run_main m ρ)

end Cert.Kernel.Hand

end
-- ==== Proof.KIBody.lean ====
/-
  The kernel region of the program, on its own: what the body of the cross-entropy kernel leaves in its output
  block, and the data the pipeline's frame run is stated over.

  The pallas_call has three windows over a grid of 64 points: window 0 is a 512 × 1000 block of the scores (rows
  512 t … 512 t + 511 at point t), window 1 the 512 labels of those rows, window 2 the 512 losses it writes back.
  At every point the body loads the two input blocks whole, computes one value per row and stores the 512 values
  over the whole output block; it keeps nothing between points. So the output block after the body is one piece,
  the body's arithmetic (the payload) applied to the two input blocks, and each input block is what the region
  found in its array.
-/
import proofs.«404843_j25503515804375_1_alg».proof.Proof.Gen.KernelIdeal.Launch
import proofs.«404843_j25503515804375_1_alg».proof.Proof.Gen.KernelIdeal.Skeleton
import proofs.«404843_j25503515804375_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the one host operation
    before it (the 31-entry table). -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The scores' staging buffer holds the scores' block at every point, for any proof data over these arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the labels' staging buffer. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The whole scores block, the whole labels block, the whole loss block, as rectangles. -/
abbrev rScores : Rect S512x1000 := Rect.unit (s := S512x1000) ![0, 0] S512x1000.size inb_S512x1000_S512x1000_0_0
abbrev rRows : Rect S512 := Rect.unit (s := S512) ![0] S512.size inb_S512_S512_0

/-- The loss block after the body: its one store, the body's arithmetic of the two blocks it loaded. -/
def out0_2 (x0 : Vec F S512x1000 .f32) (x1 : Vec F S512 .i32) : Vec F S512 .f32 :=
  View.canon [⟨rRows, k0_pay1 (View.ld x0 rScores) (View.ld x1 rRows)⟩]

/-- The one store covers the block. -/
theorem cover0_2 (p0 : Vec F S512 .f32) (y : S512.Idx) :
    ∃ pc ∈ ([⟨rRows, p0⟩] : List (View.Piece (Elt F) S512 .f32)), y ∈ pc.1.set :=
  View.cover_of_tiled [⟨rRows, p0⟩] S512.size (by rfl) y

set_option maxHeartbeats 1000000 in
/-- The body on whole staging memrefs — the two inputs' at contents `x0`, `x1`, the output's at anything — runs to
    the continuation with the inputs' as they were and the output's at `out0_2 x0 x1`. -/
theorem sound_kernel (c : Dev nD) (E : Set ℕ) (i : grid0.Coords) (arg1 : Memref sig .tc .vmem S512x1000 .f32) (harg1 : arg1.IsWhole)
    (arg2 : Memref sig .tc .vmem S512 .i32) (harg2 : arg2.IsWhole) (arg3 : Memref sig .tc .vmem S512 .f32) (harg3 : arg3.IsWhole)
    (x0 : Vec F S512x1000 .f32) (x1 : Vec F S512 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__cross_entropy_kernel i arg1 harg1 arg2 harg2 arg3 harg3) K := by
  simp only [cc0__cross_entropy_kernel_eq_skeleton]; unfold cc0__cross_entropy_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them; after the body at point `t` each
    input's buffer at its block and the output's at `out0_2` of the two input blocks; the class invariant (nothing of the
    kernel's own); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KITailFacts.lean ====
import proofs.«404843_j25503515804375_1_alg».proof.Proof.Gen.KernelIdeal.Launch
import Idealize.ShloMosaic.Lib.Pipeline.FrameSuffix
import Idealize.ShloMosaic.Lib.StableHlo.Run

/-! # The host operations around the kernel region: which buffers they touch

The program is one host operation (a constant table), the kernel region, and then seventeen lists of host
operations. Every host operation writes exactly one buffer, its own result, and that result is never one of
the five argument arrays, the constant table, or the region's result array. From this single fact per list
follow: the three arrays the region's windows read and write are left alone by everything after the region;
the arguments and the table are the same before and after each stretch of host operations; no host operation
allocates; and every buffer a later operation touches is an unscoped on-device reference. -/

set_option maxRecDepth 8192

noncomputable section

namespace Cert.KernelIdeal.Hand

open Cert.KernelIdeal Cert.KernelIdeal.Gen Idealize.ShloMosaic Idealize.ShloMosaic.TcCoe

variable {F : FTy → Type} [FloatOps F]

/-- The seventeen lists of host operations after the region, in program order. -/
abbrev sfxOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- The references that no host operation after the region may overwrite: the five arguments, the constant
    table, and the region's result. -/
abbrev guarded : List (Ref sig .tc) := [main_arg0, main_arg1, main_arg2, main_arg3, main_arg4, main_cst, main_v0]

/-! ## Nothing is allocated -/

/-- The one operation before the region allocates nothing. -/
theorem hostOps0_fresh : (hostOps0 : List (HloOp τ sig (Elt F))).Forall fun op => op.fresh = ∅ := by
  simp only [List.Forall]; repeat' constructor

theorem fresh_0 : (hostOps1 : List (HloOp τ sig (Elt F))).Forall fun op => op.fresh = ∅ := by
  simp only [List.Forall]; repeat' constructor
theorem fresh_1 : (hostOps1_1 : List (HloOp τ sig (Elt F))).Forall fun op => op.fresh = ∅ := by
  simp only [List.Forall]; repeat' constructor
theorem fresh_2 : (hostOps1_2 : List (HloOp τ sig (Elt F))).Forall fun op => op.fresh = ∅ := by
  simp only [List.Forall]; repeat' constructor
theorem fresh_3 : (hostOps1_3 : List (HloOp τ sig (Elt F))).Forall fun op => op.fresh = ∅ := by
  simp only [List.Forall]; repeat' constructor
theorem fresh_4 : (hostOps1_4 : List (HloOp τ sig (Elt F))).Forall fun op => op.fresh = ∅ := by
  simp only [List.Forall]; repeat' constructor
theorem fresh_5 : (hostOps1_5 : List (HloOp τ sig (Elt F))).Forall fun op => op.fresh = ∅ := by
  simp only [List.Forall]; repeat' constructor
theorem fresh_6 : (hostOps1_6 : List (HloOp τ sig (Elt F))).Forall fun op => op.fresh = ∅ := by
  simp only [List.Forall]; repeat' constructor
theorem fresh_7 : (hostOps1_7 : List (HloOp τ sig (Elt F))).Forall fun op => op.fresh = ∅ := by
  simp only [List.Forall]; repeat' constructor
theorem fresh_8 : (hostOps1_8 : List (HloOp τ sig (Elt F))).Forall fun op => op.fresh = ∅ := by
  simp only [List.Forall]; repeat' constructor
theorem fresh_9 : (hostOps1_9 : List (HloOp τ sig (Elt F))).Forall fun op => op.fresh = ∅ := by
  simp only [List.Forall]; repeat' constructor
theorem fresh_10 : (hostOps1_10 : List (HloOp τ sig (Elt F))).Forall fun op => op.fresh = ∅ := by
  simp only [List.Forall]; repeat' constructor
theorem fresh_11 : (hostOps1_11 : List (HloOp τ sig (Elt F))).Forall fun op => op.fresh = ∅ := by
  simp only [List.Forall]; repeat' constructor
theorem fresh_12 : (hostOps1_12 : List (HloOp τ sig (Elt F))).Forall fun op => op.fresh = ∅ := by
  simp only [List.Forall]; repeat' constructor
theorem fresh_13 : (hostOps1_13 : List (HloOp τ sig (Elt F))).Forall fun op => op.fresh = ∅ := by
  simp only [List.Forall]; repeat' constructor
theorem fresh_14 : (hostOps1_14 : List (HloOp τ sig (Elt F))).Forall fun op => op.fresh = ∅ := by
  simp only [List.Forall]; repeat' constructor
theorem fresh_15 : (hostOps1_15 : List (HloOp τ sig (Elt F))).Forall fun op => op.fresh = ∅ := by
  simp only [List.Forall]; repeat' constructor
theorem fresh_16 : (hostOps1_16 : List (HloOp τ sig (Elt F))).Forall fun op => op.fresh = ∅ := by
  simp only [List.Forall]; repeat' constructor

/-! ## Each list writes none of the guarded references

An operation's set of written buffers is the singleton of its result; the result is a different reference
from each guarded one, and distinct references are distinct device buffers. -/

set_option maxHeartbeats 2000000 in
theorem keeps_0 : (hostOps1 : List (HloOp τ sig (Elt F))).Forall fun op =>
    ∀ b ∈ guarded, Proc.devRef (τ := τ) .tc b ∉ op.writes := by
  simp only [hostOps1, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_1 : (hostOps1_1 : List (HloOp τ sig (Elt F))).Forall fun op =>
    ∀ b ∈ guarded, Proc.devRef (τ := τ) .tc b ∉ op.writes := by
  simp only [hostOps1_1, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_2 : (hostOps1_2 : List (HloOp τ sig (Elt F))).Forall fun op =>
    ∀ b ∈ guarded, Proc.devRef (τ := τ) .tc b ∉ op.writes := by
  simp only [hostOps1_2, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_3 : (hostOps1_3 : List (HloOp τ sig (Elt F))).Forall fun op =>
    ∀ b ∈ guarded, Proc.devRef (τ := τ) .tc b ∉ op.writes := by
  simp only [hostOps1_3, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_4 : (hostOps1_4 : List (HloOp τ sig (Elt F))).Forall fun op =>
    ∀ b ∈ guarded, Proc.devRef (τ := τ) .tc b ∉ op.writes := by
  simp only [hostOps1_4, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_5 : (hostOps1_5 : List (HloOp τ sig (Elt F))).Forall fun op =>
    ∀ b ∈ guarded, Proc.devRef (τ := τ) .tc b ∉ op.writes := by
  simp only [hostOps1_5, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_6 : (hostOps1_6 : List (HloOp τ sig (Elt F))).Forall fun op =>
    ∀ b ∈ guarded, Proc.devRef (τ := τ) .tc b ∉ op.writes := by
  simp only [hostOps1_6, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_7 : (hostOps1_7 : List (HloOp τ sig (Elt F))).Forall fun op =>
    ∀ b ∈ guarded, Proc.devRef (τ := τ) .tc b ∉ op.writes := by
  simp only [hostOps1_7, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_8 : (hostOps1_8 : List (HloOp τ sig (Elt F))).Forall fun op =>
    ∀ b ∈ guarded, Proc.devRef (τ := τ) .tc b ∉ op.writes := by
  simp only [hostOps1_8, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_9 : (hostOps1_9 : List (HloOp τ sig (Elt F))).Forall fun op =>
    ∀ b ∈ guarded, Proc.devRef (τ := τ) .tc b ∉ op.writes := by
  simp only [hostOps1_9, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_10 : (hostOps1_10 : List (HloOp τ sig (Elt F))).Forall fun op =>
    ∀ b ∈ guarded, Proc.devRef (τ := τ) .tc b ∉ op.writes := by
  simp only [hostOps1_10, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_11 : (hostOps1_11 : List (HloOp τ sig (Elt F))).Forall fun op =>
    ∀ b ∈ guarded, Proc.devRef (τ := τ) .tc b ∉ op.writes := by
  simp only [hostOps1_11, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_12 : (hostOps1_12 : List (HloOp τ sig (Elt F))).Forall fun op =>
    ∀ b ∈ guarded, Proc.devRef (τ := τ) .tc b ∉ op.writes := by
  simp only [hostOps1_12, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_13 : (hostOps1_13 : List (HloOp τ sig (Elt F))).Forall fun op =>
    ∀ b ∈ guarded, Proc.devRef (τ := τ) .tc b ∉ op.writes := by
  simp only [hostOps1_13, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_14 : (hostOps1_14 : List (HloOp τ sig (Elt F))).Forall fun op =>
    ∀ b ∈ guarded, Proc.devRef (τ := τ) .tc b ∉ op.writes := by
  simp only [hostOps1_14, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_15 : (hostOps1_15 : List (HloOp τ sig (Elt F))).Forall fun op =>
    ∀ b ∈ guarded, Proc.devRef (τ := τ) .tc b ∉ op.writes := by
  simp only [hostOps1_15, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 2000000 in
theorem keeps_16 : (hostOps1_16 : List (HloOp τ sig (Elt F))).Forall fun op =>
    ∀ b ∈ guarded, Proc.devRef (τ := τ) .tc b ∉ op.writes := by
  simp only [hostOps1_16, guarded, List.Forall, List.forall_mem_cons, List.not_mem_nil, forall_false, implies_true, and_true, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-! ## The three facts about the operations after the region -/

/-- Over all seventeen lists at once: no operation after the region writes a guarded reference. -/
theorem sfx_guard : ∀ ops ∈ (sfxOpss : List (List (HloOp τ sig (Elt F)))), ∀ op ∈ ops,
    ∀ b ∈ guarded, Proc.devRef (τ := τ) .tc b ∉ op.writes := by
  intro ops hops op hop
  simp only [sfxOpss, List.mem_cons, List.mem_nil_iff, or_false] at hops
  rcases hops with rfl | rfl | rfl | rfl | rfl | rfl | rfl | rfl | rfl | rfl | rfl | rfl | rfl | rfl | rfl | rfl | rfl
  · exact (List.forall_iff_forall_mem.mp keeps_0) op hop
  · exact (List.forall_iff_forall_mem.mp keeps_1) op hop
  · exact (List.forall_iff_forall_mem.mp keeps_2) op hop
  · exact (List.forall_iff_forall_mem.mp keeps_3) op hop
  · exact (List.forall_iff_forall_mem.mp keeps_4) op hop
  · exact (List.forall_iff_forall_mem.mp keeps_5) op hop
  · exact (List.forall_iff_forall_mem.mp keeps_6) op hop
  · exact (List.forall_iff_forall_mem.mp keeps_7) op hop
  · exact (List.forall_iff_forall_mem.mp keeps_8) op hop
  · exact (List.forall_iff_forall_mem.mp keeps_9) op hop
  · exact (List.forall_iff_forall_mem.mp keeps_10) op hop
  · exact (List.forall_iff_forall_mem.mp keeps_11) op hop
  · exact (List.forall_iff_forall_mem.mp keeps_12) op hop
  · exact (List.forall_iff_forall_mem.mp keeps_13) op hop
  · exact (List.forall_iff_forall_mem.mp keeps_14) op hop
  · exact (List.forall_iff_forall_mem.mp keeps_15) op hop
  · exact (List.forall_iff_forall_mem.mp keeps_16) op hop

/-- Every buffer a later operation touches is an array of the pipeline or a buffer bypassing it: with nothing
    prefetched these two kinds together are all the unscoped on-device references, and each operation touches
    only such references. -/
theorem sfx_sub : ∀ ops ∈ (sfxOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [sfxOpss, List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)

/-- No later operation allocates. -/
theorem sfx_fresh : ∀ ops ∈ (sfxOpss : List (List (HloOp τ sig (Elt F)))), ∀ op ∈ ops, op.fresh = ∅ := by
  intro ops hops op hop
  simp only [sfxOpss, List.mem_cons, List.mem_nil_iff, or_false] at hops
  rcases hops with rfl | rfl | rfl | rfl | rfl | rfl | rfl | rfl | rfl | rfl | rfl | rfl | rfl | rfl | rfl | rfl | rfl
  · exact (List.forall_iff_forall_mem.mp fresh_0) op hop
  · exact (List.forall_iff_forall_mem.mp fresh_1) op hop
  · exact (List.forall_iff_forall_mem.mp fresh_2) op hop
  · exact (List.forall_iff_forall_mem.mp fresh_3) op hop
  · exact (List.forall_iff_forall_mem.mp fresh_4) op hop
  · exact (List.forall_iff_forall_mem.mp fresh_5) op hop
  · exact (List.forall_iff_forall_mem.mp fresh_6) op hop
  · exact (List.forall_iff_forall_mem.mp fresh_7) op hop
  · exact (List.forall_iff_forall_mem.mp fresh_8) op hop
  · exact (List.forall_iff_forall_mem.mp fresh_9) op hop
  · exact (List.forall_iff_forall_mem.mp fresh_10) op hop
  · exact (List.forall_iff_forall_mem.mp fresh_11) op hop
  · exact (List.forall_iff_forall_mem.mp fresh_12) op hop
  · exact (List.forall_iff_forall_mem.mp fresh_13) op hop
  · exact (List.forall_iff_forall_mem.mp fresh_14) op hop
  · exact (List.forall_iff_forall_mem.mp fresh_15) op hop
  · exact (List.forall_iff_forall_mem.mp fresh_16) op hop

/-- No later operation writes an array of the pipeline: window 0 reads the first argument, window 1 the
    fourth, and window 2 writes the region's result; all three are guarded. -/
theorem sfx_keeps : ∀ ops ∈ (sfxOpss : List (List (HloOp τ sig (Elt F)))), ∀ op ∈ ops,
    ∀ w, Proc.devRef .tc (Pipeline.arrRef spec0 w) ∉ op.writes := by
  intro ops hops op hop w
  have h := sfx_guard ops hops op hop
  fin_cases w
  · exact h main_arg0 (by simp only [guarded, List.mem_cons, true_or, or_true])
  · exact h main_arg3 (by simp only [guarded, List.mem_cons, true_or, or_true])
  · exact h main_v0 (by simp only [guarded, List.mem_cons, true_or, or_true])

/-! ## Before the region: the arguments as launched, the table at its literal -/

/-- The one operation before the region writes the table only, so a reference other than the table keeps
    its contents. -/
theorem pre_kept_of_ne (V : Valuation τ sig (Elt F)) {r : Ref sig .tc} (h : r ≠ main_cst) :
    StableHlo.after (List.flatten [hostOps0]) V (Proc.devRef .tc r) = V (Proc.devRef .tc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.nullary_writes, Finset.mem_singleton]
    exact StableHlo.devRef_ne_of_ne h))

theorem pre_kept_arg0 (V : Valuation τ sig (Elt F)) :
    StableHlo.after (List.flatten [hostOps0]) V (Proc.devRef .tc main_arg0) = V (Proc.devRef .tc main_arg0) :=
  pre_kept_of_ne V (by decide)
theorem pre_kept_arg1 (V : Valuation τ sig (Elt F)) :
    StableHlo.after (List.flatten [hostOps0]) V (Proc.devRef .tc main_arg1) = V (Proc.devRef .tc main_arg1) :=
  pre_kept_of_ne V (by decide)
theorem pre_kept_arg2 (V : Valuation τ sig (Elt F)) :
    StableHlo.after (List.flatten [hostOps0]) V (Proc.devRef .tc main_arg2) = V (Proc.devRef .tc main_arg2) :=
  pre_kept_of_ne V (by decide)
theorem pre_kept_arg3 (V : Valuation τ sig (Elt F)) :
    StableHlo.after (List.flatten [hostOps0]) V (Proc.devRef .tc main_arg3) = V (Proc.devRef .tc main_arg3) :=
  pre_kept_of_ne V (by decide)
theorem pre_kept_arg4 (V : Valuation τ sig (Elt F)) :
    StableHlo.after (List.flatten [hostOps0]) V (Proc.devRef .tc main_arg4) = V (Proc.devRef .tc main_arg4) :=
  pre_kept_of_ne V (by decide)

/-- After the one operation before the region, the table holds its thirty-one literal entries. -/
theorem pre_table (V : Valuation τ sig (Elt F)) :
    StableHlo.after (List.flatten [hostOps0]) V (Proc.devRef .tc main_cst)
      = fun i => FloatOps.ofBits .f32 (lit0 (S31.rowMajor i)) := by
  simp only [hostOps0, List.flatten_cons, List.flatten_nil, List.append_nil, StableHlo.after_cons, StableHlo.after_nil]
  exact StableHlo.nullary_result main_cst _ _ V

/-! ## After the region: the arguments and the table are never overwritten -/

/-- A guarded reference keeps its contents through all seventeen lists run in order. -/
theorem sfx_kept_of_mem (V : Valuation τ sig (Elt F)) {r : Ref sig .tc} (h : r ∈ guarded) :
    StableHlo.after (sfxOpss (F := F)).flatten V (Proc.devRef .tc r) = V (Proc.devRef .tc r) :=
  StableHlo.after_of_forall_not_mem (b := Proc.devRef .tc r) _ _ (fun op hop => by
    obtain ⟨ops, hops, hin⟩ := List.mem_flatten.mp hop
    exact sfx_guard ops hops op hin r h)

theorem sfx_kept_arg0 (V : Valuation τ sig (Elt F)) :
    StableHlo.after (sfxOpss (F := F)).flatten V (Proc.devRef .tc main_arg0) = V (Proc.devRef .tc main_arg0) :=
  sfx_kept_of_mem V (by simp only [guarded, List.mem_cons, true_or, or_true])
theorem sfx_kept_arg1 (V : Valuation τ sig (Elt F)) :
    StableHlo.after (sfxOpss (F := F)).flatten V (Proc.devRef .tc main_arg1) = V (Proc.devRef .tc main_arg1) :=
  sfx_kept_of_mem V (by simp only [guarded, List.mem_cons, true_or, or_true])
theorem sfx_kept_arg2 (V : Valuation τ sig (Elt F)) :
    StableHlo.after (sfxOpss (F := F)).flatten V (Proc.devRef .tc main_arg2) = V (Proc.devRef .tc main_arg2) :=
  sfx_kept_of_mem V (by simp only [guarded, List.mem_cons, true_or, or_true])
theorem sfx_kept_arg3 (V : Valuation τ sig (Elt F)) :
    StableHlo.after (sfxOpss (F := F)).flatten V (Proc.devRef .tc main_arg3) = V (Proc.devRef .tc main_arg3) :=
  sfx_kept_of_mem V (by simp only [guarded, List.mem_cons, true_or, or_true])
theorem sfx_kept_arg4 (V : Valuation τ sig (Elt F)) :
    StableHlo.after (sfxOpss (F := F)).flatten V (Proc.devRef .tc main_arg4) = V (Proc.devRef .tc main_arg4) :=
  sfx_kept_of_mem V (by simp only [guarded, List.mem_cons, true_or, or_true])
theorem sfx_kept_table (V : Valuation τ sig (Elt F)) :
    StableHlo.after (sfxOpss (F := F)).flatten V (Proc.devRef .tc main_cst) = V (Proc.devRef .tc main_cst) :=
  sfx_kept_of_mem V (by simp only [guarded, List.mem_cons, true_or, or_true])

end Cert.KernelIdeal.Hand

end
-- ==== Proof.KIFrame.lean ====
/-
  The frame run of the kernel's program: @main is one host operation (the table), the kernel region, and the host
  operations after it. The region's run is the library's frame run around a region; what it needs of the host
  operations after the region is structural (they touch unscoped buffers only, allocate nothing, and write none of the
  region's arrays), and what it gives is every array of the region at what the proof data says and every other
  buffer at what the later operations compute from them. The five arguments end as launched: no host operation
  writes one, and the region only reads the two it stages.
-/
import proofs.«404843_j25503515804375_1_alg».proof.Proof.KIBody
import proofs.«404843_j25503515804375_1_alg».proof.Proof.KITailFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- @main around the region: the table's line before it, the region, the later lines as its continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfxOpss (F := F)).map StableHlo.seq)) :=
  Pipeline.hmain_around cfgs 0 defs₀ 𝒱₀ m main [hostOps0] sfxOpss (by simp only [List.Forall]; exact hostOps0_sub)
    (by simp only [List.Forall]; exact hostOps0_fresh) main_chain

set_option backward.isDefEq.respectTransparency.types false in
/-- Every weakly fair execution of @main terminates; at the end every array of the region holds what the proof data
    computes and every other unscoped buffer what the later host operations leave. -/
theorem run_main : θ_run defs (onTc (τ := τ) (main (F := F))) (s₀ m ρ)
    (Pipeline.FramePost cfgs (dats m) 0 (Pipeline.afterTail₀ cfgs (dats m) 0 (V0 m) sfxOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfxOpss) (hsub := sfx_sub) (hfresh := sfx_fresh) (hkeep := sfx_keeps)
    (hmain := hmain m Variants.none) (hA := A_eq m) (hΦ := fun _ _ => rfl)

/-- An argument no window stages ends as launched: the later lines do not write it, the region does not see it, the
    table's line does not write it. -/
theorem tail_arg1 (c : Dev nD) : Pipeline.afterTail₀ cfgs (dats m) 0 (V0 m) sfxOpss c main_arg1 = m ((c : Thread nD τ).loc main_arg1) := by
  unfold Pipeline.afterTail₀
  rw [sfx_kept_arg1, Pipeline.withArrays_of_ne _ c (V0 m c) _ main_arg1 (by exact (by decide : ∀ w, Pipeline.arrRef spec0 w ≠ main_arg1))]
  exact pre_kept_arg1 _
theorem tail_arg2 (c : Dev nD) : Pipeline.afterTail₀ cfgs (dats m) 0 (V0 m) sfxOpss c main_arg2 = m ((c : Thread nD τ).loc main_arg2) := by
  unfold Pipeline.afterTail₀
  rw [sfx_kept_arg2, Pipeline.withArrays_of_ne _ c (V0 m c) _ main_arg2 (by exact (by decide : ∀ w, Pipeline.arrRef spec0 w ≠ main_arg2))]
  exact pre_kept_arg2 _
theorem tail_arg4 (c : Dev nD) : Pipeline.afterTail₀ cfgs (dats m) 0 (V0 m) sfxOpss c main_arg4 = m ((c : Thread nD τ).loc main_arg4) := by
  unfold Pipeline.afterTail₀
  rw [sfx_kept_arg4, Pipeline.withArrays_of_ne _ c (V0 m c) _ main_arg4 (by exact (by decide : ∀ w, Pipeline.arrRef spec0 w ≠ main_arg4))]
  exact pre_kept_arg4 _

/-- The arguments of any frame run's end state: the two staged ones are input arrays of the region, the other three
    bypass it. -/
theorem args_of_post (r : PUnit × MemSt nD τ sig (Elt F))
    (h : Pipeline.FramePost cfgs (dats m) 0 (Pipeline.afterTail₀ cfgs (dats m) 0 (V0 m) sfxOpss) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans ((A_eq m c 0).trans (pre_kept_arg0 _))),
   ((h c).2 main_arg1 (Pipeline.mem_restRefs_of main_arg1 (by decide) (by decide))).trans (tail_arg1 m c),
   ((h c).2 main_arg2 (Pipeline.mem_restRefs_of main_arg2 (by decide) (by decide))).trans (tail_arg2 m c),
   ((h c).1 1).trans (((dats m 0 c).arrAt_in 1 rfl _).trans ((A_eq m c 1).trans (pre_kept_arg3 _))),
   ((h c).2 main_arg4 (Pipeline.mem_restRefs_of main_arg4 (by decide) (by decide))).trans (tail_arg4 m c)⟩

/-- THE FRAME: the program runs to the end, faults nowhere, and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_of_post m r h c) (run_main m ρ)

end Cert.KernelIdeal.Hand

end
-- ==== Proof.Spec.lean ====
/- Laid out by a script (bun scratch/gen_spec.js) from the printed host operations of this directory's programs: one `let` per
   operation, in the printed order, nothing else. The host side both programs share, after the per-row loss: the running
   per-bin averages of the loss (by instance index and by class label), the table interpolation of each, and the mean of the
   loss weighted by the product of the two interpolated confidences. -/
import proofs.«404843_j25503515804375_1_alg».proof.KernelIdeal

set_option maxRecDepth 16384

noncomputable section

namespace Cert.Spec

open Idealize.ShloMosaic Cert.KernelIdeal Cert.KernelIdeal.Facts₀ Cert.KernelIdeal.Facts

variable {F : FTy → Type} [FloatOps F] [Cert.KernelIdeal.Facts]

/-- The 31-entry table the interpolation reads. -/
def tab : (⟨S31, .f32⟩ : BufTy).Contents (Elt F) :=
  fun i => FloatOps.ofBits .f32 (lit0 (S31.rowMajor i))

/-- The loss averaged per instance bin and blended into the per-instance memory, read back at each row's instance index. -/
def smoothIns (main_v0 : (⟨S32768, .f32⟩ : BufTy).Contents (Elt F)) (main_arg4 : (⟨S32768, .i32⟩ : BufTy).Contents (Elt F)) (main_arg1 : (⟨S1000000, .f32⟩ : BufTy).Contents (Elt F)) :
    (⟨S32768, .f32⟩ : BufTy).Contents (Elt F) :=
  let main_cst_0 : (⟨S_, .f32⟩ : BufTy).Contents (Elt F) := (constant (F := F) S_ .f32 0x00000000#32)
  let main_v1 : (⟨S1000000, .f32⟩ : BufTy).Contents (Elt F) := (broadcastInDim S1000000 ![] bcast_S_S1000000 : (⟨S_, .f32⟩ : BufTy).Contents (Elt F) → (⟨S1000000, .f32⟩ : BufTy).Contents (Elt F)) main_cst_0
  let main_v2 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) main_arg4
  let main_v3 : (⟨S1000000, .f32⟩ : BufTy).Contents (Elt F) := ((fun x i u => Host.scatterAdd scatter_S1000000_S32768x1_S32768_n_0_0_1 x i u) : (⟨S1000000, .f32⟩ : BufTy).Contents (Elt F) → (⟨S32768x1, .i32⟩ : BufTy).Contents (Elt F) → (⟨S32768, .f32⟩ : BufTy).Contents (Elt F) → (⟨S1000000, .f32⟩ : BufTy).Contents (Elt F)) main_v1 main_v2 main_v0
  let main_cst_1 : (⟨S_, .f32⟩ : BufTy).Contents (Elt F) := (constant (F := F) S_ .f32 0x3F800000#32)
  let main_v4 : (⟨S32768, .f32⟩ : BufTy).Contents (Elt F) := (broadcastInDim S32768 ![] bcast_S_S32768 : (⟨S_, .f32⟩ : BufTy).Contents (Elt F) → (⟨S32768, .f32⟩ : BufTy).Contents (Elt F)) main_cst_1
  let main_cst_2 : (⟨S_, .f32⟩ : BufTy).Contents (Elt F) := (constant (F := F) S_ .f32 0x00000000#32)
  let main_v5 : (⟨S1000000, .f32⟩ : BufTy).Contents (Elt F) := (broadcastInDim S1000000 ![] bcast_S_S1000000 : (⟨S_, .f32⟩ : BufTy).Contents (Elt F) → (⟨S1000000, .f32⟩ : BufTy).Contents (Elt F)) main_cst_2
  let main_v6 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) main_arg4
  let main_v7 : (⟨S1000000, .f32⟩ : BufTy).Contents (Elt F) := ((fun x i u => Host.scatterAdd scatter_S1000000_S32768x1_S32768_n_0_0_1 x i u) : (⟨S1000000, .f32⟩ : BufTy).Contents (Elt F) → (⟨S32768x1, .i32⟩ : BufTy).Contents (Elt F) → (⟨S32768, .f32⟩ : BufTy).Contents (Elt F) → (⟨S1000000, .f32⟩ : BufTy).Contents (Elt F)) main_v5 main_v6 main_v4
  let main_cst_3 : (⟨S_, .f32⟩ : BufTy).Contents (Elt F) := (constant (F := F) S_ .f32 0x00000000#32)
  let main_v8 : (⟨S1000000, .f32⟩ : BufTy).Contents (Elt F) := (broadcastInDim S1000000 ![] bcast_S_S1000000 : (⟨S_, .f32⟩ : BufTy).Contents (Elt F) → (⟨S1000000, .f32⟩ : BufTy).Contents (Elt F)) main_cst_3
  let main_v9 : (⟨S1000000, .i1⟩ : BufTy).Contents (Elt F) := (cmpf .ogt : (⟨S1000000, .f32⟩ : BufTy).Contents (Elt F) → (⟨S1000000, .f32⟩ : BufTy).Contents (Elt F) → (⟨S1000000, .i1⟩ : BufTy).Contents (Elt F)) main_v7 main_v8
  let main_cst_4 : (⟨S_, .f32⟩ : BufTy).Contents (Elt F) := (constant (F := F) S_ .f32 0x3F800000#32)
  let main_v10 : (⟨S1000000, .f32⟩ : BufTy).Contents (Elt F) := (broadcastInDim S1000000 ![] bcast_S_S1000000 : (⟨S_, .f32⟩ : BufTy).Contents (Elt F) → (⟨S1000000, .f32⟩ : BufTy).Contents (Elt F)) main_cst_4
  let main_v11 : (⟨S1000000, .f32⟩ : BufTy).Contents (Elt F) := (maximumf : (⟨S1000000, .f32⟩ : BufTy).Contents (Elt F) → (⟨S1000000, .f32⟩ : BufTy).Contents (Elt F) → (⟨S1000000, .f32⟩ : BufTy).Contents (Elt F)) main_v7 main_v10
  let main_v12 : (⟨S1000000, .f32⟩ : BufTy).Contents (Elt F) := (Host.divf : (⟨S1000000, .f32⟩ : BufTy).Contents (Elt F) → (⟨S1000000, .f32⟩ : BufTy).Contents (Elt F) → (⟨S1000000, .f32⟩ : BufTy).Contents (Elt F)) main_v3 main_v11
  let main_cst_5 : (⟨S_, .f32⟩ : BufTy).Contents (Elt F) := (constant (F := F) S_ .f32 0x00000000#32)
  let main_call0_v0 : (⟨S_, .f32⟩ : BufTy).Contents (Elt F) := (id : (⟨S_, .f32⟩ : BufTy).Contents (Elt F) → (⟨S_, .f32⟩ : BufTy).Contents (Elt F)) main_cst_5
  let main_call0_v1 : (⟨S1000000, .f32⟩ : BufTy).Contents (Elt F) := (broadcastInDim S1000000 ![] bcast_S_S1000000 : (⟨S_, .f32⟩ : BufTy).Contents (Elt F) → (⟨S1000000, .f32⟩ : BufTy).Contents (Elt F)) main_call0_v0
  let main_v13 : (⟨S1000000, .f32⟩ : BufTy).Contents (Elt F) := (select : (⟨S1000000, .i1⟩ : BufTy).Contents (Elt F) → (⟨S1000000, .f32⟩ : BufTy).Contents (Elt F) → (⟨S1000000, .f32⟩ : BufTy).Contents (Elt F) → (⟨S1000000, .f32⟩ : BufTy).Contents (Elt F)) main_v9 main_v12 main_call0_v1
  let main_cst_6 : (⟨S_, .f32⟩ : BufTy).Contents (Elt F) := (constant (F := F) S_ .f32 0x3F666666#32)
  let main_v14 : (⟨S1000000, .f32⟩ : BufTy).Contents (Elt F) := (broadcastInDim S1000000 ![] bcast_S_S1000000 : (⟨S_, .f32⟩ : BufTy).Contents (Elt F) → (⟨S1000000, .f32⟩ : BufTy).Contents (Elt F)) main_cst_6
  let main_v15 : (⟨S1000000, .f32⟩ : BufTy).Contents (Elt F) := (Host.powf : (⟨S1000000, .f32⟩ : BufTy).Contents (Elt F) → (⟨S1000000, .f32⟩ : BufTy).Contents (Elt F) → (⟨S1000000, .f32⟩ : BufTy).Contents (Elt F)) main_v14 main_v7
  let main_v16 : (⟨S1000000, .f32⟩ : BufTy).Contents (Elt F) := (mulf : (⟨S1000000, .f32⟩ : BufTy).Contents (Elt F) → (⟨S1000000, .f32⟩ : BufTy).Contents (Elt F) → (⟨S1000000, .f32⟩ : BufTy).Contents (Elt F)) main_v15 main_arg1
  let main_cst_7 : (⟨S_, .f32⟩ : BufTy).Contents (Elt F) := (constant (F := F) S_ .f32 0x3F800000#32)
  let main_v17 : (⟨S1000000, .f32⟩ : BufTy).Contents (Elt F) := (broadcastInDim S1000000 ![] bcast_S_S1000000 : (⟨S_, .f32⟩ : BufTy).Contents (Elt F) → (⟨S1000000, .f32⟩ : BufTy).Contents (Elt F)) main_cst_7
  let main_v18 : (⟨S1000000, .f32⟩ : BufTy).Contents (Elt F) := (subf : (⟨S1000000, .f32⟩ : BufTy).Contents (Elt F) → (⟨S1000000, .f32⟩ : BufTy).Contents (Elt F) → (⟨S1000000, .f32⟩ : BufTy).Contents (Elt F)) main_v17 main_v15
  let main_v19 : (⟨S1000000, .f32⟩ : BufTy).Contents (Elt F) := (mulf : (⟨S1000000, .f32⟩ : BufTy).Contents (Elt F) → (⟨S1000000, .f32⟩ : BufTy).Contents (Elt F) → (⟨S1000000, .f32⟩ : BufTy).Contents (Elt F)) main_v18 main_v13
  let main_v20 : (⟨S1000000, .f32⟩ : BufTy).Contents (Elt F) := (addf : (⟨S1000000, .f32⟩ : BufTy).Contents (Elt F) → (⟨S1000000, .f32⟩ : BufTy).Contents (Elt F) → (⟨S1000000, .f32⟩ : BufTy).Contents (Elt F)) main_v16 main_v19
  let main_v21 : (⟨S1000000, .f32⟩ : BufTy).Contents (Elt F) := (select : (⟨S1000000, .i1⟩ : BufTy).Contents (Elt F) → (⟨S1000000, .f32⟩ : BufTy).Contents (Elt F) → (⟨S1000000, .f32⟩ : BufTy).Contents (Elt F) → (⟨S1000000, .f32⟩ : BufTy).Contents (Elt F)) main_v9 main_v20 main_arg1
  let main_c : (⟨S_, .i32⟩ : BufTy).Contents (Elt F) := (constantI S_ 32 0#32)
  let main_v22 : (⟨S32768, .i32⟩ : BufTy).Contents (Elt F) := (broadcastInDim S32768 ![] bcast_S_S32768 : (⟨S_, .i32⟩ : BufTy).Contents (Elt F) → (⟨S32768, .i32⟩ : BufTy).Contents (Elt F)) main_c
  let main_v23 : (⟨S32768, .i1⟩ : BufTy).Contents (Elt F) := (cmpi .slt : (⟨S32768, .i32⟩ : BufTy).Contents (Elt F) → (⟨S32768, .i32⟩ : BufTy).Contents (Elt F) → (⟨S32768, .i1⟩ : BufTy).Contents (Elt F)) main_arg4 main_v22
  let main_c_8 : (⟨S_, .i32⟩ : BufTy).Contents (Elt F) := (constantI S_ 32 1000000#32)
  let main_v24 : (⟨S32768, .i32⟩ : BufTy).Contents (Elt F) := (broadcastInDim S32768 ![] bcast_S_S32768 : (⟨S_, .i32⟩ : BufTy).Contents (Elt F) → (⟨S32768, .i32⟩ : BufTy).Contents (Elt F)) main_c_8
  let main_v25 : (⟨S32768, .i32⟩ : BufTy).Contents (Elt F) := (addi : (⟨S32768, .i32⟩ : BufTy).Contents (Elt F) → (⟨S32768, .i32⟩ : BufTy).Contents (Elt F) → (⟨S32768, .i32⟩ : BufTy).Contents (Elt F)) main_arg4 main_v24
  let main_v26 : (⟨S32768, .i32⟩ : BufTy).Contents (Elt F) := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v23 main_v25 main_arg4
  let main_v27 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) main_v26
  let main_v28 : (⟨S32768, .f32⟩ : BufTy).Contents (Elt F) := ((fun x i => Host.gather gather_S1000000_S32768x1_S32768_n_0_n_n_0_1_1 x i) : (⟨S1000000, .f32⟩ : BufTy).Contents (Elt F) → (⟨S32768x1, .i32⟩ : BufTy).Contents (Elt F) → (⟨S32768, .f32⟩ : BufTy).Contents (Elt F)) main_v21 main_v27
  main_v28

/-- The confidence: the 31-entry table interpolated linearly at the (clipped, log-scaled) smoothed loss, exponentiated. -/
def optConf (main_cst : (⟨S31, .f32⟩ : BufTy).Contents (Elt F)) (main_v28 : (⟨S32768, .f32⟩ : BufTy).Contents (Elt F)) :
    (⟨S32768, .f32⟩ : BufTy).Contents (Elt F) :=
  let main_cst_9 : (⟨S_, .f32⟩ : BufTy).Contents (Elt F) := (constant (F := F) S_ .f32 0x3F800000#32)
  let main_v29 : (⟨S32768, .f32⟩ : BufTy).Contents (Elt F) := (broadcastInDim S32768 ![] bcast_S_S32768 : (⟨S_, .f32⟩ : BufTy).Contents (Elt F) → (⟨S32768, .f32⟩ : BufTy).Contents (Elt F)) main_cst_9
  let main_v30 : (⟨S32768, .f32⟩ : BufTy).Contents (Elt F) := (Host.divf : (⟨S32768, .f32⟩ : BufTy).Contents (Elt F) → (⟨S32768, .f32⟩ : BufTy).Contents (Elt F) → (⟨S32768, .f32⟩ : BufTy).Contents (Elt F)) main_v28 main_v29
  let main_cst_10 : (⟨S_, .f32⟩ : BufTy).Contents (Elt F) := (constant (F := F) S_ .f32 0x3F4010C7#32)
  let main_v31 : (⟨S32768, .f32⟩ : BufTy).Contents (Elt F) := (broadcastInDim S32768 ![] bcast_S_S32768 : (⟨S_, .f32⟩ : BufTy).Contents (Elt F) → (⟨S32768, .f32⟩ : BufTy).Contents (Elt F)) main_cst_10
  let main_v32 : (⟨S32768, .f32⟩ : BufTy).Contents (Elt F) := (addf : (⟨S32768, .f32⟩ : BufTy).Contents (Elt F) → (⟨S32768, .f32⟩ : BufTy).Contents (Elt F) → (⟨S32768, .f32⟩ : BufTy).Contents (Elt F)) main_v30 main_v31
  let main_v33 : (⟨S32768, .f32⟩ : BufTy).Contents (Elt F) := (Host.log : (⟨S32768, .f32⟩ : BufTy).Contents (Elt F) → (⟨S32768, .f32⟩ : BufTy).Contents (Elt F)) main_v32
  let main_cst_11 : (⟨S_, .f32⟩ : BufTy).Contents (Elt F) := (constant (F := F) S_ .f32 0x3FAB2250#32)
  let main_v34 : (⟨S32768, .f32⟩ : BufTy).Contents (Elt F) := (broadcastInDim S32768 ![] bcast_S_S32768 : (⟨S_, .f32⟩ : BufTy).Contents (Elt F) → (⟨S32768, .f32⟩ : BufTy).Contents (Elt F)) main_cst_11
  let main_v35 : (⟨S32768, .f32⟩ : BufTy).Contents (Elt F) := (subf : (⟨S32768, .f32⟩ : BufTy).Contents (Elt F) → (⟨S32768, .f32⟩ : BufTy).Contents (Elt F) → (⟨S32768, .f32⟩ : BufTy).Contents (Elt F)) main_v33 main_v34
  let main_cst_12 : (⟨S_, .f32⟩ : BufTy).Contents (Elt F) := (constant (F := F) S_ .f32 0x40B243C1#32)
  let main_v36 : (⟨S32768, .f32⟩ : BufTy).Contents (Elt F) := (broadcastInDim S32768 ![] bcast_S_S32768 : (⟨S_, .f32⟩ : BufTy).Contents (Elt F) → (⟨S32768, .f32⟩ : BufTy).Contents (Elt F)) main_cst_12
  let main_v37 : (⟨S32768, .f32⟩ : BufTy).Contents (Elt F) := (Host.divf : (⟨S32768, .f32⟩ : BufTy).Contents (Elt F) → (⟨S32768, .f32⟩ : BufTy).Contents (Elt F) → (⟨S32768, .f32⟩ : BufTy).Contents (Elt F)) main_v35 main_v36
  let main_v38 : (⟨S32768, .i1⟩ : BufTy).Contents (Elt F) := (cmpf .une : (⟨S32768, .f32⟩ : BufTy).Contents (Elt F) → (⟨S32768, .f32⟩ : BufTy).Contents (Elt F) → (⟨S32768, .i1⟩ : BufTy).Contents (Elt F)) main_v37 main_v37
  let main_cst_13 : (⟨S_, .f32⟩ : BufTy).Contents (Elt F) := (constant (F := F) S_ .f32 0xBF800000#32)
  let main_call2_v0 : (⟨S_, .f32⟩ : BufTy).Contents (Elt F) := (id : (⟨S_, .f32⟩ : BufTy).Contents (Elt F) → (⟨S_, .f32⟩ : BufTy).Contents (Elt F)) main_cst_13
  let main_call2_v1 : (⟨S32768, .f32⟩ : BufTy).Contents (Elt F) := (broadcastInDim S32768 ![] bcast_S_S32768 : (⟨S_, .f32⟩ : BufTy).Contents (Elt F) → (⟨S32768, .f32⟩ : BufTy).Contents (Elt F)) main_call2_v0
  let main_v39 : (⟨S32768, .f32⟩ : BufTy).Contents (Elt F) := (select : (⟨S32768, .i1⟩ : BufTy).Contents (Elt F) → (⟨S32768, .f32⟩ : BufTy).Contents (Elt F) → (⟨S32768, .f32⟩ : BufTy).Contents (Elt F) → (⟨S32768, .f32⟩ : BufTy).Contents (Elt F)) main_v38 main_call2_v1 main_v37
  let main_cst_14 : (⟨S_, .f32⟩ : BufTy).Contents (Elt F) := (constant (F := F) S_ .f32 0x3F800000#32)
  let main_v40 : (⟨S32768, .f32⟩ : BufTy).Contents (Elt F) := (broadcastInDim S32768 ![] bcast_S_S32768 : (⟨S_, .f32⟩ : BufTy).Contents (Elt F) → (⟨S32768, .f32⟩ : BufTy).Contents (Elt F)) main_cst_14
  let main_v41 : (⟨S32768, .f32⟩ : BufTy).Contents (Elt F) := (addf : (⟨S32768, .f32⟩ : BufTy).Contents (Elt F) → (⟨S32768, .f32⟩ : BufTy).Contents (Elt F) → (⟨S32768, .f32⟩ : BufTy).Contents (Elt F)) main_v39 main_v40
  let main_cst_15 : (⟨S_, .f32⟩ : BufTy).Contents (Elt F) := (constant (F := F) S_ .f32 0x3F000000#32)
  let main_v42 : (⟨S32768, .f32⟩ : BufTy).Contents (Elt F) := (broadcastInDim S32768 ![] bcast_S_S32768 : (⟨S_, .f32⟩ : BufTy).Contents (Elt F) → (⟨S32768, .f32⟩ : BufTy).Contents (Elt F)) main_cst_15
  let main_v43 : (⟨S32768, .f32⟩ : BufTy).Contents (Elt F) := (mulf : (⟨S32768, .f32⟩ : BufTy).Contents (Elt F) → (⟨S32768, .f32⟩ : BufTy).Contents (Elt F) → (⟨S32768, .f32⟩ : BufTy).Contents (Elt F)) main_v41 main_v42
  let main_cst_16 : (⟨S_, .f32⟩ : BufTy).Contents (Elt F) := (constant (F := F) S_ .f32 0x41F00000#32)
  let main_v44 : (⟨S32768, .f32⟩ : BufTy).Contents (Elt F) := (broadcastInDim S32768 ![] bcast_S_S32768 : (⟨S_, .f32⟩ : BufTy).Contents (Elt F) → (⟨S32768, .f32⟩ : BufTy).Contents (Elt F)) main_cst_16
  let main_v45 : (⟨S32768, .f32⟩ : BufTy).Contents (Elt F) := (mulf : (⟨S32768, .f32⟩ : BufTy).Contents (Elt F) → (⟨S32768, .f32⟩ : BufTy).Contents (Elt F) → (⟨S32768, .f32⟩ : BufTy).Contents (Elt F)) main_v43 main_v44
  let main_cst_17 : (⟨S_, .f32⟩ : BufTy).Contents (Elt F) := (constant (F := F) S_ .f32 0x00000000#32)
  let main_c_18 : (⟨S_, .i32⟩ : BufTy).Contents (Elt F) := (constantI S_ 32 30#32)
  let main_call3_v0 : (⟨S_, .f32⟩ : BufTy).Contents (Elt F) := (id : (⟨S_, .f32⟩ : BufTy).Contents (Elt F) → (⟨S_, .f32⟩ : BufTy).Contents (Elt F)) main_cst_17
  let main_call3_v1 : (⟨S32768, .f32⟩ : BufTy).Contents (Elt F) := (broadcastInDim S32768 ![] bcast_S_S32768 : (⟨S_, .f32⟩ : BufTy).Contents (Elt F) → (⟨S32768, .f32⟩ : BufTy).Contents (Elt F)) main_call3_v0
  let main_call3_v2 : (⟨S32768, .f32⟩ : BufTy).Contents (Elt F) := (maximumf : (⟨S32768, .f32⟩ : BufTy).Contents (Elt F) → (⟨S32768, .f32⟩ : BufTy).Contents (Elt F) → (⟨S32768, .f32⟩ : BufTy).Contents (Elt F)) main_call3_v1 main_v45
  let main_call3_v3 : (⟨S_, .f32⟩ : BufTy).Contents (Elt F) := (sitofp .f32 : (⟨S_, .i32⟩ : BufTy).Contents (Elt F) → (⟨S_, .f32⟩ : BufTy).Contents (Elt F)) main_c_18
  let main_call3_v4 : (⟨S32768, .f32⟩ : BufTy).Contents (Elt F) := (broadcastInDim S32768 ![] bcast_S_S32768 : (⟨S_, .f32⟩ : BufTy).Contents (Elt F) → (⟨S32768, .f32⟩ : BufTy).Contents (Elt F)) main_call3_v3
  let main_v46 : (⟨S32768, .f32⟩ : BufTy).Contents (Elt F) := (minimumf : (⟨S32768, .f32⟩ : BufTy).Contents (Elt F) → (⟨S32768, .f32⟩ : BufTy).Contents (Elt F) → (⟨S32768, .f32⟩ : BufTy).Contents (Elt F)) main_call3_v4 main_call3_v2
  let main_v47 : (⟨S32768, .f32⟩ : BufTy).Contents (Elt F) := (Host.floor : (⟨S32768, .f32⟩ : BufTy).Contents (Elt F) → (⟨S32768, .f32⟩ : BufTy).Contents (Elt F)) main_v46
  let main_v48 : (⟨S32768, .f32⟩ : BufTy).Contents (Elt F) := (subf : (⟨S32768, .f32⟩ : BufTy).Contents (Elt F) → (⟨S32768, .f32⟩ : BufTy).Contents (Elt F) → (⟨S32768, .f32⟩ : BufTy).Contents (Elt F)) main_v46 main_v47
  let main_v49 : (⟨S32768, .i32⟩ : BufTy).Contents (Elt F) := (fptosi 32 : (⟨S32768, .f32⟩ : BufTy).Contents (Elt F) → (⟨S32768, .i32⟩ : BufTy).Contents (Elt F)) main_v47
  let main_c_19 : (⟨S_, .i32⟩ : BufTy).Contents (Elt F) := (constantI S_ 32 1#32)
  let main_v50 : (⟨S32768, .i32⟩ : BufTy).Contents (Elt F) := (broadcastInDim S32768 ![] bcast_S_S32768 : (⟨S_, .i32⟩ : BufTy).Contents (Elt F) → (⟨S32768, .i32⟩ : BufTy).Contents (Elt F)) main_c_19
  let main_v51 : (⟨S32768, .i32⟩ : BufTy).Contents (Elt F) := (addi : (⟨S32768, .i32⟩ : BufTy).Contents (Elt F) → (⟨S32768, .i32⟩ : BufTy).Contents (Elt F) → (⟨S32768, .i32⟩ : BufTy).Contents (Elt F)) main_v49 main_v50
  let main_c_20 : (⟨S_, .i32⟩ : BufTy).Contents (Elt F) := (constantI S_ 32 30#32)
  let main_v52 : (⟨S32768, .i32⟩ : BufTy).Contents (Elt F) := (broadcastInDim S32768 ![] bcast_S_S32768 : (⟨S_, .i32⟩ : BufTy).Contents (Elt F) → (⟨S32768, .i32⟩ : BufTy).Contents (Elt F)) main_c_20
  let main_v53 : (⟨S32768, .i32⟩ : BufTy).Contents (Elt F) := (minsi : (⟨S32768, .i32⟩ : BufTy).Contents (Elt F) → (⟨S32768, .i32⟩ : BufTy).Contents (Elt F) → (⟨S32768, .i32⟩ : BufTy).Contents (Elt F)) main_v51 main_v52
  let main_c_21 : (⟨S_, .i32⟩ : BufTy).Contents (Elt F) := (constantI S_ 32 0#32)
  let main_v54 : (⟨S32768, .i32⟩ : BufTy).Contents (Elt F) := (broadcastInDim S32768 ![] bcast_S_S32768 : (⟨S_, .i32⟩ : BufTy).Contents (Elt F) → (⟨S32768, .i32⟩ : BufTy).Contents (Elt F)) main_c_21
  let main_v55 : (⟨S32768, .i1⟩ : BufTy).Contents (Elt F) := (cmpi .slt : (⟨S32768, .i32⟩ : BufTy).Contents (Elt F) → (⟨S32768, .i32⟩ : BufTy).Contents (Elt F) → (⟨S32768, .i1⟩ : BufTy).Contents (Elt F)) main_v49 main_v54
  let main_c_22 : (⟨S_, .i32⟩ : BufTy).Contents (Elt F) := (constantI S_ 32 31#32)
  let main_v56 : (⟨S32768, .i32⟩ : BufTy).Contents (Elt F) := (broadcastInDim S32768 ![] bcast_S_S32768 : (⟨S_, .i32⟩ : BufTy).Contents (Elt F) → (⟨S32768, .i32⟩ : BufTy).Contents (Elt F)) main_c_22
  let main_v57 : (⟨S32768, .i32⟩ : BufTy).Contents (Elt F) := (addi : (⟨S32768, .i32⟩ : BufTy).Contents (Elt F) → (⟨S32768, .i32⟩ : BufTy).Contents (Elt F) → (⟨S32768, .i32⟩ : BufTy).Contents (Elt F)) main_v49 main_v56
  let main_v58 : (⟨S32768, .i32⟩ : BufTy).Contents (Elt F) := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v55 main_v57 main_v49
  let main_v59 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) main_v58
  let main_v60 : (⟨S32768, .f32⟩ : BufTy).Contents (Elt F) := ((fun x i => Host.gather gather_S31_S32768x1_S32768_n_0_n_n_0_1_1 x i) : (⟨S31, .f32⟩ : BufTy).Contents (Elt F) → (⟨S32768x1, .i32⟩ : BufTy).Contents (Elt F) → (⟨S32768, .f32⟩ : BufTy).Contents (Elt F)) main_cst main_v59
  let main_cst_23 : (⟨S_, .f32⟩ : BufTy).Contents (Elt F) := (constant (F := F) S_ .f32 0x3F800000#32)
  let main_v61 : (⟨S32768, .f32⟩ : BufTy).Contents (Elt F) := (broadcastInDim S32768 ![] bcast_S_S32768 : (⟨S_, .f32⟩ : BufTy).Contents (Elt F) → (⟨S32768, .f32⟩ : BufTy).Contents (Elt F)) main_cst_23
  let main_v62 : (⟨S32768, .f32⟩ : BufTy).Contents (Elt F) := (subf : (⟨S32768, .f32⟩ : BufTy).Contents (Elt F) → (⟨S32768, .f32⟩ : BufTy).Contents (Elt F) → (⟨S32768, .f32⟩ : BufTy).Contents (Elt F)) main_v61 main_v48
  let main_v63 : (⟨S32768, .f32⟩ : BufTy).Contents (Elt F) := (mulf : (⟨S32768, .f32⟩ : BufTy).Contents (Elt F) → (⟨S32768, .f32⟩ : BufTy).Contents (Elt F) → (⟨S32768, .f32⟩ : BufTy).Contents (Elt F)) main_v60 main_v62
  let main_c_24 : (⟨S_, .i32⟩ : BufTy).Contents (Elt F) := (constantI S_ 32 0#32)
  let main_v64 : (⟨S32768, .i32⟩ : BufTy).Contents (Elt F) := (broadcastInDim S32768 ![] bcast_S_S32768 : (⟨S_, .i32⟩ : BufTy).Contents (Elt F) → (⟨S32768, .i32⟩ : BufTy).Contents (Elt F)) main_c_24
  let main_v65 : (⟨S32768, .i1⟩ : BufTy).Contents (Elt F) := (cmpi .slt : (⟨S32768, .i32⟩ : BufTy).Contents (Elt F) → (⟨S32768, .i32⟩ : BufTy).Contents (Elt F) → (⟨S32768, .i1⟩ : BufTy).Contents (Elt F)) main_v53 main_v64
  let main_c_25 : (⟨S_, .i32⟩ : BufTy).Contents (Elt F) := (constantI S_ 32 31#32)
  let main_v66 : (⟨S32768, .i32⟩ : BufTy).Contents (Elt F) := (broadcastInDim S32768 ![] bcast_S_S32768 : (⟨S_, .i32⟩ : BufTy).Contents (Elt F) → (⟨S32768, .i32⟩ : BufTy).Contents (Elt F)) main_c_25
  let main_v67 : (⟨S32768, .i32⟩ : BufTy).Contents (Elt F) := (addi : (⟨S32768, .i32⟩ : BufTy).Contents (Elt F) → (⟨S32768, .i32⟩ : BufTy).Contents (Elt F) → (⟨S32768, .i32⟩ : BufTy).Contents (Elt F)) main_v53 main_v66
  let main_v68 : (⟨S32768, .i32⟩ : BufTy).Contents (Elt F) := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v65 main_v67 main_v53
  let main_v69 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) main_v68
  let main_v70 : (⟨S32768, .f32⟩ : BufTy).Contents (Elt F) := ((fun x i => Host.gather gather_S31_S32768x1_S32768_n_0_n_n_0_1_1 x i) : (⟨S31, .f32⟩ : BufTy).Contents (Elt F) → (⟨S32768x1, .i32⟩ : BufTy).Contents (Elt F) → (⟨S32768, .f32⟩ : BufTy).Contents (Elt F)) main_cst main_v69
  let main_v71 : (⟨S32768, .f32⟩ : BufTy).Contents (Elt F) := (mulf : (⟨S32768, .f32⟩ : BufTy).Contents (Elt F) → (⟨S32768, .f32⟩ : BufTy).Contents (Elt F) → (⟨S32768, .f32⟩ : BufTy).Contents (Elt F)) main_v70 main_v48
  let main_v72 : (⟨S32768, .f32⟩ : BufTy).Contents (Elt F) := (addf : (⟨S32768, .f32⟩ : BufTy).Contents (Elt F) → (⟨S32768, .f32⟩ : BufTy).Contents (Elt F) → (⟨S32768, .f32⟩ : BufTy).Contents (Elt F)) main_v63 main_v71
  let main_v73 : (⟨S32768, .f32⟩ : BufTy).Contents (Elt F) := (Host.exp : (⟨S32768, .f32⟩ : BufTy).Contents (Elt F) → (⟨S32768, .f32⟩ : BufTy).Contents (Elt F)) main_v72
  main_v73

/-- The loss averaged per class bin and blended into the per-class memory, read back at each row's label. -/
def smoothCls (main_v0 : (⟨S32768, .f32⟩ : BufTy).Contents (Elt F)) (main_arg3 : (⟨S32768, .i32⟩ : BufTy).Contents (Elt F)) (main_arg2 : (⟨S1000, .f32⟩ : BufTy).Contents (Elt F)) :
    (⟨S32768, .f32⟩ : BufTy).Contents (Elt F) :=
  let main_cst_26 : (⟨S_, .f32⟩ : BufTy).Contents (Elt F) := (constant (F := F) S_ .f32 0x00000000#32)
  let main_v74 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_26
  let main_v75 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) main_arg3
  let main_v76 : (⟨S1000, .f32⟩ : BufTy).Contents (Elt F) := ((fun x i u => Host.scatterAdd scatter_S1000_S32768x1_S32768_n_0_0_1 x i u) : (⟨S1000, .f32⟩ : BufTy).Contents (Elt F) → (⟨S32768x1, .i32⟩ : BufTy).Contents (Elt F) → (⟨S32768, .f32⟩ : BufTy).Contents (Elt F) → (⟨S1000, .f32⟩ : BufTy).Contents (Elt F)) main_v74 main_v75 main_v0
  let main_cst_27 : (⟨S_, .f32⟩ : BufTy).Contents (Elt F) := (constant (F := F) S_ .f32 0x3F800000#32)
  let main_v77 : (⟨S32768, .f32⟩ : BufTy).Contents (Elt F) := (broadcastInDim S32768 ![] bcast_S_S32768 : (⟨S_, .f32⟩ : BufTy).Contents (Elt F) → (⟨S32768, .f32⟩ : BufTy).Contents (Elt F)) main_cst_27
  let main_cst_28 : (⟨S_, .f32⟩ : BufTy).Contents (Elt F) := (constant (F := F) S_ .f32 0x00000000#32)
  let main_v78 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_28
  let main_v79 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) main_arg3
  let main_v80 : (⟨S1000, .f32⟩ : BufTy).Contents (Elt F) := ((fun x i u => Host.scatterAdd scatter_S1000_S32768x1_S32768_n_0_0_1 x i u) : (⟨S1000, .f32⟩ : BufTy).Contents (Elt F) → (⟨S32768x1, .i32⟩ : BufTy).Contents (Elt F) → (⟨S32768, .f32⟩ : BufTy).Contents (Elt F) → (⟨S1000, .f32⟩ : BufTy).Contents (Elt F)) main_v78 main_v79 main_v77
  let main_cst_29 : (⟨S_, .f32⟩ : BufTy).Contents (Elt F) := (constant (F := F) S_ .f32 0x00000000#32)
  let main_v81 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_29
  let main_v82 : (⟨S1000, .i1⟩ : BufTy).Contents (Elt F) := (cmpf .ogt : (⟨S1000, .f32⟩ : BufTy).Contents (Elt F) → (⟨S1000, .f32⟩ : BufTy).Contents (Elt F) → (⟨S1000, .i1⟩ : BufTy).Contents (Elt F)) main_v80 main_v81
  let main_cst_30 : (⟨S_, .f32⟩ : BufTy).Contents (Elt F) := (constant (F := F) S_ .f32 0x3F800000#32)
  let main_v83 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_30
  let main_v84 : (⟨S1000, .f32⟩ : BufTy).Contents (Elt F) := (maximumf : (⟨S1000, .f32⟩ : BufTy).Contents (Elt F) → (⟨S1000, .f32⟩ : BufTy).Contents (Elt F) → (⟨S1000, .f32⟩ : BufTy).Contents (Elt F)) main_v80 main_v83
  let main_v85 : (⟨S1000, .f32⟩ : BufTy).Contents (Elt F) := (Host.divf : (⟨S1000, .f32⟩ : BufTy).Contents (Elt F) → (⟨S1000, .f32⟩ : BufTy).Contents (Elt F) → (⟨S1000, .f32⟩ : BufTy).Contents (Elt F)) main_v76 main_v84
  let main_cst_31 : (⟨S_, .f32⟩ : BufTy).Contents (Elt F) := (constant (F := F) S_ .f32 0x00000000#32)
  let main_call4_v0 : (⟨S_, .f32⟩ : BufTy).Contents (Elt F) := (id : (⟨S_, .f32⟩ : BufTy).Contents (Elt F) → (⟨S_, .f32⟩ : BufTy).Contents (Elt F)) main_cst_31
  let main_call4_v1 : (⟨S1000, .f32⟩ : BufTy).Contents (Elt F) := (broadcastInDim S1000 ![] bcast_S_S1000 : (⟨S_, .f32⟩ : BufTy).Contents (Elt F) → (⟨S1000, .f32⟩ : BufTy).Contents (Elt F)) main_call4_v0
  let main_v86 : (⟨S1000, .f32⟩ : BufTy).Contents (Elt F) := (select : (⟨S1000, .i1⟩ : BufTy).Contents (Elt F) → (⟨S1000, .f32⟩ : BufTy).Contents (Elt F) → (⟨S1000, .f32⟩ : BufTy).Contents (Elt F) → (⟨S1000, .f32⟩ : BufTy).Contents (Elt F)) main_v82 main_v85 main_call4_v1
  let main_cst_32 : (⟨S_, .f32⟩ : BufTy).Contents (Elt F) := (constant (F := F) S_ .f32 0x3F666666#32)
  let main_v87 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_32
  let main_v88 : (⟨S1000, .f32⟩ : BufTy).Contents (Elt F) := (Host.powf : (⟨S1000, .f32⟩ : BufTy).Contents (Elt F) → (⟨S1000, .f32⟩ : BufTy).Contents (Elt F) → (⟨S1000, .f32⟩ : BufTy).Contents (Elt F)) main_v87 main_v80
  let main_v89 : (⟨S1000, .f32⟩ : BufTy).Contents (Elt F) := (mulf : (⟨S1000, .f32⟩ : BufTy).Contents (Elt F) → (⟨S1000, .f32⟩ : BufTy).Contents (Elt F) → (⟨S1000, .f32⟩ : BufTy).Contents (Elt F)) main_v88 main_arg2
  let main_cst_33 : (⟨S_, .f32⟩ : BufTy).Contents (Elt F) := (constant (F := F) S_ .f32 0x3F800000#32)
  let main_v90 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_33
  let main_v91 : (⟨S1000, .f32⟩ : BufTy).Contents (Elt F) := (subf : (⟨S1000, .f32⟩ : BufTy).Contents (Elt F) → (⟨S1000, .f32⟩ : BufTy).Contents (Elt F) → (⟨S1000, .f32⟩ : BufTy).Contents (Elt F)) main_v90 main_v88
  let main_v92 : (⟨S1000, .f32⟩ : BufTy).Contents (Elt F) := (mulf : (⟨S1000, .f32⟩ : BufTy).Contents (Elt F) → (⟨S1000, .f32⟩ : BufTy).Contents (Elt F) → (⟨S1000, .f32⟩ : BufTy).Contents (Elt F)) main_v91 main_v86
  let main_v93 : (⟨S1000, .f32⟩ : BufTy).Contents (Elt F) := (addf : (⟨S1000, .f32⟩ : BufTy).Contents (Elt F) → (⟨S1000, .f32⟩ : BufTy).Contents (Elt F) → (⟨S1000, .f32⟩ : BufTy).Contents (Elt F)) main_v89 main_v92
  let main_v94 : (⟨S1000, .f32⟩ : BufTy).Contents (Elt F) := (select : (⟨S1000, .i1⟩ : BufTy).Contents (Elt F) → (⟨S1000, .f32⟩ : BufTy).Contents (Elt F) → (⟨S1000, .f32⟩ : BufTy).Contents (Elt F) → (⟨S1000, .f32⟩ : BufTy).Contents (Elt F)) main_v82 main_v93 main_arg2
  let main_c_34 : (⟨S_, .i32⟩ : BufTy).Contents (Elt F) := (constantI S_ 32 0#32)
  let main_v95 : (⟨S32768, .i32⟩ : BufTy).Contents (Elt F) := (broadcastInDim S32768 ![] bcast_S_S32768 : (⟨S_, .i32⟩ : BufTy).Contents (Elt F) → (⟨S32768, .i32⟩ : BufTy).Contents (Elt F)) main_c_34
  let main_v96 : (⟨S32768, .i1⟩ : BufTy).Contents (Elt F) := (cmpi .slt : (⟨S32768, .i32⟩ : BufTy).Contents (Elt F) → (⟨S32768, .i32⟩ : BufTy).Contents (Elt F) → (⟨S32768, .i1⟩ : BufTy).Contents (Elt F)) main_arg3 main_v95
  let main_c_35 : (⟨S_, .i32⟩ : BufTy).Contents (Elt F) := (constantI S_ 32 1000#32)
  let main_v97 : (⟨S32768, .i32⟩ : BufTy).Contents (Elt F) := (broadcastInDim S32768 ![] bcast_S_S32768 : (⟨S_, .i32⟩ : BufTy).Contents (Elt F) → (⟨S32768, .i32⟩ : BufTy).Contents (Elt F)) main_c_35
  let main_v98 : (⟨S32768, .i32⟩ : BufTy).Contents (Elt F) := (addi : (⟨S32768, .i32⟩ : BufTy).Contents (Elt F) → (⟨S32768, .i32⟩ : BufTy).Contents (Elt F) → (⟨S32768, .i32⟩ : BufTy).Contents (Elt F)) main_arg3 main_v97
  let main_v99 : (⟨S32768, .i32⟩ : BufTy).Contents (Elt F) := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v96 main_v98 main_arg3
  let main_v100 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) main_v99
  let main_v101 : (⟨S32768, .f32⟩ : BufTy).Contents (Elt F) := ((fun x i => Host.gather gather_S1000_S32768x1_S32768_n_0_n_n_0_1_1 x i) : (⟨S1000, .f32⟩ : BufTy).Contents (Elt F) → (⟨S32768x1, .i32⟩ : BufTy).Contents (Elt F) → (⟨S32768, .f32⟩ : BufTy).Contents (Elt F)) main_v94 main_v100
  main_v101

/-- The mean over the rows of the loss times the two confidences. -/
def fin (main_v0 : (⟨S32768, .f32⟩ : BufTy).Contents (Elt F)) (main_v73 : (⟨S32768, .f32⟩ : BufTy).Contents (Elt F)) (main_v146 : (⟨S32768, .f32⟩ : BufTy).Contents (Elt F)) :
    (⟨S_, .f32⟩ : BufTy).Contents (Elt F) :=
  let main_v147 : (⟨S32768, .f32⟩ : BufTy).Contents (Elt F) := (mulf : (⟨S32768, .f32⟩ : BufTy).Contents (Elt F) → (⟨S32768, .f32⟩ : BufTy).Contents (Elt F) → (⟨S32768, .f32⟩ : BufTy).Contents (Elt F)) main_v73 main_v146
  let main_v148 : (⟨S32768, .f32⟩ : BufTy).Contents (Elt F) := (mulf : (⟨S32768, .f32⟩ : BufTy).Contents (Elt F) → (⟨S32768, .f32⟩ : BufTy).Contents (Elt F) → (⟨S32768, .f32⟩ : BufTy).Contents (Elt F)) main_v0 main_v147
  let main_cst_53 : (⟨S_, .f32⟩ : BufTy).Contents (Elt F) := (constant (F := F) S_ .f32 0x00000000#32)
  let main_v149 : (⟨S_, .f32⟩ : BufTy).Contents (Elt F) := ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F)) main_v148 main_cst_53
  let main_cst_54 : (⟨S_, .f32⟩ : BufTy).Contents (Elt F) := (constant (F := F) S_ .f32 0x47000000#32)
  let main_v150 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) main_v149 main_cst_54
  main_v150

/-- Everything after the per-row loss, as one function of the loss and the four other arguments. -/
def tail (loss : (⟨S32768, .f32⟩ : BufTy).Contents (Elt F)) (memIns : (⟨S1000000, .f32⟩ : BufTy).Contents (Elt F)) (memCls : (⟨S1000, .f32⟩ : BufTy).Contents (Elt F))
    (labels indices : (⟨S32768, .i32⟩ : BufTy).Contents (Elt F)) : (⟨S_, .f32⟩ : BufTy).Contents (Elt F) :=
  fin loss (optConf tab (smoothIns loss indices memIns)) (optConf tab (smoothCls loss labels memCls))

end Cert.Spec

end
-- ==== Proof.KITail.lean ====
/- The value of the host tail: the 224 host operations that follow the per-row loss, folded over any buffer contents,
   leave in the last buffer the tail function of the loss, the two memories, the labels and the instance indices.

   The operations are cut into five stretches, after the four buffers that one stretch hands to the next:
     * the loss averaged per instance bin, blended into the per-instance memory and read back per row;
     * the confidence of that smoothed loss (the table interpolated at its clipped logarithm, exponentiated);
     * the same per-bin average and blend over the class labels;
     * the confidence of that second smoothed loss;
     * the mean over the rows of the loss times the two confidences.
   Each stretch is a straight line of single-assignment operations, so the buffer it ends in holds the composition of
   its operations' functions over the buffers it reads, and every buffer it does not write is left as it was. -/
import proofs.«404843_j25503515804375_1_alg».proof.Proof.Gen.KernelIdeal.Launch
import proofs.«404843_j25503515804375_1_alg».proof.Proof.Spec
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo

variable {F : FTy → Type} [FloatOps F]

/-- The host operations after the per-row loss, as the seventeen lists they are printed in, in order. -/
abbrev tailOpss : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12, hostOps1_13, hostOps1_14, hostOps1_15, hostOps1_16]

/-! ## The five stretches

Each of the four cuts falls inside a printed list (after its 9th, 34th, 9th and 34th operation): that list gives its head to
one stretch and the rest to the next. -/

/-- Up to the per-instance smoothed loss, read back per row (40 operations, ending in `main_v28`). -/
def tailA : List (HloOp τ sig (Elt F)) :=
  hostOps1 ++ (hostOps1_1 ++ (hostOps1_2 ++ (hostOps1_3 ++ hostOps1_4.take 9)))
/-- From there to the first confidence (69 operations, ending in `main_v73`). -/
def tailB : List (HloOp τ sig (Elt F)) :=
  hostOps1_4.drop 9 ++ (hostOps1_5 ++ (hostOps1_6 ++ (hostOps1_7 ++ hostOps1_8.take 34)))
/-- From there to the per-class smoothed loss, read back per row (40 operations, ending in `main_v101`). -/
def tailC : List (HloOp τ sig (Elt F)) :=
  hostOps1_8.drop 34 ++ (hostOps1_9 ++ (hostOps1_10 ++ (hostOps1_11 ++ hostOps1_12.take 9)))
/-- From there to the second confidence (69 operations, ending in `main_v146`). -/
def tailD : List (HloOp τ sig (Elt F)) :=
  hostOps1_12.drop 9 ++ (hostOps1_13 ++ (hostOps1_14 ++ (hostOps1_15 ++ hostOps1_16.take 34)))
/-- The weighted mean (the last 6 operations, ending in `main_v150`). -/
def tailE : List (HloOp τ sig (Elt F)) := hostOps1_16.drop 34

/-- A list's head and rest, the rest followed by more, are the list followed by that. -/
theorem tail_take_drop_app {α : Type _} (n : Nat) (l r : List α) : l.take n ++ (l.drop n ++ r) = l ++ r := by
  rw [← List.append_assoc, List.take_append_drop]

/-- Folding over two lines in a row is folding over the second from where the first ends. -/
theorem tail_after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, tail_after_app l₁ l₂]

/-- The seventeen printed lists in a row are the five stretches in a row: concatenation is associative, and each list
    that is cut is its head followed by its rest. -/
theorem tail_cut : (tailOpss (F := F)).flatten = tailA ++ (tailB ++ (tailC ++ (tailD ++ tailE))) := by
  simp only [tailOpss, tailA, tailB, tailC, tailD, tailE, List.flatten_cons, List.flatten_nil, List.append_nil, List.append_assoc,
    tail_take_drop_app, List.take_append_drop]

/-- Lay a stretch out as one literal list, then read every buffer off the operation that writes it (a buffer that no
    operation writes is read where the stretch starts; distinct references are told apart by computation). -/
macro "tail_stage_eval" : tactic =>
  `(tactic| (simp only [List.take_succ_cons, List.take_zero, List.drop_succ_cons, List.drop_zero, List.cons_append, List.nil_append]
             after_results_simp))

/-! ## The first stretch -/

set_option maxHeartbeats 4000000 in
/-- The stretch's last buffer is the per-instance smoothing of the loss: both sides are the same composition of the
    operations' functions, the right one written with a `let` per operation. -/
theorem tailA_v28 (V : Valuation τ sig (Elt F)) :
    after (tailA (F := F)) V (Proc.devRef .tc main_v28)
      = Cert.Spec.smoothIns (V (Proc.devRef .tc main_v0)) (V (Proc.devRef .tc main_arg4)) (V (Proc.devRef .tc main_arg1)) := by
  simp only [tailA]
  tail_stage_eval
  rfl

/-! It writes neither the table, nor the loss, nor the class memory, nor the labels. -/

set_option maxHeartbeats 4000000 in
theorem tailA_keeps_cst (V : Valuation τ sig (Elt F)) :
    after (tailA (F := F)) V (Proc.devRef .tc main_cst) = V (Proc.devRef .tc main_cst) := by
  simp only [tailA]
  tail_stage_eval

set_option maxHeartbeats 4000000 in
theorem tailA_keeps_v0 (V : Valuation τ sig (Elt F)) :
    after (tailA (F := F)) V (Proc.devRef .tc main_v0) = V (Proc.devRef .tc main_v0) := by
  simp only [tailA]
  tail_stage_eval

set_option maxHeartbeats 4000000 in
theorem tailA_keeps_arg2 (V : Valuation τ sig (Elt F)) :
    after (tailA (F := F)) V (Proc.devRef .tc main_arg2) = V (Proc.devRef .tc main_arg2) := by
  simp only [tailA]
  tail_stage_eval

set_option maxHeartbeats 4000000 in
theorem tailA_keeps_arg3 (V : Valuation τ sig (Elt F)) :
    after (tailA (F := F)) V (Proc.devRef .tc main_arg3) = V (Proc.devRef .tc main_arg3) := by
  simp only [tailA]
  tail_stage_eval

/-! ## The second stretch -/

set_option maxHeartbeats 4000000 in
/-- The stretch's last buffer is the confidence of the smoothed loss it starts from. -/
theorem tailB_v73 (V : Valuation τ sig (Elt F)) :
    after (tailB (F := F)) V (Proc.devRef .tc main_v73)
      = Cert.Spec.optConf (V (Proc.devRef .tc main_cst)) (V (Proc.devRef .tc main_v28)) := by
  simp only [tailB]
  tail_stage_eval
  rfl

/-! It writes neither the table, nor the loss, nor the class memory, nor the labels. -/

set_option maxHeartbeats 4000000 in
theorem tailB_keeps_cst (V : Valuation τ sig (Elt F)) :
    after (tailB (F := F)) V (Proc.devRef .tc main_cst) = V (Proc.devRef .tc main_cst) := by
  simp only [tailB]
  tail_stage_eval

set_option maxHeartbeats 4000000 in
theorem tailB_keeps_v0 (V : Valuation τ sig (Elt F)) :
    after (tailB (F := F)) V (Proc.devRef .tc main_v0) = V (Proc.devRef .tc main_v0) := by
  simp only [tailB]
  tail_stage_eval

set_option maxHeartbeats 4000000 in
theorem tailB_keeps_arg2 (V : Valuation τ sig (Elt F)) :
    after (tailB (F := F)) V (Proc.devRef .tc main_arg2) = V (Proc.devRef .tc main_arg2) := by
  simp only [tailB]
  tail_stage_eval

set_option maxHeartbeats 4000000 in
theorem tailB_keeps_arg3 (V : Valuation τ sig (Elt F)) :
    after (tailB (F := F)) V (Proc.devRef .tc main_arg3) = V (Proc.devRef .tc main_arg3) := by
  simp only [tailB]
  tail_stage_eval

/-! ## The third stretch -/

set_option maxHeartbeats 4000000 in
/-- The stretch's last buffer is the per-class smoothing of the loss. -/
theorem tailC_v101 (V : Valuation τ sig (Elt F)) :
    after (tailC (F := F)) V (Proc.devRef .tc main_v101)
      = Cert.Spec.smoothCls (V (Proc.devRef .tc main_v0)) (V (Proc.devRef .tc main_arg3)) (V (Proc.devRef .tc main_arg2)) := by
  simp only [tailC]
  tail_stage_eval
  rfl

/-! It writes neither the table, nor the loss, nor the first confidence. -/

set_option maxHeartbeats 4000000 in
theorem tailC_keeps_cst (V : Valuation τ sig (Elt F)) :
    after (tailC (F := F)) V (Proc.devRef .tc main_cst) = V (Proc.devRef .tc main_cst) := by
  simp only [tailC]
  tail_stage_eval

set_option maxHeartbeats 4000000 in
theorem tailC_keeps_v0 (V : Valuation τ sig (Elt F)) :
    after (tailC (F := F)) V (Proc.devRef .tc main_v0) = V (Proc.devRef .tc main_v0) := by
  simp only [tailC]
  tail_stage_eval

set_option maxHeartbeats 4000000 in
theorem tailC_keeps_v73 (V : Valuation τ sig (Elt F)) :
    after (tailC (F := F)) V (Proc.devRef .tc main_v73) = V (Proc.devRef .tc main_v73) := by
  simp only [tailC]
  tail_stage_eval

/-! ## The fourth stretch -/

set_option maxHeartbeats 4000000 in
/-- The stretch's last buffer is the confidence of the smoothed loss it starts from: the operations of the second stretch
    again, over other buffers. -/
theorem tailD_v146 (V : Valuation τ sig (Elt F)) :
    after (tailD (F := F)) V (Proc.devRef .tc main_v146)
      = Cert.Spec.optConf (V (Proc.devRef .tc main_cst)) (V (Proc.devRef .tc main_v101)) := by
  simp only [tailD]
  tail_stage_eval
  rfl

/-! It writes neither the loss nor the first confidence. -/

set_option maxHeartbeats 4000000 in
theorem tailD_keeps_v0 (V : Valuation τ sig (Elt F)) :
    after (tailD (F := F)) V (Proc.devRef .tc main_v0) = V (Proc.devRef .tc main_v0) := by
  simp only [tailD]
  tail_stage_eval

set_option maxHeartbeats 4000000 in
theorem tailD_keeps_v73 (V : Valuation τ sig (Elt F)) :
    after (tailD (F := F)) V (Proc.devRef .tc main_v73) = V (Proc.devRef .tc main_v73) := by
  simp only [tailD]
  tail_stage_eval

/-! ## The last stretch -/

set_option maxHeartbeats 4000000 in
/-- The last buffer is the mean over the rows of the loss times the two confidences. -/
theorem tailE_v150 (V : Valuation τ sig (Elt F)) :
    after (tailE (F := F)) V (Proc.devRef .tc main_v150)
      = Cert.Spec.fin (V (Proc.devRef .tc main_v0)) (V (Proc.devRef .tc main_v73)) (V (Proc.devRef .tc main_v146)) := by
  simp only [tailE]
  tail_stage_eval
  rfl

/-! ## The tail -/

/-- From contents whose table buffer holds the interpolation table, the host tail ends with the tail function of the loss
    and the four other arguments in its last buffer: the fold is taken stretch by stretch, each stretch's value read at the
    contents the stretches before it leave, and each buffer a later stretch reads carried back, through the stretches
    that do not write it, to where it was written or to the start. -/
theorem tail_value (W : Valuation τ sig (Elt F)) (htab : W (Proc.devRef .tc main_cst) = Cert.Spec.tab) :
    StableHlo.after (tailOpss (F := F)).flatten W (Proc.devRef .tc main_v150)
      = Cert.Spec.tail (W (Proc.devRef .tc main_v0)) (W (Proc.devRef .tc main_arg1)) (W (Proc.devRef .tc main_arg2))
          (W (Proc.devRef .tc main_arg3)) (W (Proc.devRef .tc main_arg4)) := by
  rw [tail_cut, tail_after_app, tail_after_app, tail_after_app, tail_after_app]
  rw [tailE_v150, tailD_v146, tailD_keeps_v73, tailD_keeps_v0, tailC_v101, tailC_keeps_v73, tailC_keeps_v0, tailC_keeps_cst,
    tailB_v73, tailB_keeps_v0, tailB_keeps_cst, tailB_keeps_arg2, tailB_keeps_arg3,
    tailA_v28, tailA_keeps_v0, tailA_keeps_cst, tailA_keeps_arg2, tailA_keeps_arg3, htab]
  rfl

end Cert.KernelIdeal.Hand
end
-- ==== Proof.SpecCE.lean ====
/-
  The cross-entropy of one row, as a closed form over the extended reals.

  For a score matrix `x` (32768 rows of 1000 classes) and one label per row, the loss of row `r` is
      log (∑ⱼ exp (x r j − M r)) + M r − ∑ⱼ [j = label r] · x r j,
  where `M r` is the largest score of the row (the fold of `max` from −∞). The last sum keeps the one
  score whose column is the row's label: it is written as a sum of a one-hot selection so that it is total in
  the label (a label outside 0 … 999 selects nothing).
-/
import Idealize.ShloMosaic.PureOps.Ideal
import Idealize.ShloMosaic.Lib.ValueIdx

noncomputable section

namespace Cert.SpecCE

open Idealize.ShloMosaic Idealize.ShloMosaic.ValueIdx

/-- The scores: 32768 rows, 1000 classes. -/
abbrev Scores := (⟨2, ![32768, 1000]⟩ : Shape).Idx → EReal
/-- One 32-bit label per row. -/
abbrev Labels := (⟨1, ![32768]⟩ : Shape).Idx → BitVec 32

/-- The largest score of row `r`: the fold of `max` over the classes, from −∞. -/
def rowMax (x : Scores) (r : Fin 32768) : EReal :=
  (Finset.univ : Finset (Fin 1000)).fold max (⊥ : EReal) fun j => x (ix2 r j)

/-- The row's sum of exponentials of the scores shifted by the row's maximum. -/
def sumExp (x : Scores) (r : Fin 32768) : EReal :=
  ∑ j : Fin 1000, Ideal.exp (x (ix2 r j) - rowMax x r)

/-- The score in the label's column, as the sum of the one-hot selection of the row. -/
def picked (x : Scores) (l : Labels) (r : Fin 32768) : EReal :=
  ∑ j : Fin 1000, if BitVec.ofNat 32 j.val = l (ix1 r) then x (ix2 r j) else 0

/-- The cross-entropy of row `r`. -/
def lossRow (x : Scores) (l : Labels) (r : Fin 32768) : EReal :=
  (Ideal.log (sumExp x r) + rowMax x r) - picked x l r

/-- The loss of every row, as an array of 32768 extended reals. -/
def lossK (x : Scores) (l : Labels) : (⟨1, ![32768]⟩ : Shape).Idx → EReal :=
  fun i => lossRow x l (i 0)

theorem lossK_ix1 (x : Scores) (l : Labels) (r : Fin 32768) : lossK x l (ix1 r) = lossRow x l r := rfl

end Cert.SpecCE

end
-- ==== Proof.KIValue.lean ====
/-
  The value of the cross-entropy kernel: the loss array it leaves, index by index, over the extended reals.

  Row `r` of the result is  log (∑ⱼ exp (x r j − M r)) + M r − ∑ⱼ [j = label r] · x r j,  with `M r` the largest
  score of the row. Three steps. First the body's arithmetic on one block, read at one row `q` of the block: every
  operation in it is either pointwise or one of four layout moves (a vector of 512 seen as a column, a column spread
  over 1000 lanes, a column seen as a vector again, the lane number), or a fold along the lanes (a maximum, two sums),
  so the value at row `q` depends on row `q` of the scores block and entry `q` of the labels block only. Then the
  blocks: at grid point `t` the three windows sit at rows 512 t … 512 t + 511 of their arrays, so row `q` of the
  block is row 512 t + q of the array, and what the point writes back is its 512 rows of the closed form. Last the
  64 blocks tile the 32768 rows (row `r` lies in block `r / 512`), and the two input arrays are as launched, since
  the only operation before the region writes a constant table.
-/
import proofs.«404843_j25503515804375_1_alg».proof.Proof.KIBody
import proofs.«404843_j25503515804375_1_alg».proof.Proof.SpecCE
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Value

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The layout moves, read at a row -/

section Layout
variable {α : Type}

/-- A vector of 512 entries seen as a 512 × 1 column: entry (q, u) is entry q (both sit at row-major place q). -/
theorem column_apply (v : S512.Idx → α) (h : S512.ShapeCasts S512x1) (q : Fin 512) (u : Fin 1) :
    shapeCast S512x1 v h (ix2 q u) = v (ix1 q) :=
  shapeCast_apply v h _ _ (by
    have hu : u.val = 0 := by omega
    rw [Shape.rowMajor_val_two, Shape.rowMajor_val_one]
    show q.val = q.val * 1 + u.val
    omega)

/-- A 512 × 1 column seen as a vector: entry q is entry (q, 0). -/
theorem uncolumn_apply (v : S512x1.Idx → α) (h : S512x1.ShapeCasts S512) (q : Fin 512) :
    shapeCast S512 v h (ix1 q) = v (ix2 q (0 : Fin 1)) :=
  shapeCast_apply v h _ _ (by
    rw [Shape.rowMajor_val_two, Shape.rowMajor_val_one]
    show q.val * 1 + 0 = q.val
    omega)

/-- A 512 × 1 column spread over 1000 lanes: entry (q, j) is the column's entry (q, 0), whatever the lane j. -/
theorem spread_apply (v : S512x1.Idx → α) (h : S512x1.Broadcasts S512x1000) (q : Fin 512) (j : Fin 1000) :
    broadcastTo S512x1000 v h (ix2 q j) = v (ix2 q (0 : Fin 1)) := by
  refine broadcastTo_apply v h (ix2 q j) (ix2 q (0 : Fin 1)) fun ax => ?_
  match ax with
  | ⟨0, _⟩ => rfl
  | ⟨1, _⟩ => rfl

end Layout

/-- The lane number: the counter along axis 1 reads, at (q, j), the word j. -/
theorem lane_apply (h : S512x1000.Iotas .tc 32 [1]) (q : Fin 512) (j : Fin 1000) :
    iota .tc S512x1000 32 [1] h (ix2 q j) = BitVec.ofNat 32 j.val :=
  iota_single_apply .tc S512x1000 32 1 h (ix2 q j)

/-- The pattern the maximum starts from (sign set, exponent all ones, fraction zero) denotes −∞. -/
theorem negInf_f32 : Ideal.ofBits .f32 0xFF800000#32 = (⊥ : EReal) := by simp [Ideal.ofBits, Ideal.ieee]

/-! ## The folds along the lanes, read at a row -/

/-- The index of the 512 × 1000 block over row q with lane j put back is (q, j). -/
theorem lift_row (h : S512x1000.Reduces [1] S512) (q : Fin 512) (j : Fin 1000) :
    h.lift (ix1 q) j = ix2 q j := by
  funext c
  match c with
  | ⟨0, _⟩ => rfl
  | ⟨1, _⟩ => rfl

/-- The sum along the lanes, at row q: the sum over j of the entries (q, j). -/
theorem rowSum_apply (v : FVec Ideal S512x1000 .f32) (h : S512x1000.Reduces [1] S512) (hφ : FKind.Formats .f32)
    (hacc : (0x00000000#32 : BitVec 32) = 0x00000000#32) (q : Fin 512) :
    multiReduction .add [1] S512 v 0x00000000#32 h hφ hacc (ix1 q) = ∑ j : Fin 1000, v (ix2 q j) := by
  refine (Ideal.multiReduction_add_single v _ h hφ hacc (ix1 q)).trans ?_
  exact Finset.sum_congr rfl fun j _ => congrArg v (lift_row h q j)

/-- The maximum along the lanes, at row q: the fold of `max` from −∞ over the entries (q, j). -/
theorem rowMax_apply (v : FVec Ideal S512x1000 .f32) (h : S512x1000.Reduces [1] S512) (hφ : FKind.Formats .f32)
    (hacc : (0xFF800000#32 : BitVec 32) = 0xFF800000#32) (q : Fin 512) :
    multiReduction .maximumf [1] S512 v 0xFF800000#32 h hφ hacc (ix1 q)
      = (Finset.univ : Finset (Fin 1000)).fold max (⊥ : EReal) fun j => v (ix2 q j) := by
  refine (Ideal.multiReduction_maximumf_single v _ h hφ hacc (ix1 q)).trans ?_
  have hf : (v ∘ h.lift (ix1 q)) = fun j : Fin 1000 => v (ix2 q j) := funext fun j => congrArg v (lift_row h q j)
  rw [hf]
  show Finset.fold max (Ideal.ofBits .f32 0xFF800000#32) _ _ = _
  rw [negInf_f32]
  rfl

/-! ## The pointwise operations, read at an index -/

/-- The largest score of row q of a block. -/
abbrev rowTop (x0 : Vec Ideal S512x1000 .f32) (q : Fin 512) : EReal :=
  (Finset.univ : Finset (Fin 1000)).fold max (⊥ : EReal) fun j => x0 (ix2 q j)

/-- The logarithm of a vector, at an index, is the logarithm of the entry; -/
theorem log_at {s : Shape} (v : FVec Ideal s .f32) (i : s.Idx) : log v i = Ideal.log (v i) := rfl
/-- the exponential likewise; -/
theorem exp_at {s : Shape} (v : FVec Ideal s .f32) (i : s.Idx) : exp v i = Ideal.exp (v i) := rfl
/-- and an integer comparison compares the two entries. -/
theorem cmpi_at {s : Shape} {w : Nat} (p : CmpIPredicate) (a b : IVec s w) (i : s.Idx) : cmpi p a b i = IntOp.cmpi p (a i) (b i) := rfl

/-- A selection on the bit "a equals b" is the `if` on the equation. -/
theorem select_eq_ite {β : Type} {w : Nat} (a b : BitVec w) (x y : β) :
    Scalar.select (IntOp.cmpi .eq a b) x y = if a = b then x else y := by
  unfold Scalar.select IntOp.cmpi
  by_cases h : a = b
  · simp [h]
  · have hb : (a == b) = false := by simp [h]
    simp [h, hb]

/-! ## The body's arithmetic at one row of the block -/

/-- Row q of what the body computes from a scores block `x0` and a labels block `x1`: the logarithm of the sum of the
    exponentials of the row's scores less the row's maximum, plus that maximum, less the sum of the row's one-hot
    selection (lane j is kept when the word j is the row's label). The maximum reaches the row as a column spread over the
    lanes, the two sums and the maximum are folds along the lanes, and the result leaves as the column seen as a vector. -/
theorem pay_apply (x0 : Vec Ideal S512x1000 .f32) (x1 : Vec Ideal S512 .i32) (q : Fin 512) :
    k0_pay1 (F := Ideal) x0 x1 (ix1 q)
      = (Ideal.log (∑ j : Fin 1000, Ideal.exp (x0 (ix2 q j) - rowTop x0 q)) + rowTop x0 q)
          - ∑ j : Fin 1000, if BitVec.ofNat 32 j.val = x1 (ix1 q) then x0 (ix2 q j) else 0 := by
  have hM : ∀ u : Fin 1, shapeCast S512x1 (multiReduction (F := Ideal) (φ := .f32) .maximumf [1] S512 x0 0xFF800000#32 reduces_S512x1000_S512 (.inl rfl) rfl)
      shapeCasts_S512_S512x1 (ix2 q u) = rowTop x0 q :=
    fun u => (column_apply _ _ q u).trans (rowMax_apply x0 _ _ _ q)
  unfold k0_pay1
  refine (uncolumn_apply _ _ q).trans ?_
  show (_ : EReal) - _ = _
  rw [addf_apply, log_at, hM 0, column_apply, column_apply, rowSum_apply, rowSum_apply]
  refine congrArg₂ (· - ·) (congrArg (fun z => Ideal.log z + rowTop x0 q) (Finset.sum_congr rfl fun j _ => ?_)) (Finset.sum_congr rfl fun j _ => ?_)
  · rw [exp_at, subf_apply, spread_apply, hM 0]
  · rw [select_apply, cmpi_at, lane_apply, spread_apply, column_apply, select_eq_ite, broadcast_apply]
    show (if _ then _ else Ideal.ofBits .f32 0x00000000#32) = _
    rw [Ideal.ofBits_zero_f32]

/-- The same over whatever the row is known to be: if row q of the scores block is `X` and entry q of the labels block
    is `l`, the body's value at row q is the closed form of `X` and `l`. -/
theorem pay_row (x0 : Vec Ideal S512x1000 .f32) (x1 : Vec Ideal S512 .i32) (q : Fin 512) (X : Fin 1000 → EReal) (l : BitVec 32)
    (h0 : ∀ j : Fin 1000, x0 (ix2 q j) = X j) (h1 : x1 (ix1 q) = l) :
    k0_pay1 (F := Ideal) x0 x1 (ix1 q)
      = (Ideal.log (∑ j : Fin 1000, Ideal.exp (X j - (Finset.univ : Finset (Fin 1000)).fold max (⊥ : EReal) X))
            + (Finset.univ : Finset (Fin 1000)).fold max (⊥ : EReal) X)
          - ∑ j : Fin 1000, if BitVec.ofNat 32 j.val = l then X j else 0 := by
  have hX : (fun j : Fin 1000 => x0 (ix2 q j)) = X := funext h0
  subst hX
  subst h1
  exact pay_apply x0 x1 q

/-! ## From blocks to arrays -/

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl

/-- The block index maps, over the 64 grid points: at point t the scores' block is (t, 0), the labels' block is t
    and the result's block is t. -/
theorem idx_facts : ∀ t : Fin cfg0.N, win0_0.index t (0 : Fin 2) = t.val ∧ win0_0.index t (1 : Fin 2) = 0
    ∧ win0_1.index t (0 : Fin 1) = t.val ∧ win0_2.index t (0 : Fin 1) = t.val :=
  (by decide +kernel : ∀ t : Fin grid0.N, _)

/-- Entry (q, j) of the scores block at point t is entry (512 t + q, j) of the scores array. -/
theorem scores_block (c : Dev nD) (t : Fin cfg0.N) (q : Fin 512) (j : Fin 1000) (r : Fin 32768) (hr : r.val = 512 * t.val + q.val) :
    (iblk m c 0 t : Vec Ideal S512x1000 .f32) (ix2 q j) = (V m c main_arg0 : S32768x1000.Idx → EReal) (ix2 r j) := by
  unfold iblk
  rw [View.read_apply]
  show V m c main_arg0 _ = V m c main_arg0 _
  congr 1
  funext a
  apply Fin.ext
  match a with
  | ⟨0, _⟩ => show win0_0.index t 0 * 512 + 1 * q.val = r.val; rw [(idx_facts t).1, hr]; omega
  | ⟨1, _⟩ => show win0_0.index t 1 * 1000 + 1 * j.val = j.val; rw [(idx_facts t).2.1]; omega

/-- Entry q of the labels block at point t is entry 512 t + q of the labels array. -/
theorem labels_block (c : Dev nD) (t : Fin cfg0.N) (q : Fin 512) (r : Fin 32768) (hr : r.val = 512 * t.val + q.val) :
    (iblk m c 1 t : Vec Ideal S512 .i32) (ix1 q) = (V m c main_arg3 : S32768.Idx → BitVec 32) (ix1 r) := by
  unfold iblk
  rw [View.read_apply]
  show V m c main_arg3 _ = V m c main_arg3 _
  congr 1
  funext a
  apply Fin.ext
  match a with
  | ⟨0, _⟩ => show win0_1.index t 0 * 512 + 1 * q.val = r.val; rw [(idx_facts t).2.2.1, hr]; omega

/-- The closed form of the scores and labels arrays as the region finds them. -/
abbrev lossV (c : Dev nD) : S32768.Idx → EReal :=
  Cert.SpecCE.lossK (V m c main_arg0) (V m c main_arg3)

/-- Entry q of the result's block at point t sits at entry 512 t + q of the result array. -/
theorem out_emb (t : Fin cfg0.N) (q : Fin 512) (r : Fin 32768) (hr : r.val = 512 * t.val + q.val) :
    ((cfg0.win 2).blk t).view.emb (ix1 q) = (ix1 r : S32768.Idx) := by
  funext a
  apply Fin.ext
  match a with
  | ⟨0, _⟩ => show win0_2.index t 0 * 512 + 1 * q.val = r.val; rw [(idx_facts t).2.2.2, hr]; omega

/-- What point t writes back is rows 512 t … 512 t + 511 of the closed form: the body's one store covers its block,
    its two loads read their blocks whole, and at row q the body's arithmetic of row 512 t + q of the scores and entry
    512 t + q of the labels is the cross-entropy of that row. -/
theorem flushed_eq (c : Dev nD) (t : Fin cfg0.N) :
    (dats m 0 c).flushed 2 t = ((cfg0.win 2).blk t).view.read (Elt Ideal) (lossV m c) := by
  show (cfg0.win 2).cut (grid0.coords t) ((dats m 0 c).after 2 t) = _
  rw [after0_2]
  unfold out0_2
  rw [View.canon_unit_zero hz1]
  simp only [View.ld_unit_zero (S := S512x1000) hz2, View.ld_unit_zero (S := S512) hz1]
  refine funext fun (j : S512.Idx) => ?_
  obtain ⟨q, rfl⟩ : ∃ q : Fin 512, j = ix1 q := ⟨j 0, eq_ix1 j⟩
  have hN : t.val < 64 := (show t.val < grid0.N from t.isLt).trans_eq N_0
  have hq : q.val < 512 := q.isLt
  let r : Fin 32768 := ⟨512 * t.val + q.val, by omega⟩
  show k0_pay1 (F := Ideal) (iblk m c 0 t) (iblk m c 1 t) (ix1 q) = lossV m c (((cfg0.win 2).blk t).view.emb (ix1 q))
  rw [out_emb t q r rfl]
  exact pay_row _ _ q _ _ (fun j => scores_block m c t q j r rfl) (labels_block m c t q r rfl)

/-- An entry of the result array is in point t's block iff it lies in the block's 512 rows. -/
theorem mem_blk (t : Fin cfg0.N) (i : S32768.Idx) :
    i ∈ ((cfg0.win 2).blk t).view.set ↔ ∀ a : Fin 1, win0_2.index t a * S512.size a ≤ (i a).val ∧ (i a).val < win0_2.index t a * S512.size a + S512.size a := by
  show i ∈ ((View.whole main_v0).slice (win0_2.rect t)).set ↔ _
  rw [View.set_slice_whole, Rect.mem_set_unit]
  exact Iff.rfl

/-- The 64 blocks tile the 32768 rows: row r is in the block of point r / 512, which writes back. -/
theorem cover (i : S32768.Idx) : ∃ t : Fin cfg0.N, (cfg0.win 2).flush t = true ∧ i ∈ ((cfg0.win 2).blk t).view.set := by
  have hi : (i 0).val < 32768 := (i 0).isLt
  let t : Fin cfg0.N := ⟨(i 0).val / 512, by rw [show cfg0.N = 64 from N_0]; omega⟩
  refine ⟨t, flush0_2 t, ?_⟩
  rw [mem_blk]
  intro a
  match a with
  | ⟨0, _⟩ =>
    show win0_2.index t 0 * 512 ≤ (i 0).val ∧ (i 0).val < win0_2.index t 0 * 512 + 512
    rw [(idx_facts t).2.2.2]
    show (i 0).val / 512 * 512 ≤ (i 0).val ∧ (i 0).val < (i 0).val / 512 * 512 + 512
    omega

/-! ## The input arrays are as launched -/

/-- The one operation before the region writes the constant table only, so the scores array is the launch's, -/
theorem scores_entry (c : Dev nD) : V m c main_arg0 = m ((c : Thread nD τ).loc main_arg0) := by
  show StableHlo.after (List.flatten [hostOps0]) (fun b => m (c, b)) (Proc.devRef .tc main_arg0) = _
  rw [show List.flatten [hostOps0 (F := Ideal)] = hostOps0 from List.flatten_singleton]
  rw [StableHlo.after_cons, StableHlo.after_nil]
  exact StableHlo.nullary_result_ne (τ := τ) (y := main_cst) _ _ (fun b => m (c, b)) (r := main_arg0) (by decide)

/-- and so is the labels array. -/
theorem labels_entry (c : Dev nD) : V m c main_arg3 = m ((c : Thread nD τ).loc main_arg3) := by
  show StableHlo.after (List.flatten [hostOps0]) (fun b => m (c, b)) (Proc.devRef .tc main_arg3) = _
  rw [show List.flatten [hostOps0 (F := Ideal)] = hostOps0 from List.flatten_singleton]
  rw [StableHlo.after_cons, StableHlo.after_nil]
  exact StableHlo.nullary_result_ne (τ := τ) (y := main_cst) _ _ (fun b => m (c, b)) (r := main_arg3) (by decide)

/-! ## The loss array -/

/-- After the 64 points the result array is the cross-entropy of the launched scores and labels, row by row: every
    point writes its rows of the closed form and the blocks tile the array. -/
theorem loss_array (c : Dev nD) :
    (dats (F := Ideal) m 0 c).arrAt 2 cfg0.N
      = Cert.SpecCE.lossK (m ((c.tc : Thread nD τ).loc main_arg0)) (m ((c.tc : Thread nD τ).loc main_arg3)) := by
  rw [← scores_entry m c, ← labels_entry m c]
  exact (dats m 0 c).arrAt_eq_of_cover 2 (lossV m c) (fun t _ => flushed_eq m c t) cover

end Cert.KernelIdeal.Value

end
-- ==== Proof.KIRun.lean ====
/-
  The value the kernel's program returns. After the region the loss array holds the closed-form cross-entropy of the
  scores and labels; the host operations after the region compute from it, from the three arguments that bypass the
  region and from the labels the shared tail: the two smoothed averages of the loss, their table interpolations, and
  the mean of the loss weighted by the product of the two confidences.
-/
import proofs.«404843_j25503515804375_1_alg».proof.Proof.KIFrame
import proofs.«404843_j25503515804375_1_alg».proof.Proof.KITail
import proofs.«404843_j25503515804375_1_alg».proof.Proof.KIValue

set_option maxRecDepth 16384

noncomputable section

namespace Cert.KernelIdeal.Value

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The buffer contents the later host operations start from: the region's three arrays at what the region left,
    every other buffer as the region found it. -/
abbrev W (c : Dev nD) : Valuation τ sig (Elt Ideal) :=
  Pipeline.withArrays spec0 c (V0 m c) fun w => (dats m 0 c).arrAt w cfg0.N

/-- There the loss array is the closed-form cross-entropy, -/
theorem W_loss (c : Dev nD) : W m c (Proc.devRef .tc main_v0)
    = Cert.SpecCE.lossK (m ((c.tc : Thread nD τ).loc main_arg0)) (m ((c.tc : Thread nD τ).loc main_arg3)) :=
  (Pipeline.withArrays_arr spec0 launch0.win.arr_inj c _ _ 2).trans (loss_array m c)
/-- the labels are the labels (an input array of the region), -/
theorem W_labels (c : Dev nD) : W m c (Proc.devRef .tc main_arg3) = m ((c.tc : Thread nD τ).loc main_arg3) :=
  (Pipeline.withArrays_arr spec0 launch0.win.arr_inj c _ _ 1).trans
    (((dats m 0 c).arrAt_in 1 rfl _).trans ((A_eq m c 1).trans (pre_kept_arg3 _)))
/-- the arguments that bypass the region are as launched, -/
theorem W_arg1 (c : Dev nD) : W m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (pre_kept_arg1 _)
theorem W_arg2 (c : Dev nD) : W m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (pre_kept_arg2 _)
theorem W_arg4 (c : Dev nD) : W m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (pre_kept_arg4 _)
/-- and the 31-entry table is the one the line before the region wrote. -/
theorem W_table (c : Dev nD) : W m c (Proc.devRef .tc main_cst) = Cert.Spec.tab :=
  (Pipeline.withArrays_of_ne _ c (V0 m c) _ main_cst (by exact (by decide : ∀ w, Pipeline.arrRef spec0 w ≠ main_cst))).trans (pre_table _)

/-- What the later host operations leave in the result buffer: the shared tail of the closed-form loss. -/
theorem result_eq (c : Dev nD) : Pipeline.afterTail₀ cfgs (dats m) 0 (V0 m) sfxOpss c main_v150
    = Cert.Spec.tail (Cert.SpecCE.lossK (m ((c.tc : Thread nD τ).loc main_arg0)) (m ((c.tc : Thread nD τ).loc main_arg3)))
        (m ((c.tc : Thread nD τ).loc main_arg1)) (m ((c.tc : Thread nD τ).loc main_arg2))
        (m ((c.tc : Thread nD τ).loc main_arg3)) (m ((c.tc : Thread nD τ).loc main_arg4)) := by
  unfold Pipeline.afterTail₀
  refine (tail_value (W m c) (W_table m c)).trans ?_
  rw [W_loss, W_arg1, W_arg2, W_labels, W_arg4]

/-- The kernel's program runs to the end with its result at the shared tail of the closed-form loss and its
    arguments as launched. -/
theorem run : θ_run (defs (F := Ideal)) (onTc (τ := τ) (main (F := Ideal))) ⟨m, fun _ => 0, ρ⟩ (fun r => ∀ c : Dev nD,
      r.2.mem ((c.tc : Thread nD τ).loc main_v150)
        = Cert.Spec.tail (Cert.SpecCE.lossK (m ((c.tc : Thread nD τ).loc main_arg0)) (m ((c.tc : Thread nD τ).loc main_arg3)))
            (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h c).2 main_v150 (Pipeline.mem_restRefs_of main_v150 (by decide) (by decide))).trans (result_eq m c),
        args_of_post m r h c⟩) (run_main m ρ)

end Cert.KernelIdeal.Value

end
-- ==== Proof.RefOps.lean ====
/- Laid out by a script (bun scratch/gen_refops.js) from the printed operations of this directory's reference program: the operations of its
   entry function in the printed order, a called function's operations in the call's place over the call's own buffers, cut into six consecutive lists. -/
import proofs.«404843_j25503515804375_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The constant table; the log-softmax of the scores (row maximum, shifted scores, their exponentials' row sum, its logarithm, the difference); the labels as a column; the entry of each row at its label (the index wrapped, reshaped, its range test, the gather, the choice against the not-a-number fill); that column as a vector; its negation: the per-row loss (41 operations). -/
abbrev opsL : List (HloOp τ sig (Elt F)) :=
  ( StableHlo.nullary main_cst (fun i => FloatOps.ofBits .f32 (lit0 (S31.rowMajor i)))
  :: StableHlo.TRef.nullary (.of main_call0_cst : StableHlo.TRef sig ⟨S_, .f32⟩) (constant S_ .f32 0xFF800000#32)
  :: StableHlo.TRef.binary (.of main_arg0 : StableHlo.TRef sig ⟨S32768x1000, .f32⟩) (.of main_call0_cst : StableHlo.TRef sig ⟨S_, .f32⟩) (.of main_call0_v0 : StableHlo.TRef sig ⟨S32768, .f32⟩) (fun x v => Host.reduce FloatOps.maximumf x v reducesTo_S32768x1000_S32768_d1 h_S_)
  :: StableHlo.TRef.nullary (.of main_call0_cst_0 : StableHlo.TRef sig ⟨S_, .f32⟩) (constant S_ .f32 0xFF800000#32)
  :: StableHlo.TRef.unary (.of main_call0_cst_0 : StableHlo.TRef sig ⟨S_, .f32⟩) (.of main_call0_v1 : StableHlo.TRef sig ⟨S32768, .f32⟩) (broadcastInDim S32768 ![] bcast_S_S32768)
  :: StableHlo.TRef.binary (.of main_call0_v1 : StableHlo.TRef sig ⟨S32768, .f32⟩) (.of main_call0_v0 : StableHlo.TRef sig ⟨S32768, .f32⟩) (.of main_call0_v2 : StableHlo.TRef sig ⟨S32768, .f32⟩) maximumf
  :: StableHlo.TRef.unary (.of main_call0_v2 : StableHlo.TRef sig ⟨S32768, .f32⟩) (.of main_call0_v3 : StableHlo.TRef sig ⟨S32768x1, .f32⟩) (broadcastInDim S32768x1 ![0] bcast_S32768_S32768x1_0)
  :: StableHlo.TRef.unary (.of main_call0_v3 : StableHlo.TRef sig ⟨S32768x1, .f32⟩) (.of main_call0_v4 : StableHlo.TRef sig ⟨S32768x1000, .f32⟩) (broadcastInDim S32768x1000 ![0, 1] bcast_S32768x1_S32768x1000_0_1)
  :: StableHlo.TRef.binary (.of main_arg0 : StableHlo.TRef sig ⟨S32768x1000, .f32⟩) (.of main_call0_v4 : StableHlo.TRef sig ⟨S32768x1000, .f32⟩) (.of main_call0_v5 : StableHlo.TRef sig ⟨S32768x1000, .f32⟩) subf
  :: StableHlo.TRef.unary (.of main_call0_v5 : StableHlo.TRef sig ⟨S32768x1000, .f32⟩) (.of main_call0_v6 : StableHlo.TRef sig ⟨S32768x1000, .f32⟩) Host.exp
  :: StableHlo.TRef.nullary (.of main_call0_cst_1 : StableHlo.TRef sig ⟨S_, .f32⟩) (constant S_ .f32 0x00000000#32)
  :: StableHlo.TRef.binary (.of main_call0_v6 : StableHlo.TRef sig ⟨S32768x1000, .f32⟩) (.of main_call0_cst_1 : StableHlo.TRef sig ⟨S_, .f32⟩) (.of main_call0_v7 : StableHlo.TRef sig ⟨S32768, .f32⟩) (fun x v => Host.reduceAdd x v reducesTo_S32768x1000_S32768_d1 h_S_)
  :: StableHlo.TRef.unary (.of main_call0_v7 : StableHlo.TRef sig ⟨S32768, .f32⟩) (.of main_call0_v8 : StableHlo.TRef sig ⟨S32768x1, .f32⟩) (broadcastInDim S32768x1 ![0] bcast_S32768_S32768x1_0)
  :: StableHlo.TRef.unary (.of main_call0_v8 : StableHlo.TRef sig ⟨S32768x1, .f32⟩) (.of main_call0_v9 : StableHlo.TRef sig ⟨S32768x1, .f32⟩) Host.log
  :: StableHlo.TRef.unary (.of main_call0_v9 : StableHlo.TRef sig ⟨S32768x1, .f32⟩) (.of main_call0_v10 : StableHlo.TRef sig ⟨S32768x1000, .f32⟩) (broadcastInDim S32768x1000 ![0, 1] bcast_S32768x1_S32768x1000_0_1)
  :: StableHlo.TRef.binary (.of main_call0_v5 : StableHlo.TRef sig ⟨S32768x1000, .f32⟩) (.of main_call0_v10 : StableHlo.TRef sig ⟨S32768x1000, .f32⟩) (.of main_v0 : StableHlo.TRef sig ⟨S32768x1000, .f32⟩) subf
  :: StableHlo.unary main_arg3 main_v1 (broadcastInDim S32768x1 ![0] bcast_S32768_S32768x1_0 : (⟨S32768, .i32⟩ : BufTy).Contents (Elt F) → (⟨S32768x1, .i32⟩ : BufTy).Contents (Elt F))
  :: StableHlo.TRef.nullary (.of main_call1_c : StableHlo.TRef sig ⟨S_, .i32⟩) (constantI S_ 32 0#32)
  :: StableHlo.TRef.unary (.of main_call1_c : StableHlo.TRef sig ⟨S_, .i32⟩) (.of main_call1_v0 : StableHlo.TRef sig ⟨S32768x1, .i32⟩) (broadcastInDim S32768x1 ![] bcast_S_S32768x1)
  :: StableHlo.TRef.binary (.of main_v1 : StableHlo.TRef sig ⟨S32768x1, .i32⟩) (.of main_call1_v0 : StableHlo.TRef sig ⟨S32768x1, .i32⟩) (.of main_call1_v1 : StableHlo.TRef sig ⟨S32768x1, .i1⟩) (cmpi .slt)
  :: StableHlo.TRef.nullary (.of main_call1_c_0 : StableHlo.TRef sig ⟨S_, .i32⟩) (constantI S_ 32 1000#32)
  :: StableHlo.TRef.unary (.of main_call1_c_0 : StableHlo.TRef sig ⟨S_, .i32⟩) (.of main_call1_v2 : StableHlo.TRef sig ⟨S32768x1, .i32⟩) (broadcastInDim S32768x1 ![] bcast_S_S32768x1)
  :: StableHlo.TRef.binary (.of main_v1 : StableHlo.TRef sig ⟨S32768x1, .i32⟩) (.of main_call1_v2 : StableHlo.TRef sig ⟨S32768x1, .i32⟩) (.of main_call1_v3 : StableHlo.TRef sig ⟨S32768x1, .i32⟩) addi
  :: StableHlo.TRef.ternary (.of main_call1_v1 : StableHlo.TRef sig ⟨S32768x1, .i1⟩) (.of main_call1_v3 : StableHlo.TRef sig ⟨S32768x1, .i32⟩) (.of main_v1 : StableHlo.TRef sig ⟨S32768x1, .i32⟩) (.of main_call1_v4 : StableHlo.TRef sig ⟨S32768x1, .i32⟩) select
  :: StableHlo.TRef.reshape (.of main_call1_v4 : StableHlo.TRef sig ⟨S32768x1, .i32⟩) (.of main_call1_v5 : StableHlo.TRef sig ⟨S32768x1x1, .i32⟩) rfl shapeCasts_S32768x1_S32768x1x1
  :: StableHlo.TRef.nullary (.of main_call1_c_1 : StableHlo.TRef sig ⟨S1, .i32⟩) (constantI S1 32 999#32)
  :: StableHlo.TRef.nullary (.of main_call1_c_2 : StableHlo.TRef sig ⟨S_, .i32⟩) (constantI S_ 32 0#32)
  :: StableHlo.TRef.unary (.of main_call1_c_2 : StableHlo.TRef sig ⟨S_, .i32⟩) (.of main_call1_v6 : StableHlo.TRef sig ⟨S32768x1x1, .i32⟩) (broadcastInDim S32768x1x1 ![] bcast_S_S32768x1x1)
  :: StableHlo.TRef.binary (.of main_call1_v5 : StableHlo.TRef sig ⟨S32768x1x1, .i32⟩) (.of main_call1_v6 : StableHlo.TRef sig ⟨S32768x1x1, .i32⟩) (.of main_call1_v7 : StableHlo.TRef sig ⟨S32768x1x1, .i1⟩) (cmpi .sge)
  :: StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2)
  :: StableHlo.TRef.unary (.of main_call1_v8 : StableHlo.TRef sig ⟨S1x1x1, .i32⟩) (.of main_call1_v9 : StableHlo.TRef sig ⟨S32768x1x1, .i32⟩) (broadcastInDim S32768x1x1 ![0, 1, 2] bcast_S1x1x1_S32768x1x1_0_1_2)
  :: StableHlo.TRef.binary (.of main_call1_v5 : StableHlo.TRef sig ⟨S32768x1x1, .i32⟩) (.of main_call1_v9 : StableHlo.TRef sig ⟨S32768x1x1, .i32⟩) (.of main_call1_v10 : StableHlo.TRef sig ⟨S32768x1x1, .i1⟩) (cmpi .sle)
  :: StableHlo.TRef.binary (.of main_call1_v7 : StableHlo.TRef sig ⟨S32768x1x1, .i1⟩) (.of main_call1_v10 : StableHlo.TRef sig ⟨S32768x1x1, .i1⟩) (.of main_call1_v11 : StableHlo.TRef sig ⟨S32768x1x1, .i1⟩) andi
  :: StableHlo.TRef.nullary (.of main_call1_c_3 : StableHlo.TRef sig ⟨S_, .i1⟩) (constantI S_ 1 1#1)
  :: StableHlo.TRef.binary (.of main_call1_v11 : StableHlo.TRef sig ⟨S32768x1x1, .i1⟩) (.of main_call1_c_3 : StableHlo.TRef sig ⟨S_, .i1⟩) (.of main_call1_v12 : StableHlo.TRef sig ⟨S32768x1, .i1⟩) (fun x v => Host.reduce IntOp.andi x v reducesTo_S32768x1x1_S32768x1_d2 h_S_)
  :: StableHlo.TRef.binary (.of main_v0 : StableHlo.TRef sig ⟨S32768x1000, .f32⟩) (.of main_call1_v5 : StableHlo.TRef sig ⟨S32768x1x1, .i32⟩) (.of main_call1_v13 : StableHlo.TRef sig ⟨S32768x1, .f32⟩) (fun x i => Host.gather gather_S32768x1000_S32768x1x1_S32768x1_n_1_0_0_1_2_11 x i)
  :: StableHlo.TRef.nullary (.of main_call1_cst : StableHlo.TRef sig ⟨S_, .f32⟩) (constant S_ .f32 0x7FC00000#32)
  :: StableHlo.TRef.unary (.of main_call1_cst : StableHlo.TRef sig ⟨S_, .f32⟩) (.of main_call1_v14 : StableHlo.TRef sig ⟨S32768x1, .f32⟩) (broadcastInDim S32768x1 ![] bcast_S_S32768x1)
  :: StableHlo.TRef.ternary (.of main_call1_v12 : StableHlo.TRef sig ⟨S32768x1, .i1⟩) (.of main_call1_v13 : StableHlo.TRef sig ⟨S32768x1, .f32⟩) (.of main_call1_v14 : StableHlo.TRef sig ⟨S32768x1, .f32⟩) (.of main_v2 : StableHlo.TRef sig ⟨S32768x1, .f32⟩) select
  :: StableHlo.reshape main_v2 main_v3 rfl shapeCasts_S32768x1_S32768
  :: StableHlo.unary main_v3 main_v4 (Host.negf : (⟨S32768, .f32⟩ : BufTy).Contents (Elt F) → (⟨S32768, .f32⟩ : BufTy).Contents (Elt F))
  :: [] )

/-- The per-instance memory's update: the losses and the ones scattered by instance index, the mean where an instance occurs, the decayed blend, and the blended memory gathered back per row (40 operations). -/
abbrev opsA : List (HloOp τ sig (Elt F)) :=
  ( StableHlo.nullary main_cst_0 (constant S_ .f32 0x00000000#32)
  :: StableHlo.unary main_cst_0 main_v5 (broadcastInDim S1000000 ![] bcast_S_S1000000 : (⟨S_, .f32⟩ : BufTy).Contents (Elt F) → (⟨S1000000, .f32⟩ : BufTy).Contents (Elt F))
  :: StableHlo.unary main_arg4 main_v6 (broadcastInDim S32768x1 ![0] bcast_S32768_S32768x1_0 : (⟨S32768, .i32⟩ : BufTy).Contents (Elt F) → (⟨S32768x1, .i32⟩ : BufTy).Contents (Elt F))
  :: StableHlo.ternary main_v5 main_v6 main_v4 main_v7 ((fun x i u => Host.scatterAdd scatter_S1000000_S32768x1_S32768_n_0_0_1 x i u) : (⟨S1000000, .f32⟩ : BufTy).Contents (Elt F) → (⟨S32768x1, .i32⟩ : BufTy).Contents (Elt F) → (⟨S32768, .f32⟩ : BufTy).Contents (Elt F) → (⟨S1000000, .f32⟩ : BufTy).Contents (Elt F))
  :: StableHlo.nullary main_cst_1 (constant S_ .f32 0x3F800000#32)
  :: StableHlo.unary main_cst_1 main_v8 (broadcastInDim S32768 ![] bcast_S_S32768 : (⟨S_, .f32⟩ : BufTy).Contents (Elt F) → (⟨S32768, .f32⟩ : BufTy).Contents (Elt F))
  :: StableHlo.nullary main_cst_2 (constant S_ .f32 0x00000000#32)
  :: StableHlo.unary main_cst_2 main_v9 (broadcastInDim S1000000 ![] bcast_S_S1000000 : (⟨S_, .f32⟩ : BufTy).Contents (Elt F) → (⟨S1000000, .f32⟩ : BufTy).Contents (Elt F))
  :: StableHlo.unary main_arg4 main_v10 (broadcastInDim S32768x1 ![0] bcast_S32768_S32768x1_0 : (⟨S32768, .i32⟩ : BufTy).Contents (Elt F) → (⟨S32768x1, .i32⟩ : BufTy).Contents (Elt F))
  :: StableHlo.ternary main_v9 main_v10 main_v8 main_v11 ((fun x i u => Host.scatterAdd scatter_S1000000_S32768x1_S32768_n_0_0_1 x i u) : (⟨S1000000, .f32⟩ : BufTy).Contents (Elt F) → (⟨S32768x1, .i32⟩ : BufTy).Contents (Elt F) → (⟨S32768, .f32⟩ : BufTy).Contents (Elt F) → (⟨S1000000, .f32⟩ : BufTy).Contents (Elt F))
  :: StableHlo.nullary main_cst_3 (constant S_ .f32 0x00000000#32)
  :: StableHlo.unary main_cst_3 main_v12 (broadcastInDim S1000000 ![] bcast_S_S1000000 : (⟨S_, .f32⟩ : BufTy).Contents (Elt F) → (⟨S1000000, .f32⟩ : BufTy).Contents (Elt F))
  :: StableHlo.binary main_v11 main_v12 main_v13 (cmpf .ogt : (⟨S1000000, .f32⟩ : BufTy).Contents (Elt F) → (⟨S1000000, .f32⟩ : BufTy).Contents (Elt F) → (⟨S1000000, .i1⟩ : BufTy).Contents (Elt F))
  :: StableHlo.nullary main_cst_4 (constant S_ .f32 0x3F800000#32)
  :: StableHlo.unary main_cst_4 main_v14 (broadcastInDim S1000000 ![] bcast_S_S1000000 : (⟨S_, .f32⟩ : BufTy).Contents (Elt F) → (⟨S1000000, .f32⟩ : BufTy).Contents (Elt F))
  :: StableHlo.binary main_v11 main_v14 main_v15 (maximumf : (⟨S1000000, .f32⟩ : BufTy).Contents (Elt F) → (⟨S1000000, .f32⟩ : BufTy).Contents (Elt F) → (⟨S1000000, .f32⟩ : BufTy).Contents (Elt F))
  :: StableHlo.binary main_v7 main_v15 main_v16 (Host.divf : (⟨S1000000, .f32⟩ : BufTy).Contents (Elt F) → (⟨S1000000, .f32⟩ : BufTy).Contents (Elt F) → (⟨S1000000, .f32⟩ : BufTy).Contents (Elt F))
  :: StableHlo.nullary main_cst_5 (constant S_ .f32 0x00000000#32)
  :: StableHlo.TRef.unary (.of main_cst_5 : StableHlo.TRef sig ⟨S_, .f32⟩) (.of main_call2_v0 : StableHlo.TRef sig ⟨S_, .f32⟩) id
  :: StableHlo.TRef.unary (.of main_call2_v0 : StableHlo.TRef sig ⟨S_, .f32⟩) (.of main_call2_v1 : StableHlo.TRef sig ⟨S1000000, .f32⟩) (broadcastInDim S1000000 ![] bcast_S_S1000000)
  :: StableHlo.TRef.ternary (.of main_v13 : StableHlo.TRef sig ⟨S1000000, .i1⟩) (.of main_v16 : StableHlo.TRef sig ⟨S1000000, .f32⟩) (.of main_call2_v1 : StableHlo.TRef sig ⟨S1000000, .f32⟩) (.of main_v17 : StableHlo.TRef sig ⟨S1000000, .f32⟩) select
  :: StableHlo.nullary main_cst_6 (constant S_ .f32 0x3F666666#32)
  :: StableHlo.unary main_cst_6 main_v18 (broadcastInDim S1000000 ![] bcast_S_S1000000 : (⟨S_, .f32⟩ : BufTy).Contents (Elt F) → (⟨S1000000, .f32⟩ : BufTy).Contents (Elt F))
  :: StableHlo.binary main_v18 main_v11 main_v19 (Host.powf : (⟨S1000000, .f32⟩ : BufTy).Contents (Elt F) → (⟨S1000000, .f32⟩ : BufTy).Contents (Elt F) → (⟨S1000000, .f32⟩ : BufTy).Contents (Elt F))
  :: StableHlo.binary main_v19 main_arg1 main_v20 (mulf : (⟨S1000000, .f32⟩ : BufTy).Contents (Elt F) → (⟨S1000000, .f32⟩ : BufTy).Contents (Elt F) → (⟨S1000000, .f32⟩ : BufTy).Contents (Elt F))
  :: StableHlo.nullary main_cst_7 (constant S_ .f32 0x3F800000#32)
  :: StableHlo.unary main_cst_7 main_v21 (broadcastInDim S1000000 ![] bcast_S_S1000000 : (⟨S_, .f32⟩ : BufTy).Contents (Elt F) → (⟨S1000000, .f32⟩ : BufTy).Contents (Elt F))
  :: StableHlo.binary main_v21 main_v19 main_v22 (subf : (⟨S1000000, .f32⟩ : BufTy).Contents (Elt F) → (⟨S1000000, .f32⟩ : BufTy).Contents (Elt F) → (⟨S1000000, .f32⟩ : BufTy).Contents (Elt F))
  :: StableHlo.binary main_v22 main_v17 main_v23 (mulf : (⟨S1000000, .f32⟩ : BufTy).Contents (Elt F) → (⟨S1000000, .f32⟩ : BufTy).Contents (Elt F) → (⟨S1000000, .f32⟩ : BufTy).Contents (Elt F))
  :: StableHlo.binary main_v20 main_v23 main_v24 (addf : (⟨S1000000, .f32⟩ : BufTy).Contents (Elt F) → (⟨S1000000, .f32⟩ : BufTy).Contents (Elt F) → (⟨S1000000, .f32⟩ : BufTy).Contents (Elt F))
  :: StableHlo.TRef.ternary (.of main_v13 : StableHlo.TRef sig ⟨S1000000, .i1⟩) (.of main_v24 : StableHlo.TRef sig ⟨S1000000, .f32⟩) (.of main_arg1 : StableHlo.TRef sig ⟨S1000000, .f32⟩) (.of main_v25 : StableHlo.TRef sig ⟨S1000000, .f32⟩) select
  :: StableHlo.nullary main_c (constantI S_ 32 0#32)
  :: StableHlo.unary main_c main_v26 (broadcastInDim S32768 ![] bcast_S_S32768 : (⟨S_, .i32⟩ : BufTy).Contents (Elt F) → (⟨S32768, .i32⟩ : BufTy).Contents (Elt F))
  :: StableHlo.binary main_arg4 main_v26 main_v27 (cmpi .slt : (⟨S32768, .i32⟩ : BufTy).Contents (Elt F) → (⟨S32768, .i32⟩ : BufTy).Contents (Elt F) → (⟨S32768, .i1⟩ : BufTy).Contents (Elt F))
  :: StableHlo.nullary main_c_8 (constantI S_ 32 1000000#32)
  :: StableHlo.unary main_c_8 main_v28 (broadcastInDim S32768 ![] bcast_S_S32768 : (⟨S_, .i32⟩ : BufTy).Contents (Elt F) → (⟨S32768, .i32⟩ : BufTy).Contents (Elt F))
  :: StableHlo.binary main_arg4 main_v28 main_v29 (addi : (⟨S32768, .i32⟩ : BufTy).Contents (Elt F) → (⟨S32768, .i32⟩ : BufTy).Contents (Elt F) → (⟨S32768, .i32⟩ : BufTy).Contents (Elt F))
  :: StableHlo.ternary main_v27 main_v29 main_arg4 main_v30 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v30 main_v31 (broadcastInDim S32768x1 ![0] bcast_S32768_S32768x1_0 : (⟨S32768, .i32⟩ : BufTy).Contents (Elt F) → (⟨S32768x1, .i32⟩ : BufTy).Contents (Elt F))
  :: StableHlo.binary main_v25 main_v31 main_v32 ((fun x i => Host.gather gather_S1000000_S32768x1_S32768_n_0_n_n_0_1_1 x i) : (⟨S1000000, .f32⟩ : BufTy).Contents (Elt F) → (⟨S32768x1, .i32⟩ : BufTy).Contents (Elt F) → (⟨S32768, .f32⟩ : BufTy).Contents (Elt F))
  :: [] )

/-- The per-instance weight's exponent: the gathered value's logarithm standardized, its position in the table (clipped, floor and fraction), the two neighbouring table entries, their interpolation, the exponential (69 operations). -/
abbrev opsB : List (HloOp τ sig (Elt F)) :=
  ( StableHlo.nullary main_cst_9 (constant S_ .f32 0x3F800000#32)
  :: StableHlo.unary main_cst_9 main_v33 (broadcastInDim S32768 ![] bcast_S_S32768 : (⟨S_, .f32⟩ : BufTy).Contents (Elt F) → (⟨S32768, .f32⟩ : BufTy).Contents (Elt F))
  :: StableHlo.binary main_v32 main_v33 main_v34 (Host.divf : (⟨S32768, .f32⟩ : BufTy).Contents (Elt F) → (⟨S32768, .f32⟩ : BufTy).Contents (Elt F) → (⟨S32768, .f32⟩ : BufTy).Contents (Elt F))
  :: StableHlo.nullary main_cst_10 (constant S_ .f32 0x3F4010C7#32)
  :: StableHlo.unary main_cst_10 main_v35 (broadcastInDim S32768 ![] bcast_S_S32768 : (⟨S_, .f32⟩ : BufTy).Contents (Elt F) → (⟨S32768, .f32⟩ : BufTy).Contents (Elt F))
  :: StableHlo.binary main_v34 main_v35 main_v36 (addf : (⟨S32768, .f32⟩ : BufTy).Contents (Elt F) → (⟨S32768, .f32⟩ : BufTy).Contents (Elt F) → (⟨S32768, .f32⟩ : BufTy).Contents (Elt F))
  :: StableHlo.unary main_v36 main_v37 (Host.log : (⟨S32768, .f32⟩ : BufTy).Contents (Elt F) → (⟨S32768, .f32⟩ : BufTy).Contents (Elt F))
  :: StableHlo.nullary main_cst_11 (constant S_ .f32 0x3FAB2250#32)
  :: StableHlo.unary main_cst_11 main_v38 (broadcastInDim S32768 ![] bcast_S_S32768 : (⟨S_, .f32⟩ : BufTy).Contents (Elt F) → (⟨S32768, .f32⟩ : BufTy).Contents (Elt F))
  :: StableHlo.binary main_v37 main_v38 main_v39 (subf : (⟨S32768, .f32⟩ : BufTy).Contents (Elt F) → (⟨S32768, .f32⟩ : BufTy).Contents (Elt F) → (⟨S32768, .f32⟩ : BufTy).Contents (Elt F))
  :: StableHlo.nullary main_cst_12 (constant S_ .f32 0x40B243C1#32)
  :: StableHlo.unary main_cst_12 main_v40 (broadcastInDim S32768 ![] bcast_S_S32768 : (⟨S_, .f32⟩ : BufTy).Contents (Elt F) → (⟨S32768, .f32⟩ : BufTy).Contents (Elt F))
  :: StableHlo.binary main_v39 main_v40 main_v41 (Host.divf : (⟨S32768, .f32⟩ : BufTy).Contents (Elt F) → (⟨S32768, .f32⟩ : BufTy).Contents (Elt F) → (⟨S32768, .f32⟩ : BufTy).Contents (Elt F))
  :: StableHlo.binary main_v41 main_v41 main_v42 (cmpf .une : (⟨S32768, .f32⟩ : BufTy).Contents (Elt F) → (⟨S32768, .f32⟩ : BufTy).Contents (Elt F) → (⟨S32768, .i1⟩ : BufTy).Contents (Elt F))
  :: StableHlo.nullary main_cst_13 (constant S_ .f32 0xBF800000#32)
  :: StableHlo.TRef.unary (.of main_cst_13 : StableHlo.TRef sig ⟨S_, .f32⟩) (.of main_call4_v0 : StableHlo.TRef sig ⟨S_, .f32⟩) id
  :: StableHlo.TRef.unary (.of main_call4_v0 : StableHlo.TRef sig ⟨S_, .f32⟩) (.of main_call4_v1 : StableHlo.TRef sig ⟨S32768, .f32⟩) (broadcastInDim S32768 ![] bcast_S_S32768)
  :: StableHlo.TRef.ternary (.of main_v42 : StableHlo.TRef sig ⟨S32768, .i1⟩) (.of main_call4_v1 : StableHlo.TRef sig ⟨S32768, .f32⟩) (.of main_v41 : StableHlo.TRef sig ⟨S32768, .f32⟩) (.of main_v43 : StableHlo.TRef sig ⟨S32768, .f32⟩) select
  :: StableHlo.nullary main_cst_14 (constant S_ .f32 0x3F800000#32)
  :: StableHlo.unary main_cst_14 main_v44 (broadcastInDim S32768 ![] bcast_S_S32768 : (⟨S_, .f32⟩ : BufTy).Contents (Elt F) → (⟨S32768, .f32⟩ : BufTy).Contents (Elt F))
  :: StableHlo.binary main_v43 main_v44 main_v45 (addf : (⟨S32768, .f32⟩ : BufTy).Contents (Elt F) → (⟨S32768, .f32⟩ : BufTy).Contents (Elt F) → (⟨S32768, .f32⟩ : BufTy).Contents (Elt F))
  :: StableHlo.nullary main_cst_15 (constant S_ .f32 0x3F000000#32)
  :: StableHlo.unary main_cst_15 main_v46 (broadcastInDim S32768 ![] bcast_S_S32768 : (⟨S_, .f32⟩ : BufTy).Contents (Elt F) → (⟨S32768, .f32⟩ : BufTy).Contents (Elt F))
  :: StableHlo.binary main_v45 main_v46 main_v47 (mulf : (⟨S32768, .f32⟩ : BufTy).Contents (Elt F) → (⟨S32768, .f32⟩ : BufTy).Contents (Elt F) → (⟨S32768, .f32⟩ : BufTy).Contents (Elt F))
  :: StableHlo.nullary main_cst_16 (constant S_ .f32 0x41F00000#32)
  :: StableHlo.unary main_cst_16 main_v48 (broadcastInDim S32768 ![] bcast_S_S32768 : (⟨S_, .f32⟩ : BufTy).Contents (Elt F) → (⟨S32768, .f32⟩ : BufTy).Contents (Elt F))
  :: StableHlo.binary main_v47 main_v48 main_v49 (mulf : (⟨S32768, .f32⟩ : BufTy).Contents (Elt F) → (⟨S32768, .f32⟩ : BufTy).Contents (Elt F) → (⟨S32768, .f32⟩ : BufTy).Contents (Elt F))
  :: StableHlo.nullary main_cst_17 (constant S_ .f32 0x00000000#32)
  :: StableHlo.nullary main_c_18 (constantI S_ 32 30#32)
  :: StableHlo.TRef.unary (.of main_cst_17 : StableHlo.TRef sig ⟨S_, .f32⟩) (.of main_call5_v0 : StableHlo.TRef sig ⟨S_, .f32⟩) id
  :: StableHlo.TRef.unary (.of main_call5_v0 : StableHlo.TRef sig ⟨S_, .f32⟩) (.of main_call5_v1 : StableHlo.TRef sig ⟨S32768, .f32⟩) (broadcastInDim S32768 ![] bcast_S_S32768)
  :: StableHlo.TRef.binary (.of main_call5_v1 : StableHlo.TRef sig ⟨S32768, .f32⟩) (.of main_v49 : StableHlo.TRef sig ⟨S32768, .f32⟩) (.of main_call5_v2 : StableHlo.TRef sig ⟨S32768, .f32⟩) maximumf
  :: StableHlo.TRef.unary (.of main_c_18 : StableHlo.TRef sig ⟨S_, .i32⟩) (.of main_call5_v3 : StableHlo.TRef sig ⟨S_, .f32⟩) (sitofp .f32)
  :: StableHlo.TRef.unary (.of main_call5_v3 : StableHlo.TRef sig ⟨S_, .f32⟩) (.of main_call5_v4 : StableHlo.TRef sig ⟨S32768, .f32⟩) (broadcastInDim S32768 ![] bcast_S_S32768)
  :: StableHlo.TRef.binary (.of main_call5_v4 : StableHlo.TRef sig ⟨S32768, .f32⟩) (.of main_call5_v2 : StableHlo.TRef sig ⟨S32768, .f32⟩) (.of main_v50 : StableHlo.TRef sig ⟨S32768, .f32⟩) minimumf
  :: StableHlo.unary main_v50 main_v51 (Host.floor : (⟨S32768, .f32⟩ : BufTy).Contents (Elt F) → (⟨S32768, .f32⟩ : BufTy).Contents (Elt F))
  :: StableHlo.binary main_v50 main_v51 main_v52 (subf : (⟨S32768, .f32⟩ : BufTy).Contents (Elt F) → (⟨S32768, .f32⟩ : BufTy).Contents (Elt F) → (⟨S32768, .f32⟩ : BufTy).Contents (Elt F))
  :: StableHlo.unary main_v51 main_v53 (fptosi 32 : (⟨S32768, .f32⟩ : BufTy).Contents (Elt F) → (⟨S32768, .i32⟩ : BufTy).Contents (Elt F))
  :: StableHlo.nullary main_c_19 (constantI S_ 32 1#32)
  :: StableHlo.unary main_c_19 main_v54 (broadcastInDim S32768 ![] bcast_S_S32768 : (⟨S_, .i32⟩ : BufTy).Contents (Elt F) → (⟨S32768, .i32⟩ : BufTy).Contents (Elt F))
  :: StableHlo.binary main_v53 main_v54 main_v55 (addi : (⟨S32768, .i32⟩ : BufTy).Contents (Elt F) → (⟨S32768, .i32⟩ : BufTy).Contents (Elt F) → (⟨S32768, .i32⟩ : BufTy).Contents (Elt F))
  :: StableHlo.nullary main_c_20 (constantI S_ 32 30#32)
  :: StableHlo.unary main_c_20 main_v56 (broadcastInDim S32768 ![] bcast_S_S32768 : (⟨S_, .i32⟩ : BufTy).Contents (Elt F) → (⟨S32768, .i32⟩ : BufTy).Contents (Elt F))
  :: StableHlo.binary main_v55 main_v56 main_v57 (minsi : (⟨S32768, .i32⟩ : BufTy).Contents (Elt F) → (⟨S32768, .i32⟩ : BufTy).Contents (Elt F) → (⟨S32768, .i32⟩ : BufTy).Contents (Elt F))
  :: StableHlo.nullary main_c_21 (constantI S_ 32 0#32)
  :: StableHlo.unary main_c_21 main_v58 (broadcastInDim S32768 ![] bcast_S_S32768 : (⟨S_, .i32⟩ : BufTy).Contents (Elt F) → (⟨S32768, .i32⟩ : BufTy).Contents (Elt F))
  :: StableHlo.binary main_v53 main_v58 main_v59 (cmpi .slt : (⟨S32768, .i32⟩ : BufTy).Contents (Elt F) → (⟨S32768, .i32⟩ : BufTy).Contents (Elt F) → (⟨S32768, .i1⟩ : BufTy).Contents (Elt F))
  :: StableHlo.nullary main_c_22 (constantI S_ 32 31#32)
  :: StableHlo.unary main_c_22 main_v60 (broadcastInDim S32768 ![] bcast_S_S32768 : (⟨S_, .i32⟩ : BufTy).Contents (Elt F) → (⟨S32768, .i32⟩ : BufTy).Contents (Elt F))
  :: StableHlo.binary main_v53 main_v60 main_v61 (addi : (⟨S32768, .i32⟩ : BufTy).Contents (Elt F) → (⟨S32768, .i32⟩ : BufTy).Contents (Elt F) → (⟨S32768, .i32⟩ : BufTy).Contents (Elt F))
  :: StableHlo.ternary main_v59 main_v61 main_v53 main_v62 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v62 main_v63 (broadcastInDim S32768x1 ![0] bcast_S32768_S32768x1_0 : (⟨S32768, .i32⟩ : BufTy).Contents (Elt F) → (⟨S32768x1, .i32⟩ : BufTy).Contents (Elt F))
  :: StableHlo.binary main_cst main_v63 main_v64 ((fun x i => Host.gather gather_S31_S32768x1_S32768_n_0_n_n_0_1_1 x i) : (⟨S31, .f32⟩ : BufTy).Contents (Elt F) → (⟨S32768x1, .i32⟩ : BufTy).Contents (Elt F) → (⟨S32768, .f32⟩ : BufTy).Contents (Elt F))
  :: StableHlo.nullary main_cst_23 (constant S_ .f32 0x3F800000#32)
  :: StableHlo.unary main_cst_23 main_v65 (broadcastInDim S32768 ![] bcast_S_S32768 : (⟨S_, .f32⟩ : BufTy).Contents (Elt F) → (⟨S32768, .f32⟩ : BufTy).Contents (Elt F))
  :: StableHlo.binary main_v65 main_v52 main_v66 (subf : (⟨S32768, .f32⟩ : BufTy).Contents (Elt F) → (⟨S32768, .f32⟩ : BufTy).Contents (Elt F) → (⟨S32768, .f32⟩ : BufTy).Contents (Elt F))
  :: StableHlo.binary main_v64 main_v66 main_v67 (mulf : (⟨S32768, .f32⟩ : BufTy).Contents (Elt F) → (⟨S32768, .f32⟩ : BufTy).Contents (Elt F) → (⟨S32768, .f32⟩ : BufTy).Contents (Elt F))
  :: StableHlo.nullary main_c_24 (constantI S_ 32 0#32)
  :: StableHlo.unary main_c_24 main_v68 (broadcastInDim S32768 ![] bcast_S_S32768 : (⟨S_, .i32⟩ : BufTy).Contents (Elt F) → (⟨S32768, .i32⟩ : BufTy).Contents (Elt F))
  :: StableHlo.binary main_v57 main_v68 main_v69 (cmpi .slt : (⟨S32768, .i32⟩ : BufTy).Contents (Elt F) → (⟨S32768, .i32⟩ : BufTy).Contents (Elt F) → (⟨S32768, .i1⟩ : BufTy).Contents (Elt F))
  :: StableHlo.nullary main_c_25 (constantI S_ 32 31#32)
  :: StableHlo.unary main_c_25 main_v70 (broadcastInDim S32768 ![] bcast_S_S32768 : (⟨S_, .i32⟩ : BufTy).Contents (Elt F) → (⟨S32768, .i32⟩ : BufTy).Contents (Elt F))
  :: StableHlo.binary main_v57 main_v70 main_v71 (addi : (⟨S32768, .i32⟩ : BufTy).Contents (Elt F) → (⟨S32768, .i32⟩ : BufTy).Contents (Elt F) → (⟨S32768, .i32⟩ : BufTy).Contents (Elt F))
  :: StableHlo.ternary main_v69 main_v71 main_v57 main_v72 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v72 main_v73 (broadcastInDim S32768x1 ![0] bcast_S32768_S32768x1_0 : (⟨S32768, .i32⟩ : BufTy).Contents (Elt F) → (⟨S32768x1, .i32⟩ : BufTy).Contents (Elt F))
  :: StableHlo.binary main_cst main_v73 main_v74 ((fun x i => Host.gather gather_S31_S32768x1_S32768_n_0_n_n_0_1_1 x i) : (⟨S31, .f32⟩ : BufTy).Contents (Elt F) → (⟨S32768x1, .i32⟩ : BufTy).Contents (Elt F) → (⟨S32768, .f32⟩ : BufTy).Contents (Elt F))
  :: StableHlo.binary main_v74 main_v52 main_v75 (mulf : (⟨S32768, .f32⟩ : BufTy).Contents (Elt F) → (⟨S32768, .f32⟩ : BufTy).Contents (Elt F) → (⟨S32768, .f32⟩ : BufTy).Contents (Elt F))
  :: StableHlo.binary main_v67 main_v75 main_v76 (addf : (⟨S32768, .f32⟩ : BufTy).Contents (Elt F) → (⟨S32768, .f32⟩ : BufTy).Contents (Elt F) → (⟨S32768, .f32⟩ : BufTy).Contents (Elt F))
  :: StableHlo.unary main_v76 main_v77 (Host.exp : (⟨S32768, .f32⟩ : BufTy).Contents (Elt F) → (⟨S32768, .f32⟩ : BufTy).Contents (Elt F))
  :: [] )

/-- The per-class memory's update: the same scatter, mean and blend by label, and the blended memory gathered back per row (40 operations). -/
abbrev opsC : List (HloOp τ sig (Elt F)) :=
  ( StableHlo.nullary main_cst_26 (constant S_ .f32 0x00000000#32)
  :: StableHlo.unary main_cst_26 main_v78 (broadcastInDim S1000 ![] bcast_S_S1000 : (⟨S_, .f32⟩ : BufTy).Contents (Elt F) → (⟨S1000, .f32⟩ : BufTy).Contents (Elt F))
  :: StableHlo.unary main_arg3 main_v79 (broadcastInDim S32768x1 ![0] bcast_S32768_S32768x1_0 : (⟨S32768, .i32⟩ : BufTy).Contents (Elt F) → (⟨S32768x1, .i32⟩ : BufTy).Contents (Elt F))
  :: StableHlo.ternary main_v78 main_v79 main_v4 main_v80 ((fun x i u => Host.scatterAdd scatter_S1000_S32768x1_S32768_n_0_0_1 x i u) : (⟨S1000, .f32⟩ : BufTy).Contents (Elt F) → (⟨S32768x1, .i32⟩ : BufTy).Contents (Elt F) → (⟨S32768, .f32⟩ : BufTy).Contents (Elt F) → (⟨S1000, .f32⟩ : BufTy).Contents (Elt F))
  :: StableHlo.nullary main_cst_27 (constant S_ .f32 0x3F800000#32)
  :: StableHlo.unary main_cst_27 main_v81 (broadcastInDim S32768 ![] bcast_S_S32768 : (⟨S_, .f32⟩ : BufTy).Contents (Elt F) → (⟨S32768, .f32⟩ : BufTy).Contents (Elt F))
  :: StableHlo.nullary main_cst_28 (constant S_ .f32 0x00000000#32)
  :: StableHlo.unary main_cst_28 main_v82 (broadcastInDim S1000 ![] bcast_S_S1000 : (⟨S_, .f32⟩ : BufTy).Contents (Elt F) → (⟨S1000, .f32⟩ : BufTy).Contents (Elt F))
  :: StableHlo.unary main_arg3 main_v83 (broadcastInDim S32768x1 ![0] bcast_S32768_S32768x1_0 : (⟨S32768, .i32⟩ : BufTy).Contents (Elt F) → (⟨S32768x1, .i32⟩ : BufTy).Contents (Elt F))
  :: StableHlo.ternary main_v82 main_v83 main_v81 main_v84 ((fun x i u => Host.scatterAdd scatter_S1000_S32768x1_S32768_n_0_0_1 x i u) : (⟨S1000, .f32⟩ : BufTy).Contents (Elt F) → (⟨S32768x1, .i32⟩ : BufTy).Contents (Elt F) → (⟨S32768, .f32⟩ : BufTy).Contents (Elt F) → (⟨S1000, .f32⟩ : BufTy).Contents (Elt F))
  :: StableHlo.nullary main_cst_29 (constant S_ .f32 0x00000000#32)
  :: StableHlo.unary main_cst_29 main_v85 (broadcastInDim S1000 ![] bcast_S_S1000 : (⟨S_, .f32⟩ : BufTy).Contents (Elt F) → (⟨S1000, .f32⟩ : BufTy).Contents (Elt F))
  :: StableHlo.binary main_v84 main_v85 main_v86 (cmpf .ogt : (⟨S1000, .f32⟩ : BufTy).Contents (Elt F) → (⟨S1000, .f32⟩ : BufTy).Contents (Elt F) → (⟨S1000, .i1⟩ : BufTy).Contents (Elt F))
  :: StableHlo.nullary main_cst_30 (constant S_ .f32 0x3F800000#32)
  :: StableHlo.unary main_cst_30 main_v87 (broadcastInDim S1000 ![] bcast_S_S1000 : (⟨S_, .f32⟩ : BufTy).Contents (Elt F) → (⟨S1000, .f32⟩ : BufTy).Contents (Elt F))
  :: StableHlo.binary main_v84 main_v87 main_v88 (maximumf : (⟨S1000, .f32⟩ : BufTy).Contents (Elt F) → (⟨S1000, .f32⟩ : BufTy).Contents (Elt F) → (⟨S1000, .f32⟩ : BufTy).Contents (Elt F))
  :: StableHlo.binary main_v80 main_v88 main_v89 (Host.divf : (⟨S1000, .f32⟩ : BufTy).Contents (Elt F) → (⟨S1000, .f32⟩ : BufTy).Contents (Elt F) → (⟨S1000, .f32⟩ : BufTy).Contents (Elt F))
  :: StableHlo.nullary main_cst_31 (constant S_ .f32 0x00000000#32)
  :: StableHlo.TRef.unary (.of main_cst_31 : StableHlo.TRef sig ⟨S_, .f32⟩) (.of main_call6_v0 : StableHlo.TRef sig ⟨S_, .f32⟩) id
  :: StableHlo.TRef.unary (.of main_call6_v0 : StableHlo.TRef sig ⟨S_, .f32⟩) (.of main_call6_v1 : StableHlo.TRef sig ⟨S1000, .f32⟩) (broadcastInDim S1000 ![] bcast_S_S1000)
  :: StableHlo.TRef.ternary (.of main_v86 : StableHlo.TRef sig ⟨S1000, .i1⟩) (.of main_v89 : StableHlo.TRef sig ⟨S1000, .f32⟩) (.of main_call6_v1 : StableHlo.TRef sig ⟨S1000, .f32⟩) (.of main_v90 : StableHlo.TRef sig ⟨S1000, .f32⟩) select
  :: StableHlo.nullary main_cst_32 (constant S_ .f32 0x3F666666#32)
  :: StableHlo.unary main_cst_32 main_v91 (broadcastInDim S1000 ![] bcast_S_S1000 : (⟨S_, .f32⟩ : BufTy).Contents (Elt F) → (⟨S1000, .f32⟩ : BufTy).Contents (Elt F))
  :: StableHlo.binary main_v91 main_v84 main_v92 (Host.powf : (⟨S1000, .f32⟩ : BufTy).Contents (Elt F) → (⟨S1000, .f32⟩ : BufTy).Contents (Elt F) → (⟨S1000, .f32⟩ : BufTy).Contents (Elt F))
  :: StableHlo.binary main_v92 main_arg2 main_v93 (mulf : (⟨S1000, .f32⟩ : BufTy).Contents (Elt F) → (⟨S1000, .f32⟩ : BufTy).Contents (Elt F) → (⟨S1000, .f32⟩ : BufTy).Contents (Elt F))
  :: StableHlo.nullary main_cst_33 (constant S_ .f32 0x3F800000#32)
  :: StableHlo.unary main_cst_33 main_v94 (broadcastInDim S1000 ![] bcast_S_S1000 : (⟨S_, .f32⟩ : BufTy).Contents (Elt F) → (⟨S1000, .f32⟩ : BufTy).Contents (Elt F))
  :: StableHlo.binary main_v94 main_v92 main_v95 (subf : (⟨S1000, .f32⟩ : BufTy).Contents (Elt F) → (⟨S1000, .f32⟩ : BufTy).Contents (Elt F) → (⟨S1000, .f32⟩ : BufTy).Contents (Elt F))
  :: StableHlo.binary main_v95 main_v90 main_v96 (mulf : (⟨S1000, .f32⟩ : BufTy).Contents (Elt F) → (⟨S1000, .f32⟩ : BufTy).Contents (Elt F) → (⟨S1000, .f32⟩ : BufTy).Contents (Elt F))
  :: StableHlo.binary main_v93 main_v96 main_v97 (addf : (⟨S1000, .f32⟩ : BufTy).Contents (Elt F) → (⟨S1000, .f32⟩ : BufTy).Contents (Elt F) → (⟨S1000, .f32⟩ : BufTy).Contents (Elt F))
  :: StableHlo.TRef.ternary (.of main_v86 : StableHlo.TRef sig ⟨S1000, .i1⟩) (.of main_v97 : StableHlo.TRef sig ⟨S1000, .f32⟩) (.of main_arg2 : StableHlo.TRef sig ⟨S1000, .f32⟩) (.of main_v98 : StableHlo.TRef sig ⟨S1000, .f32⟩) select
  :: StableHlo.nullary main_c_34 (constantI S_ 32 0#32)
  :: StableHlo.unary main_c_34 main_v99 (broadcastInDim S32768 ![] bcast_S_S32768 : (⟨S_, .i32⟩ : BufTy).Contents (Elt F) → (⟨S32768, .i32⟩ : BufTy).Contents (Elt F))
  :: StableHlo.binary main_arg3 main_v99 main_v100 (cmpi .slt : (⟨S32768, .i32⟩ : BufTy).Contents (Elt F) → (⟨S32768, .i32⟩ : BufTy).Contents (Elt F) → (⟨S32768, .i1⟩ : BufTy).Contents (Elt F))
  :: StableHlo.nullary main_c_35 (constantI S_ 32 1000#32)
  :: StableHlo.unary main_c_35 main_v101 (broadcastInDim S32768 ![] bcast_S_S32768 : (⟨S_, .i32⟩ : BufTy).Contents (Elt F) → (⟨S32768, .i32⟩ : BufTy).Contents (Elt F))
  :: StableHlo.binary main_arg3 main_v101 main_v102 (addi : (⟨S32768, .i32⟩ : BufTy).Contents (Elt F) → (⟨S32768, .i32⟩ : BufTy).Contents (Elt F) → (⟨S32768, .i32⟩ : BufTy).Contents (Elt F))
  :: StableHlo.ternary main_v100 main_v102 main_arg3 main_v103 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v103 main_v104 (broadcastInDim S32768x1 ![0] bcast_S32768_S32768x1_0 : (⟨S32768, .i32⟩ : BufTy).Contents (Elt F) → (⟨S32768x1, .i32⟩ : BufTy).Contents (Elt F))
  :: StableHlo.binary main_v98 main_v104 main_v105 ((fun x i => Host.gather gather_S1000_S32768x1_S32768_n_0_n_n_0_1_1 x i) : (⟨S1000, .f32⟩ : BufTy).Contents (Elt F) → (⟨S32768x1, .i32⟩ : BufTy).Contents (Elt F) → (⟨S32768, .f32⟩ : BufTy).Contents (Elt F))
  :: [] )

/-- The per-class weight's exponent: the same standardization, table position, interpolation and exponential (69 operations). -/
abbrev opsD : List (HloOp τ sig (Elt F)) :=
  ( StableHlo.nullary main_cst_36 (constant S_ .f32 0x3F800000#32)
  :: StableHlo.unary main_cst_36 main_v106 (broadcastInDim S32768 ![] bcast_S_S32768 : (⟨S_, .f32⟩ : BufTy).Contents (Elt F) → (⟨S32768, .f32⟩ : BufTy).Contents (Elt F))
  :: StableHlo.binary main_v105 main_v106 main_v107 (Host.divf : (⟨S32768, .f32⟩ : BufTy).Contents (Elt F) → (⟨S32768, .f32⟩ : BufTy).Contents (Elt F) → (⟨S32768, .f32⟩ : BufTy).Contents (Elt F))
  :: StableHlo.nullary main_cst_37 (constant S_ .f32 0x3F4010C7#32)
  :: StableHlo.unary main_cst_37 main_v108 (broadcastInDim S32768 ![] bcast_S_S32768 : (⟨S_, .f32⟩ : BufTy).Contents (Elt F) → (⟨S32768, .f32⟩ : BufTy).Contents (Elt F))
  :: StableHlo.binary main_v107 main_v108 main_v109 (addf : (⟨S32768, .f32⟩ : BufTy).Contents (Elt F) → (⟨S32768, .f32⟩ : BufTy).Contents (Elt F) → (⟨S32768, .f32⟩ : BufTy).Contents (Elt F))
  :: StableHlo.unary main_v109 main_v110 (Host.log : (⟨S32768, .f32⟩ : BufTy).Contents (Elt F) → (⟨S32768, .f32⟩ : BufTy).Contents (Elt F))
  :: StableHlo.nullary main_cst_38 (constant S_ .f32 0x3FAB2250#32)
  :: StableHlo.unary main_cst_38 main_v111 (broadcastInDim S32768 ![] bcast_S_S32768 : (⟨S_, .f32⟩ : BufTy).Contents (Elt F) → (⟨S32768, .f32⟩ : BufTy).Contents (Elt F))
  :: StableHlo.binary main_v110 main_v111 main_v112 (subf : (⟨S32768, .f32⟩ : BufTy).Contents (Elt F) → (⟨S32768, .f32⟩ : BufTy).Contents (Elt F) → (⟨S32768, .f32⟩ : BufTy).Contents (Elt F))
  :: StableHlo.nullary main_cst_39 (constant S_ .f32 0x40B243C1#32)
  :: StableHlo.unary main_cst_39 main_v113 (broadcastInDim S32768 ![] bcast_S_S32768 : (⟨S_, .f32⟩ : BufTy).Contents (Elt F) → (⟨S32768, .f32⟩ : BufTy).Contents (Elt F))
  :: StableHlo.binary main_v112 main_v113 main_v114 (Host.divf : (⟨S32768, .f32⟩ : BufTy).Contents (Elt F) → (⟨S32768, .f32⟩ : BufTy).Contents (Elt F) → (⟨S32768, .f32⟩ : BufTy).Contents (Elt F))
  :: StableHlo.binary main_v114 main_v114 main_v115 (cmpf .une : (⟨S32768, .f32⟩ : BufTy).Contents (Elt F) → (⟨S32768, .f32⟩ : BufTy).Contents (Elt F) → (⟨S32768, .i1⟩ : BufTy).Contents (Elt F))
  :: StableHlo.nullary main_cst_40 (constant S_ .f32 0xBF800000#32)
  :: StableHlo.TRef.unary (.of main_cst_40 : StableHlo.TRef sig ⟨S_, .f32⟩) (.of main_call8_v0 : StableHlo.TRef sig ⟨S_, .f32⟩) id
  :: StableHlo.TRef.unary (.of main_call8_v0 : StableHlo.TRef sig ⟨S_, .f32⟩) (.of main_call8_v1 : StableHlo.TRef sig ⟨S32768, .f32⟩) (broadcastInDim S32768 ![] bcast_S_S32768)
  :: StableHlo.TRef.ternary (.of main_v115 : StableHlo.TRef sig ⟨S32768, .i1⟩) (.of main_call8_v1 : StableHlo.TRef sig ⟨S32768, .f32⟩) (.of main_v114 : StableHlo.TRef sig ⟨S32768, .f32⟩) (.of main_v116 : StableHlo.TRef sig ⟨S32768, .f32⟩) select
  :: StableHlo.nullary main_cst_41 (constant S_ .f32 0x3F800000#32)
  :: StableHlo.unary main_cst_41 main_v117 (broadcastInDim S32768 ![] bcast_S_S32768 : (⟨S_, .f32⟩ : BufTy).Contents (Elt F) → (⟨S32768, .f32⟩ : BufTy).Contents (Elt F))
  :: StableHlo.binary main_v116 main_v117 main_v118 (addf : (⟨S32768, .f32⟩ : BufTy).Contents (Elt F) → (⟨S32768, .f32⟩ : BufTy).Contents (Elt F) → (⟨S32768, .f32⟩ : BufTy).Contents (Elt F))
  :: StableHlo.nullary main_cst_42 (constant S_ .f32 0x3F000000#32)
  :: StableHlo.unary main_cst_42 main_v119 (broadcastInDim S32768 ![] bcast_S_S32768 : (⟨S_, .f32⟩ : BufTy).Contents (Elt F) → (⟨S32768, .f32⟩ : BufTy).Contents (Elt F))
  :: StableHlo.binary main_v118 main_v119 main_v120 (mulf : (⟨S32768, .f32⟩ : BufTy).Contents (Elt F) → (⟨S32768, .f32⟩ : BufTy).Contents (Elt F) → (⟨S32768, .f32⟩ : BufTy).Contents (Elt F))
  :: StableHlo.nullary main_cst_43 (constant S_ .f32 0x41F00000#32)
  :: StableHlo.unary main_cst_43 main_v121 (broadcastInDim S32768 ![] bcast_S_S32768 : (⟨S_, .f32⟩ : BufTy).Contents (Elt F) → (⟨S32768, .f32⟩ : BufTy).Contents (Elt F))
  :: StableHlo.binary main_v120 main_v121 main_v122 (mulf : (⟨S32768, .f32⟩ : BufTy).Contents (Elt F) → (⟨S32768, .f32⟩ : BufTy).Contents (Elt F) → (⟨S32768, .f32⟩ : BufTy).Contents (Elt F))
  :: StableHlo.nullary main_cst_44 (constant S_ .f32 0x00000000#32)
  :: StableHlo.nullary main_c_45 (constantI S_ 32 30#32)
  :: StableHlo.TRef.unary (.of main_cst_44 : StableHlo.TRef sig ⟨S_, .f32⟩) (.of main_call9_v0 : StableHlo.TRef sig ⟨S_, .f32⟩) id
  :: StableHlo.TRef.unary (.of main_call9_v0 : StableHlo.TRef sig ⟨S_, .f32⟩) (.of main_call9_v1 : StableHlo.TRef sig ⟨S32768, .f32⟩) (broadcastInDim S32768 ![] bcast_S_S32768)
  :: StableHlo.TRef.binary (.of main_call9_v1 : StableHlo.TRef sig ⟨S32768, .f32⟩) (.of main_v122 : StableHlo.TRef sig ⟨S32768, .f32⟩) (.of main_call9_v2 : StableHlo.TRef sig ⟨S32768, .f32⟩) maximumf
  :: StableHlo.TRef.unary (.of main_c_45 : StableHlo.TRef sig ⟨S_, .i32⟩) (.of main_call9_v3 : StableHlo.TRef sig ⟨S_, .f32⟩) (sitofp .f32)
  :: StableHlo.TRef.unary (.of main_call9_v3 : StableHlo.TRef sig ⟨S_, .f32⟩) (.of main_call9_v4 : StableHlo.TRef sig ⟨S32768, .f32⟩) (broadcastInDim S32768 ![] bcast_S_S32768)
  :: StableHlo.TRef.binary (.of main_call9_v4 : StableHlo.TRef sig ⟨S32768, .f32⟩) (.of main_call9_v2 : StableHlo.TRef sig ⟨S32768, .f32⟩) (.of main_v123 : StableHlo.TRef sig ⟨S32768, .f32⟩) minimumf
  :: StableHlo.unary main_v123 main_v124 (Host.floor : (⟨S32768, .f32⟩ : BufTy).Contents (Elt F) → (⟨S32768, .f32⟩ : BufTy).Contents (Elt F))
  :: StableHlo.binary main_v123 main_v124 main_v125 (subf : (⟨S32768, .f32⟩ : BufTy).Contents (Elt F) → (⟨S32768, .f32⟩ : BufTy).Contents (Elt F) → (⟨S32768, .f32⟩ : BufTy).Contents (Elt F))
  :: StableHlo.unary main_v124 main_v126 (fptosi 32 : (⟨S32768, .f32⟩ : BufTy).Contents (Elt F) → (⟨S32768, .i32⟩ : BufTy).Contents (Elt F))
  :: StableHlo.nullary main_c_46 (constantI S_ 32 1#32)
  :: StableHlo.unary main_c_46 main_v127 (broadcastInDim S32768 ![] bcast_S_S32768 : (⟨S_, .i32⟩ : BufTy).Contents (Elt F) → (⟨S32768, .i32⟩ : BufTy).Contents (Elt F))
  :: StableHlo.binary main_v126 main_v127 main_v128 (addi : (⟨S32768, .i32⟩ : BufTy).Contents (Elt F) → (⟨S32768, .i32⟩ : BufTy).Contents (Elt F) → (⟨S32768, .i32⟩ : BufTy).Contents (Elt F))
  :: StableHlo.nullary main_c_47 (constantI S_ 32 30#32)
  :: StableHlo.unary main_c_47 main_v129 (broadcastInDim S32768 ![] bcast_S_S32768 : (⟨S_, .i32⟩ : BufTy).Contents (Elt F) → (⟨S32768, .i32⟩ : BufTy).Contents (Elt F))
  :: StableHlo.binary main_v128 main_v129 main_v130 (minsi : (⟨S32768, .i32⟩ : BufTy).Contents (Elt F) → (⟨S32768, .i32⟩ : BufTy).Contents (Elt F) → (⟨S32768, .i32⟩ : BufTy).Contents (Elt F))
  :: StableHlo.nullary main_c_48 (constantI S_ 32 0#32)
  :: StableHlo.unary main_c_48 main_v131 (broadcastInDim S32768 ![] bcast_S_S32768 : (⟨S_, .i32⟩ : BufTy).Contents (Elt F) → (⟨S32768, .i32⟩ : BufTy).Contents (Elt F))
  :: StableHlo.binary main_v126 main_v131 main_v132 (cmpi .slt : (⟨S32768, .i32⟩ : BufTy).Contents (Elt F) → (⟨S32768, .i32⟩ : BufTy).Contents (Elt F) → (⟨S32768, .i1⟩ : BufTy).Contents (Elt F))
  :: StableHlo.nullary main_c_49 (constantI S_ 32 31#32)
  :: StableHlo.unary main_c_49 main_v133 (broadcastInDim S32768 ![] bcast_S_S32768 : (⟨S_, .i32⟩ : BufTy).Contents (Elt F) → (⟨S32768, .i32⟩ : BufTy).Contents (Elt F))
  :: StableHlo.binary main_v126 main_v133 main_v134 (addi : (⟨S32768, .i32⟩ : BufTy).Contents (Elt F) → (⟨S32768, .i32⟩ : BufTy).Contents (Elt F) → (⟨S32768, .i32⟩ : BufTy).Contents (Elt F))
  :: StableHlo.ternary main_v132 main_v134 main_v126 main_v135 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v135 main_v136 (broadcastInDim S32768x1 ![0] bcast_S32768_S32768x1_0 : (⟨S32768, .i32⟩ : BufTy).Contents (Elt F) → (⟨S32768x1, .i32⟩ : BufTy).Contents (Elt F))
  :: StableHlo.binary main_cst main_v136 main_v137 ((fun x i => Host.gather gather_S31_S32768x1_S32768_n_0_n_n_0_1_1 x i) : (⟨S31, .f32⟩ : BufTy).Contents (Elt F) → (⟨S32768x1, .i32⟩ : BufTy).Contents (Elt F) → (⟨S32768, .f32⟩ : BufTy).Contents (Elt F))
  :: StableHlo.nullary main_cst_50 (constant S_ .f32 0x3F800000#32)
  :: StableHlo.unary main_cst_50 main_v138 (broadcastInDim S32768 ![] bcast_S_S32768 : (⟨S_, .f32⟩ : BufTy).Contents (Elt F) → (⟨S32768, .f32⟩ : BufTy).Contents (Elt F))
  :: StableHlo.binary main_v138 main_v125 main_v139 (subf : (⟨S32768, .f32⟩ : BufTy).Contents (Elt F) → (⟨S32768, .f32⟩ : BufTy).Contents (Elt F) → (⟨S32768, .f32⟩ : BufTy).Contents (Elt F))
  :: StableHlo.binary main_v137 main_v139 main_v140 (mulf : (⟨S32768, .f32⟩ : BufTy).Contents (Elt F) → (⟨S32768, .f32⟩ : BufTy).Contents (Elt F) → (⟨S32768, .f32⟩ : BufTy).Contents (Elt F))
  :: StableHlo.nullary main_c_51 (constantI S_ 32 0#32)
  :: StableHlo.unary main_c_51 main_v141 (broadcastInDim S32768 ![] bcast_S_S32768 : (⟨S_, .i32⟩ : BufTy).Contents (Elt F) → (⟨S32768, .i32⟩ : BufTy).Contents (Elt F))
  :: StableHlo.binary main_v130 main_v141 main_v142 (cmpi .slt : (⟨S32768, .i32⟩ : BufTy).Contents (Elt F) → (⟨S32768, .i32⟩ : BufTy).Contents (Elt F) → (⟨S32768, .i1⟩ : BufTy).Contents (Elt F))
  :: StableHlo.nullary main_c_52 (constantI S_ 32 31#32)
  :: StableHlo.unary main_c_52 main_v143 (broadcastInDim S32768 ![] bcast_S_S32768 : (⟨S_, .i32⟩ : BufTy).Contents (Elt F) → (⟨S32768, .i32⟩ : BufTy).Contents (Elt F))
  :: StableHlo.binary main_v130 main_v143 main_v144 (addi : (⟨S32768, .i32⟩ : BufTy).Contents (Elt F) → (⟨S32768, .i32⟩ : BufTy).Contents (Elt F) → (⟨S32768, .i32⟩ : BufTy).Contents (Elt F))
  :: StableHlo.ternary main_v142 main_v144 main_v130 main_v145 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v145 main_v146 (broadcastInDim S32768x1 ![0] bcast_S32768_S32768x1_0 : (⟨S32768, .i32⟩ : BufTy).Contents (Elt F) → (⟨S32768x1, .i32⟩ : BufTy).Contents (Elt F))
  :: StableHlo.binary main_cst main_v146 main_v147 ((fun x i => Host.gather gather_S31_S32768x1_S32768_n_0_n_n_0_1_1 x i) : (⟨S31, .f32⟩ : BufTy).Contents (Elt F) → (⟨S32768x1, .i32⟩ : BufTy).Contents (Elt F) → (⟨S32768, .f32⟩ : BufTy).Contents (Elt F))
  :: StableHlo.binary main_v147 main_v125 main_v148 (mulf : (⟨S32768, .f32⟩ : BufTy).Contents (Elt F) → (⟨S32768, .f32⟩ : BufTy).Contents (Elt F) → (⟨S32768, .f32⟩ : BufTy).Contents (Elt F))
  :: StableHlo.binary main_v140 main_v148 main_v149 (addf : (⟨S32768, .f32⟩ : BufTy).Contents (Elt F) → (⟨S32768, .f32⟩ : BufTy).Contents (Elt F) → (⟨S32768, .f32⟩ : BufTy).Contents (Elt F))
  :: StableHlo.unary main_v149 main_v150 (Host.exp : (⟨S32768, .f32⟩ : BufTy).Contents (Elt F) → (⟨S32768, .f32⟩ : BufTy).Contents (Elt F))
  :: [] )

/-- The product of the two weights with the per-row loss, summed over the rows and divided by their number (6 operations). -/
abbrev opsE : List (HloOp τ sig (Elt F)) :=
  ( StableHlo.binary main_v77 main_v150 main_v151 (mulf : (⟨S32768, .f32⟩ : BufTy).Contents (Elt F) → (⟨S32768, .f32⟩ : BufTy).Contents (Elt F) → (⟨S32768, .f32⟩ : BufTy).Contents (Elt F))
  :: StableHlo.binary main_v4 main_v151 main_v152 (mulf : (⟨S32768, .f32⟩ : BufTy).Contents (Elt F) → (⟨S32768, .f32⟩ : BufTy).Contents (Elt F) → (⟨S32768, .f32⟩ : BufTy).Contents (Elt F))
  :: StableHlo.nullary main_cst_53 (constant S_ .f32 0x00000000#32)
  :: StableHlo.binary main_v152 main_cst_53 main_v153 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F))
  :: StableHlo.nullary main_cst_54 (constant S_ .f32 0x47000000#32)
  :: StableHlo.binary main_v153 main_cst_54 main_v154 (Host.divf : (⟨S_, .f32⟩ : BufTy).Contents (Elt F) → (⟨S_, .f32⟩ : BufTy).Contents (Elt F) → (⟨S_, .f32⟩ : BufTy).Contents (Elt F))
  :: [] )

/-- The whole line: the six lists in order. -/
abbrev ops : List (HloOp τ sig (Elt F)) := opsL ++ (opsA ++ (opsB ++ (opsC ++ (opsD ++ opsE))))

set_option maxRecDepth 16384 in
/-- Every operation of the list reads and writes buffers of the core's own only. -/
theorem opsL_sub : (opsL : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub .., StableHlo.unary_bufs_sub ..⟩

set_option maxRecDepth 16384 in
/-- Every operation of the list reads and writes buffers of the core's own only. -/
theorem opsA_sub : (opsA : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

set_option maxRecDepth 16384 in
/-- Every operation of the list reads and writes buffers of the core's own only. -/
theorem opsB_sub : (opsB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub ..⟩

set_option maxRecDepth 16384 in
/-- Every operation of the list reads and writes buffers of the core's own only. -/
theorem opsC_sub : (opsC : List (HloOp τ sig (Elt F))).Forall fun op => op.bufs ⊆ StableHlo.tcRefs τ sig :=
  ⟨StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

set_option maxRecDepth 16384 in
/-- Every operation of the list reads and writes buffers of the core's own only. -/
theorem opsD_sub : (opsD : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub ..⟩

set_option maxRecDepth 16384 in
/-- Every operation of the list reads and writes buffers of the core's own only. -/
theorem opsE_sub : (opsE : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.nullary_bufs_sub .., StableHlo.binary_bufs_sub ..⟩

end Cert.ReferenceIdeal.Hand

end
-- ==== Proof.RefRun.lean ====
/- The lists win0 … win3 and wL … wE below, and the statements that only repeat over the six lists, are laid out by a script (bun scratch/gen_refrun.js, after bun scratch/gen_refops.js)
   from the printed operations of this directory's reference program into statements and proofs written by hand. The reference program is one straight line of operations, and running it
   leaves every buffer at the line's fold over what the buffers held at launch. -/
import proofs.«404843_j25503515804375_1_alg».proof.Proof.RefOps
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The entry function is the line

The entry function is printed as four consecutive blocks of statements. Each block, with every call replaced by the called function's own operations over that call's
buffers, is a sequence of single operations; listing them gives four lists whose concatenation is the six-list line. -/

/-- The first block's operations, calls opened (99 operations). -/
abbrev win0 : List (HloOp τ sig (Elt F)) :=
  ( StableHlo.nullary main_cst (fun i => FloatOps.ofBits .f32 (lit0 (S31.rowMajor i)))
  :: StableHlo.TRef.nullary (.of main_call0_cst : StableHlo.TRef sig ⟨S_, .f32⟩) (constant S_ .f32 0xFF800000#32)
  :: StableHlo.TRef.binary (.of main_arg0 : StableHlo.TRef sig ⟨S32768x1000, .f32⟩) (.of main_call0_cst : StableHlo.TRef sig ⟨S_, .f32⟩) (.of main_call0_v0 : StableHlo.TRef sig ⟨S32768, .f32⟩) (fun x v => Host.reduce FloatOps.maximumf x v reducesTo_S32768x1000_S32768_d1 h_S_)
  :: StableHlo.TRef.nullary (.of main_call0_cst_0 : StableHlo.TRef sig ⟨S_, .f32⟩) (constant S_ .f32 0xFF800000#32)
  :: StableHlo.TRef.unary (.of main_call0_cst_0 : StableHlo.TRef sig ⟨S_, .f32⟩) (.of main_call0_v1 : StableHlo.TRef sig ⟨S32768, .f32⟩) (broadcastInDim S32768 ![] bcast_S_S32768)
  :: StableHlo.TRef.binary (.of main_call0_v1 : StableHlo.TRef sig ⟨S32768, .f32⟩) (.of main_call0_v0 : StableHlo.TRef sig ⟨S32768, .f32⟩) (.of main_call0_v2 : StableHlo.TRef sig ⟨S32768, .f32⟩) maximumf
  :: StableHlo.TRef.unary (.of main_call0_v2 : StableHlo.TRef sig ⟨S32768, .f32⟩) (.of main_call0_v3 : StableHlo.TRef sig ⟨S32768x1, .f32⟩) (broadcastInDim S32768x1 ![0] bcast_S32768_S32768x1_0)
  :: StableHlo.TRef.unary (.of main_call0_v3 : StableHlo.TRef sig ⟨S32768x1, .f32⟩) (.of main_call0_v4 : StableHlo.TRef sig ⟨S32768x1000, .f32⟩) (broadcastInDim S32768x1000 ![0, 1] bcast_S32768x1_S32768x1000_0_1)
  :: StableHlo.TRef.binary (.of main_arg0 : StableHlo.TRef sig ⟨S32768x1000, .f32⟩) (.of main_call0_v4 : StableHlo.TRef sig ⟨S32768x1000, .f32⟩) (.of main_call0_v5 : StableHlo.TRef sig ⟨S32768x1000, .f32⟩) subf
  :: StableHlo.TRef.unary (.of main_call0_v5 : StableHlo.TRef sig ⟨S32768x1000, .f32⟩) (.of main_call0_v6 : StableHlo.TRef sig ⟨S32768x1000, .f32⟩) Host.exp
  :: StableHlo.TRef.nullary (.of main_call0_cst_1 : StableHlo.TRef sig ⟨S_, .f32⟩) (constant S_ .f32 0x00000000#32)
  :: StableHlo.TRef.binary (.of main_call0_v6 : StableHlo.TRef sig ⟨S32768x1000, .f32⟩) (.of main_call0_cst_1 : StableHlo.TRef sig ⟨S_, .f32⟩) (.of main_call0_v7 : StableHlo.TRef sig ⟨S32768, .f32⟩) (fun x v => Host.reduceAdd x v reducesTo_S32768x1000_S32768_d1 h_S_)
  :: StableHlo.TRef.unary (.of main_call0_v7 : StableHlo.TRef sig ⟨S32768, .f32⟩) (.of main_call0_v8 : StableHlo.TRef sig ⟨S32768x1, .f32⟩) (broadcastInDim S32768x1 ![0] bcast_S32768_S32768x1_0)
  :: StableHlo.TRef.unary (.of main_call0_v8 : StableHlo.TRef sig ⟨S32768x1, .f32⟩) (.of main_call0_v9 : StableHlo.TRef sig ⟨S32768x1, .f32⟩) Host.log
  :: StableHlo.TRef.unary (.of main_call0_v9 : StableHlo.TRef sig ⟨S32768x1, .f32⟩) (.of main_call0_v10 : StableHlo.TRef sig ⟨S32768x1000, .f32⟩) (broadcastInDim S32768x1000 ![0, 1] bcast_S32768x1_S32768x1000_0_1)
  :: StableHlo.TRef.binary (.of main_call0_v5 : StableHlo.TRef sig ⟨S32768x1000, .f32⟩) (.of main_call0_v10 : StableHlo.TRef sig ⟨S32768x1000, .f32⟩) (.of main_v0 : StableHlo.TRef sig ⟨S32768x1000, .f32⟩) subf
  :: StableHlo.unary main_arg3 main_v1 (broadcastInDim S32768x1 ![0] bcast_S32768_S32768x1_0 : (⟨S32768, .i32⟩ : BufTy).Contents (Elt F) → (⟨S32768x1, .i32⟩ : BufTy).Contents (Elt F))
  :: StableHlo.TRef.nullary (.of main_call1_c : StableHlo.TRef sig ⟨S_, .i32⟩) (constantI S_ 32 0#32)
  :: StableHlo.TRef.unary (.of main_call1_c : StableHlo.TRef sig ⟨S_, .i32⟩) (.of main_call1_v0 : StableHlo.TRef sig ⟨S32768x1, .i32⟩) (broadcastInDim S32768x1 ![] bcast_S_S32768x1)
  :: StableHlo.TRef.binary (.of main_v1 : StableHlo.TRef sig ⟨S32768x1, .i32⟩) (.of main_call1_v0 : StableHlo.TRef sig ⟨S32768x1, .i32⟩) (.of main_call1_v1 : StableHlo.TRef sig ⟨S32768x1, .i1⟩) (cmpi .slt)
  :: StableHlo.TRef.nullary (.of main_call1_c_0 : StableHlo.TRef sig ⟨S_, .i32⟩) (constantI S_ 32 1000#32)
  :: StableHlo.TRef.unary (.of main_call1_c_0 : StableHlo.TRef sig ⟨S_, .i32⟩) (.of main_call1_v2 : StableHlo.TRef sig ⟨S32768x1, .i32⟩) (broadcastInDim S32768x1 ![] bcast_S_S32768x1)
  :: StableHlo.TRef.binary (.of main_v1 : StableHlo.TRef sig ⟨S32768x1, .i32⟩) (.of main_call1_v2 : StableHlo.TRef sig ⟨S32768x1, .i32⟩) (.of main_call1_v3 : StableHlo.TRef sig ⟨S32768x1, .i32⟩) addi
  :: StableHlo.TRef.ternary (.of main_call1_v1 : StableHlo.TRef sig ⟨S32768x1, .i1⟩) (.of main_call1_v3 : StableHlo.TRef sig ⟨S32768x1, .i32⟩) (.of main_v1 : StableHlo.TRef sig ⟨S32768x1, .i32⟩) (.of main_call1_v4 : StableHlo.TRef sig ⟨S32768x1, .i32⟩) select
  :: StableHlo.TRef.reshape (.of main_call1_v4 : StableHlo.TRef sig ⟨S32768x1, .i32⟩) (.of main_call1_v5 : StableHlo.TRef sig ⟨S32768x1x1, .i32⟩) rfl shapeCasts_S32768x1_S32768x1x1
  :: StableHlo.TRef.nullary (.of main_call1_c_1 : StableHlo.TRef sig ⟨S1, .i32⟩) (constantI S1 32 999#32)
  :: StableHlo.TRef.nullary (.of main_call1_c_2 : StableHlo.TRef sig ⟨S_, .i32⟩) (constantI S_ 32 0#32)
  :: StableHlo.TRef.unary (.of main_call1_c_2 : StableHlo.TRef sig ⟨S_, .i32⟩) (.of main_call1_v6 : StableHlo.TRef sig ⟨S32768x1x1, .i32⟩) (broadcastInDim S32768x1x1 ![] bcast_S_S32768x1x1)
  :: StableHlo.TRef.binary (.of main_call1_v5 : StableHlo.TRef sig ⟨S32768x1x1, .i32⟩) (.of main_call1_v6 : StableHlo.TRef sig ⟨S32768x1x1, .i32⟩) (.of main_call1_v7 : StableHlo.TRef sig ⟨S32768x1x1, .i1⟩) (cmpi .sge)
  :: StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2)
  :: StableHlo.TRef.unary (.of main_call1_v8 : StableHlo.TRef sig ⟨S1x1x1, .i32⟩) (.of main_call1_v9 : StableHlo.TRef sig ⟨S32768x1x1, .i32⟩) (broadcastInDim S32768x1x1 ![0, 1, 2] bcast_S1x1x1_S32768x1x1_0_1_2)
  :: StableHlo.TRef.binary (.of main_call1_v5 : StableHlo.TRef sig ⟨S32768x1x1, .i32⟩) (.of main_call1_v9 : StableHlo.TRef sig ⟨S32768x1x1, .i32⟩) (.of main_call1_v10 : StableHlo.TRef sig ⟨S32768x1x1, .i1⟩) (cmpi .sle)
  :: StableHlo.TRef.binary (.of main_call1_v7 : StableHlo.TRef sig ⟨S32768x1x1, .i1⟩) (.of main_call1_v10 : StableHlo.TRef sig ⟨S32768x1x1, .i1⟩) (.of main_call1_v11 : StableHlo.TRef sig ⟨S32768x1x1, .i1⟩) andi
  :: StableHlo.TRef.nullary (.of main_call1_c_3 : StableHlo.TRef sig ⟨S_, .i1⟩) (constantI S_ 1 1#1)
  :: StableHlo.TRef.binary (.of main_call1_v11 : StableHlo.TRef sig ⟨S32768x1x1, .i1⟩) (.of main_call1_c_3 : StableHlo.TRef sig ⟨S_, .i1⟩) (.of main_call1_v12 : StableHlo.TRef sig ⟨S32768x1, .i1⟩) (fun x v => Host.reduce IntOp.andi x v reducesTo_S32768x1x1_S32768x1_d2 h_S_)
  :: StableHlo.TRef.binary (.of main_v0 : StableHlo.TRef sig ⟨S32768x1000, .f32⟩) (.of main_call1_v5 : StableHlo.TRef sig ⟨S32768x1x1, .i32⟩) (.of main_call1_v13 : StableHlo.TRef sig ⟨S32768x1, .f32⟩) (fun x i => Host.gather gather_S32768x1000_S32768x1x1_S32768x1_n_1_0_0_1_2_11 x i)
  :: StableHlo.TRef.nullary (.of main_call1_cst : StableHlo.TRef sig ⟨S_, .f32⟩) (constant S_ .f32 0x7FC00000#32)
  :: StableHlo.TRef.unary (.of main_call1_cst : StableHlo.TRef sig ⟨S_, .f32⟩) (.of main_call1_v14 : StableHlo.TRef sig ⟨S32768x1, .f32⟩) (broadcastInDim S32768x1 ![] bcast_S_S32768x1)
  :: StableHlo.TRef.ternary (.of main_call1_v12 : StableHlo.TRef sig ⟨S32768x1, .i1⟩) (.of main_call1_v13 : StableHlo.TRef sig ⟨S32768x1, .f32⟩) (.of main_call1_v14 : StableHlo.TRef sig ⟨S32768x1, .f32⟩) (.of main_v2 : StableHlo.TRef sig ⟨S32768x1, .f32⟩) select
  :: StableHlo.reshape main_v2 main_v3 rfl shapeCasts_S32768x1_S32768
  :: StableHlo.unary main_v3 main_v4 (Host.negf : (⟨S32768, .f32⟩ : BufTy).Contents (Elt F) → (⟨S32768, .f32⟩ : BufTy).Contents (Elt F))
  :: StableHlo.nullary main_cst_0 (constant S_ .f32 0x00000000#32)
  :: StableHlo.unary main_cst_0 main_v5 (broadcastInDim S1000000 ![] bcast_S_S1000000 : (⟨S_, .f32⟩ : BufTy).Contents (Elt F) → (⟨S1000000, .f32⟩ : BufTy).Contents (Elt F))
  :: StableHlo.unary main_arg4 main_v6 (broadcastInDim S32768x1 ![0] bcast_S32768_S32768x1_0 : (⟨S32768, .i32⟩ : BufTy).Contents (Elt F) → (⟨S32768x1, .i32⟩ : BufTy).Contents (Elt F))
  :: StableHlo.ternary main_v5 main_v6 main_v4 main_v7 ((fun x i u => Host.scatterAdd scatter_S1000000_S32768x1_S32768_n_0_0_1 x i u) : (⟨S1000000, .f32⟩ : BufTy).Contents (Elt F) → (⟨S32768x1, .i32⟩ : BufTy).Contents (Elt F) → (⟨S32768, .f32⟩ : BufTy).Contents (Elt F) → (⟨S1000000, .f32⟩ : BufTy).Contents (Elt F))
  :: StableHlo.nullary main_cst_1 (constant S_ .f32 0x3F800000#32)
  :: StableHlo.unary main_cst_1 main_v8 (broadcastInDim S32768 ![] bcast_S_S32768 : (⟨S_, .f32⟩ : BufTy).Contents (Elt F) → (⟨S32768, .f32⟩ : BufTy).Contents (Elt F))
  :: StableHlo.nullary main_cst_2 (constant S_ .f32 0x00000000#32)
  :: StableHlo.unary main_cst_2 main_v9 (broadcastInDim S1000000 ![] bcast_S_S1000000 : (⟨S_, .f32⟩ : BufTy).Contents (Elt F) → (⟨S1000000, .f32⟩ : BufTy).Contents (Elt F))
  :: StableHlo.unary main_arg4 main_v10 (broadcastInDim S32768x1 ![0] bcast_S32768_S32768x1_0 : (⟨S32768, .i32⟩ : BufTy).Contents (Elt F) → (⟨S32768x1, .i32⟩ : BufTy).Contents (Elt F))
  :: StableHlo.ternary main_v9 main_v10 main_v8 main_v11 ((fun x i u => Host.scatterAdd scatter_S1000000_S32768x1_S32768_n_0_0_1 x i u) : (⟨S1000000, .f32⟩ : BufTy).Contents (Elt F) → (⟨S32768x1, .i32⟩ : BufTy).Contents (Elt F) → (⟨S32768, .f32⟩ : BufTy).Contents (Elt F) → (⟨S1000000, .f32⟩ : BufTy).Contents (Elt F))
  :: StableHlo.nullary main_cst_3 (constant S_ .f32 0x00000000#32)
  :: StableHlo.unary main_cst_3 main_v12 (broadcastInDim S1000000 ![] bcast_S_S1000000 : (⟨S_, .f32⟩ : BufTy).Contents (Elt F) → (⟨S1000000, .f32⟩ : BufTy).Contents (Elt F))
  :: StableHlo.binary main_v11 main_v12 main_v13 (cmpf .ogt : (⟨S1000000, .f32⟩ : BufTy).Contents (Elt F) → (⟨S1000000, .f32⟩ : BufTy).Contents (Elt F) → (⟨S1000000, .i1⟩ : BufTy).Contents (Elt F))
  :: StableHlo.nullary main_cst_4 (constant S_ .f32 0x3F800000#32)
  :: StableHlo.unary main_cst_4 main_v14 (broadcastInDim S1000000 ![] bcast_S_S1000000 : (⟨S_, .f32⟩ : BufTy).Contents (Elt F) → (⟨S1000000, .f32⟩ : BufTy).Contents (Elt F))
  :: StableHlo.binary main_v11 main_v14 main_v15 (maximumf : (⟨S1000000, .f32⟩ : BufTy).Contents (Elt F) → (⟨S1000000, .f32⟩ : BufTy).Contents (Elt F) → (⟨S1000000, .f32⟩ : BufTy).Contents (Elt F))
  :: StableHlo.binary main_v7 main_v15 main_v16 (Host.divf : (⟨S1000000, .f32⟩ : BufTy).Contents (Elt F) → (⟨S1000000, .f32⟩ : BufTy).Contents (Elt F) → (⟨S1000000, .f32⟩ : BufTy).Contents (Elt F))
  :: StableHlo.nullary main_cst_5 (constant S_ .f32 0x00000000#32)
  :: StableHlo.TRef.unary (.of main_cst_5 : StableHlo.TRef sig ⟨S_, .f32⟩) (.of main_call2_v0 : StableHlo.TRef sig ⟨S_, .f32⟩) id
  :: StableHlo.TRef.unary (.of main_call2_v0 : StableHlo.TRef sig ⟨S_, .f32⟩) (.of main_call2_v1 : StableHlo.TRef sig ⟨S1000000, .f32⟩) (broadcastInDim S1000000 ![] bcast_S_S1000000)
  :: StableHlo.TRef.ternary (.of main_v13 : StableHlo.TRef sig ⟨S1000000, .i1⟩) (.of main_v16 : StableHlo.TRef sig ⟨S1000000, .f32⟩) (.of main_call2_v1 : StableHlo.TRef sig ⟨S1000000, .f32⟩) (.of main_v17 : StableHlo.TRef sig ⟨S1000000, .f32⟩) select
  :: StableHlo.nullary main_cst_6 (constant S_ .f32 0x3F666666#32)
  :: StableHlo.unary main_cst_6 main_v18 (broadcastInDim S1000000 ![] bcast_S_S1000000 : (⟨S_, .f32⟩ : BufTy).Contents (Elt F) → (⟨S1000000, .f32⟩ : BufTy).Contents (Elt F))
  :: StableHlo.binary main_v18 main_v11 main_v19 (Host.powf : (⟨S1000000, .f32⟩ : BufTy).Contents (Elt F) → (⟨S1000000, .f32⟩ : BufTy).Contents (Elt F) → (⟨S1000000, .f32⟩ : BufTy).Contents (Elt F))
  :: StableHlo.binary main_v19 main_arg1 main_v20 (mulf : (⟨S1000000, .f32⟩ : BufTy).Contents (Elt F) → (⟨S1000000, .f32⟩ : BufTy).Contents (Elt F) → (⟨S1000000, .f32⟩ : BufTy).Contents (Elt F))
  :: StableHlo.nullary main_cst_7 (constant S_ .f32 0x3F800000#32)
  :: StableHlo.unary main_cst_7 main_v21 (broadcastInDim S1000000 ![] bcast_S_S1000000 : (⟨S_, .f32⟩ : BufTy).Contents (Elt F) → (⟨S1000000, .f32⟩ : BufTy).Contents (Elt F))
  :: StableHlo.binary main_v21 main_v19 main_v22 (subf : (⟨S1000000, .f32⟩ : BufTy).Contents (Elt F) → (⟨S1000000, .f32⟩ : BufTy).Contents (Elt F) → (⟨S1000000, .f32⟩ : BufTy).Contents (Elt F))
  :: StableHlo.binary main_v22 main_v17 main_v23 (mulf : (⟨S1000000, .f32⟩ : BufTy).Contents (Elt F) → (⟨S1000000, .f32⟩ : BufTy).Contents (Elt F) → (⟨S1000000, .f32⟩ : BufTy).Contents (Elt F))
  :: StableHlo.binary main_v20 main_v23 main_v24 (addf : (⟨S1000000, .f32⟩ : BufTy).Contents (Elt F) → (⟨S1000000, .f32⟩ : BufTy).Contents (Elt F) → (⟨S1000000, .f32⟩ : BufTy).Contents (Elt F))
  :: StableHlo.TRef.ternary (.of main_v13 : StableHlo.TRef sig ⟨S1000000, .i1⟩) (.of main_v24 : StableHlo.TRef sig ⟨S1000000, .f32⟩) (.of main_arg1 : StableHlo.TRef sig ⟨S1000000, .f32⟩) (.of main_v25 : StableHlo.TRef sig ⟨S1000000, .f32⟩) select
  :: StableHlo.nullary main_c (constantI S_ 32 0#32)
  :: StableHlo.unary main_c main_v26 (broadcastInDim S32768 ![] bcast_S_S32768 : (⟨S_, .i32⟩ : BufTy).Contents (Elt F) → (⟨S32768, .i32⟩ : BufTy).Contents (Elt F))
  :: StableHlo.binary main_arg4 main_v26 main_v27 (cmpi .slt : (⟨S32768, .i32⟩ : BufTy).Contents (Elt F) → (⟨S32768, .i32⟩ : BufTy).Contents (Elt F) → (⟨S32768, .i1⟩ : BufTy).Contents (Elt F))
  :: StableHlo.nullary main_c_8 (constantI S_ 32 1000000#32)
  :: StableHlo.unary main_c_8 main_v28 (broadcastInDim S32768 ![] bcast_S_S32768 : (⟨S_, .i32⟩ : BufTy).Contents (Elt F) → (⟨S32768, .i32⟩ : BufTy).Contents (Elt F))
  :: StableHlo.binary main_arg4 main_v28 main_v29 (addi : (⟨S32768, .i32⟩ : BufTy).Contents (Elt F) → (⟨S32768, .i32⟩ : BufTy).Contents (Elt F) → (⟨S32768, .i32⟩ : BufTy).Contents (Elt F))
  :: StableHlo.ternary main_v27 main_v29 main_arg4 main_v30 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v30 main_v31 (broadcastInDim S32768x1 ![0] bcast_S32768_S32768x1_0 : (⟨S32768, .i32⟩ : BufTy).Contents (Elt F) → (⟨S32768x1, .i32⟩ : BufTy).Contents (Elt F))
  :: StableHlo.binary main_v25 main_v31 main_v32 ((fun x i => Host.gather gather_S1000000_S32768x1_S32768_n_0_n_n_0_1_1 x i) : (⟨S1000000, .f32⟩ : BufTy).Contents (Elt F) → (⟨S32768x1, .i32⟩ : BufTy).Contents (Elt F) → (⟨S32768, .f32⟩ : BufTy).Contents (Elt F))
  :: StableHlo.nullary main_cst_9 (constant S_ .f32 0x3F800000#32)
  :: StableHlo.unary main_cst_9 main_v33 (broadcastInDim S32768 ![] bcast_S_S32768 : (⟨S_, .f32⟩ : BufTy).Contents (Elt F) → (⟨S32768, .f32⟩ : BufTy).Contents (Elt F))
  :: StableHlo.binary main_v32 main_v33 main_v34 (Host.divf : (⟨S32768, .f32⟩ : BufTy).Contents (Elt F) → (⟨S32768, .f32⟩ : BufTy).Contents (Elt F) → (⟨S32768, .f32⟩ : BufTy).Contents (Elt F))
  :: StableHlo.nullary main_cst_10 (constant S_ .f32 0x3F4010C7#32)
  :: StableHlo.unary main_cst_10 main_v35 (broadcastInDim S32768 ![] bcast_S_S32768 : (⟨S_, .f32⟩ : BufTy).Contents (Elt F) → (⟨S32768, .f32⟩ : BufTy).Contents (Elt F))
  :: StableHlo.binary main_v34 main_v35 main_v36 (addf : (⟨S32768, .f32⟩ : BufTy).Contents (Elt F) → (⟨S32768, .f32⟩ : BufTy).Contents (Elt F) → (⟨S32768, .f32⟩ : BufTy).Contents (Elt F))
  :: StableHlo.unary main_v36 main_v37 (Host.log : (⟨S32768, .f32⟩ : BufTy).Contents (Elt F) → (⟨S32768, .f32⟩ : BufTy).Contents (Elt F))
  :: StableHlo.nullary main_cst_11 (constant S_ .f32 0x3FAB2250#32)
  :: StableHlo.unary main_cst_11 main_v38 (broadcastInDim S32768 ![] bcast_S_S32768 : (⟨S_, .f32⟩ : BufTy).Contents (Elt F) → (⟨S32768, .f32⟩ : BufTy).Contents (Elt F))
  :: StableHlo.binary main_v37 main_v38 main_v39 (subf : (⟨S32768, .f32⟩ : BufTy).Contents (Elt F) → (⟨S32768, .f32⟩ : BufTy).Contents (Elt F) → (⟨S32768, .f32⟩ : BufTy).Contents (Elt F))
  :: StableHlo.nullary main_cst_12 (constant S_ .f32 0x40B243C1#32)
  :: StableHlo.unary main_cst_12 main_v40 (broadcastInDim S32768 ![] bcast_S_S32768 : (⟨S_, .f32⟩ : BufTy).Contents (Elt F) → (⟨S32768, .f32⟩ : BufTy).Contents (Elt F))
  :: StableHlo.binary main_v39 main_v40 main_v41 (Host.divf : (⟨S32768, .f32⟩ : BufTy).Contents (Elt F) → (⟨S32768, .f32⟩ : BufTy).Contents (Elt F) → (⟨S32768, .f32⟩ : BufTy).Contents (Elt F))
  :: StableHlo.binary main_v41 main_v41 main_v42 (cmpf .une : (⟨S32768, .f32⟩ : BufTy).Contents (Elt F) → (⟨S32768, .f32⟩ : BufTy).Contents (Elt F) → (⟨S32768, .i1⟩ : BufTy).Contents (Elt F))
  :: StableHlo.nullary main_cst_13 (constant S_ .f32 0xBF800000#32)
  :: StableHlo.TRef.unary (.of main_cst_13 : StableHlo.TRef sig ⟨S_, .f32⟩) (.of main_call4_v0 : StableHlo.TRef sig ⟨S_, .f32⟩) id
  :: StableHlo.TRef.unary (.of main_call4_v0 : StableHlo.TRef sig ⟨S_, .f32⟩) (.of main_call4_v1 : StableHlo.TRef sig ⟨S32768, .f32⟩) (broadcastInDim S32768 ![] bcast_S_S32768)
  :: StableHlo.TRef.ternary (.of main_v42 : StableHlo.TRef sig ⟨S32768, .i1⟩) (.of main_call4_v1 : StableHlo.TRef sig ⟨S32768, .f32⟩) (.of main_v41 : StableHlo.TRef sig ⟨S32768, .f32⟩) (.of main_v43 : StableHlo.TRef sig ⟨S32768, .f32⟩) select
  :: [] )

/-- The second block's operations, calls opened (65 operations). -/
abbrev win1 : List (HloOp τ sig (Elt F)) :=
  ( StableHlo.nullary main_cst_14 (constant S_ .f32 0x3F800000#32)
  :: StableHlo.unary main_cst_14 main_v44 (broadcastInDim S32768 ![] bcast_S_S32768 : (⟨S_, .f32⟩ : BufTy).Contents (Elt F) → (⟨S32768, .f32⟩ : BufTy).Contents (Elt F))
  :: StableHlo.binary main_v43 main_v44 main_v45 (addf : (⟨S32768, .f32⟩ : BufTy).Contents (Elt F) → (⟨S32768, .f32⟩ : BufTy).Contents (Elt F) → (⟨S32768, .f32⟩ : BufTy).Contents (Elt F))
  :: StableHlo.nullary main_cst_15 (constant S_ .f32 0x3F000000#32)
  :: StableHlo.unary main_cst_15 main_v46 (broadcastInDim S32768 ![] bcast_S_S32768 : (⟨S_, .f32⟩ : BufTy).Contents (Elt F) → (⟨S32768, .f32⟩ : BufTy).Contents (Elt F))
  :: StableHlo.binary main_v45 main_v46 main_v47 (mulf : (⟨S32768, .f32⟩ : BufTy).Contents (Elt F) → (⟨S32768, .f32⟩ : BufTy).Contents (Elt F) → (⟨S32768, .f32⟩ : BufTy).Contents (Elt F))
  :: StableHlo.nullary main_cst_16 (constant S_ .f32 0x41F00000#32)
  :: StableHlo.unary main_cst_16 main_v48 (broadcastInDim S32768 ![] bcast_S_S32768 : (⟨S_, .f32⟩ : BufTy).Contents (Elt F) → (⟨S32768, .f32⟩ : BufTy).Contents (Elt F))
  :: StableHlo.binary main_v47 main_v48 main_v49 (mulf : (⟨S32768, .f32⟩ : BufTy).Contents (Elt F) → (⟨S32768, .f32⟩ : BufTy).Contents (Elt F) → (⟨S32768, .f32⟩ : BufTy).Contents (Elt F))
  :: StableHlo.nullary main_cst_17 (constant S_ .f32 0x00000000#32)
  :: StableHlo.nullary main_c_18 (constantI S_ 32 30#32)
  :: StableHlo.TRef.unary (.of main_cst_17 : StableHlo.TRef sig ⟨S_, .f32⟩) (.of main_call5_v0 : StableHlo.TRef sig ⟨S_, .f32⟩) id
  :: StableHlo.TRef.unary (.of main_call5_v0 : StableHlo.TRef sig ⟨S_, .f32⟩) (.of main_call5_v1 : StableHlo.TRef sig ⟨S32768, .f32⟩) (broadcastInDim S32768 ![] bcast_S_S32768)
  :: StableHlo.TRef.binary (.of main_call5_v1 : StableHlo.TRef sig ⟨S32768, .f32⟩) (.of main_v49 : StableHlo.TRef sig ⟨S32768, .f32⟩) (.of main_call5_v2 : StableHlo.TRef sig ⟨S32768, .f32⟩) maximumf
  :: StableHlo.TRef.unary (.of main_c_18 : StableHlo.TRef sig ⟨S_, .i32⟩) (.of main_call5_v3 : StableHlo.TRef sig ⟨S_, .f32⟩) (sitofp .f32)
  :: StableHlo.TRef.unary (.of main_call5_v3 : StableHlo.TRef sig ⟨S_, .f32⟩) (.of main_call5_v4 : StableHlo.TRef sig ⟨S32768, .f32⟩) (broadcastInDim S32768 ![] bcast_S_S32768)
  :: StableHlo.TRef.binary (.of main_call5_v4 : StableHlo.TRef sig ⟨S32768, .f32⟩) (.of main_call5_v2 : StableHlo.TRef sig ⟨S32768, .f32⟩) (.of main_v50 : StableHlo.TRef sig ⟨S32768, .f32⟩) minimumf
  :: StableHlo.unary main_v50 main_v51 (Host.floor : (⟨S32768, .f32⟩ : BufTy).Contents (Elt F) → (⟨S32768, .f32⟩ : BufTy).Contents (Elt F))
  :: StableHlo.binary main_v50 main_v51 main_v52 (subf : (⟨S32768, .f32⟩ : BufTy).Contents (Elt F) → (⟨S32768, .f32⟩ : BufTy).Contents (Elt F) → (⟨S32768, .f32⟩ : BufTy).Contents (Elt F))
  :: StableHlo.unary main_v51 main_v53 (fptosi 32 : (⟨S32768, .f32⟩ : BufTy).Contents (Elt F) → (⟨S32768, .i32⟩ : BufTy).Contents (Elt F))
  :: StableHlo.nullary main_c_19 (constantI S_ 32 1#32)
  :: StableHlo.unary main_c_19 main_v54 (broadcastInDim S32768 ![] bcast_S_S32768 : (⟨S_, .i32⟩ : BufTy).Contents (Elt F) → (⟨S32768, .i32⟩ : BufTy).Contents (Elt F))
  :: StableHlo.binary main_v53 main_v54 main_v55 (addi : (⟨S32768, .i32⟩ : BufTy).Contents (Elt F) → (⟨S32768, .i32⟩ : BufTy).Contents (Elt F) → (⟨S32768, .i32⟩ : BufTy).Contents (Elt F))
  :: StableHlo.nullary main_c_20 (constantI S_ 32 30#32)
  :: StableHlo.unary main_c_20 main_v56 (broadcastInDim S32768 ![] bcast_S_S32768 : (⟨S_, .i32⟩ : BufTy).Contents (Elt F) → (⟨S32768, .i32⟩ : BufTy).Contents (Elt F))
  :: StableHlo.binary main_v55 main_v56 main_v57 (minsi : (⟨S32768, .i32⟩ : BufTy).Contents (Elt F) → (⟨S32768, .i32⟩ : BufTy).Contents (Elt F) → (⟨S32768, .i32⟩ : BufTy).Contents (Elt F))
  :: StableHlo.nullary main_c_21 (constantI S_ 32 0#32)
  :: StableHlo.unary main_c_21 main_v58 (broadcastInDim S32768 ![] bcast_S_S32768 : (⟨S_, .i32⟩ : BufTy).Contents (Elt F) → (⟨S32768, .i32⟩ : BufTy).Contents (Elt F))
  :: StableHlo.binary main_v53 main_v58 main_v59 (cmpi .slt : (⟨S32768, .i32⟩ : BufTy).Contents (Elt F) → (⟨S32768, .i32⟩ : BufTy).Contents (Elt F) → (⟨S32768, .i1⟩ : BufTy).Contents (Elt F))
  :: StableHlo.nullary main_c_22 (constantI S_ 32 31#32)
  :: StableHlo.unary main_c_22 main_v60 (broadcastInDim S32768 ![] bcast_S_S32768 : (⟨S_, .i32⟩ : BufTy).Contents (Elt F) → (⟨S32768, .i32⟩ : BufTy).Contents (Elt F))
  :: StableHlo.binary main_v53 main_v60 main_v61 (addi : (⟨S32768, .i32⟩ : BufTy).Contents (Elt F) → (⟨S32768, .i32⟩ : BufTy).Contents (Elt F) → (⟨S32768, .i32⟩ : BufTy).Contents (Elt F))
  :: StableHlo.ternary main_v59 main_v61 main_v53 main_v62 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v62 main_v63 (broadcastInDim S32768x1 ![0] bcast_S32768_S32768x1_0 : (⟨S32768, .i32⟩ : BufTy).Contents (Elt F) → (⟨S32768x1, .i32⟩ : BufTy).Contents (Elt F))
  :: StableHlo.binary main_cst main_v63 main_v64 ((fun x i => Host.gather gather_S31_S32768x1_S32768_n_0_n_n_0_1_1 x i) : (⟨S31, .f32⟩ : BufTy).Contents (Elt F) → (⟨S32768x1, .i32⟩ : BufTy).Contents (Elt F) → (⟨S32768, .f32⟩ : BufTy).Contents (Elt F))
  :: StableHlo.nullary main_cst_23 (constant S_ .f32 0x3F800000#32)
  :: StableHlo.unary main_cst_23 main_v65 (broadcastInDim S32768 ![] bcast_S_S32768 : (⟨S_, .f32⟩ : BufTy).Contents (Elt F) → (⟨S32768, .f32⟩ : BufTy).Contents (Elt F))
  :: StableHlo.binary main_v65 main_v52 main_v66 (subf : (⟨S32768, .f32⟩ : BufTy).Contents (Elt F) → (⟨S32768, .f32⟩ : BufTy).Contents (Elt F) → (⟨S32768, .f32⟩ : BufTy).Contents (Elt F))
  :: StableHlo.binary main_v64 main_v66 main_v67 (mulf : (⟨S32768, .f32⟩ : BufTy).Contents (Elt F) → (⟨S32768, .f32⟩ : BufTy).Contents (Elt F) → (⟨S32768, .f32⟩ : BufTy).Contents (Elt F))
  :: StableHlo.nullary main_c_24 (constantI S_ 32 0#32)
  :: StableHlo.unary main_c_24 main_v68 (broadcastInDim S32768 ![] bcast_S_S32768 : (⟨S_, .i32⟩ : BufTy).Contents (Elt F) → (⟨S32768, .i32⟩ : BufTy).Contents (Elt F))
  :: StableHlo.binary main_v57 main_v68 main_v69 (cmpi .slt : (⟨S32768, .i32⟩ : BufTy).Contents (Elt F) → (⟨S32768, .i32⟩ : BufTy).Contents (Elt F) → (⟨S32768, .i1⟩ : BufTy).Contents (Elt F))
  :: StableHlo.nullary main_c_25 (constantI S_ 32 31#32)
  :: StableHlo.unary main_c_25 main_v70 (broadcastInDim S32768 ![] bcast_S_S32768 : (⟨S_, .i32⟩ : BufTy).Contents (Elt F) → (⟨S32768, .i32⟩ : BufTy).Contents (Elt F))
  :: StableHlo.binary main_v57 main_v70 main_v71 (addi : (⟨S32768, .i32⟩ : BufTy).Contents (Elt F) → (⟨S32768, .i32⟩ : BufTy).Contents (Elt F) → (⟨S32768, .i32⟩ : BufTy).Contents (Elt F))
  :: StableHlo.ternary main_v69 main_v71 main_v57 main_v72 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v72 main_v73 (broadcastInDim S32768x1 ![0] bcast_S32768_S32768x1_0 : (⟨S32768, .i32⟩ : BufTy).Contents (Elt F) → (⟨S32768x1, .i32⟩ : BufTy).Contents (Elt F))
  :: StableHlo.binary main_cst main_v73 main_v74 ((fun x i => Host.gather gather_S31_S32768x1_S32768_n_0_n_n_0_1_1 x i) : (⟨S31, .f32⟩ : BufTy).Contents (Elt F) → (⟨S32768x1, .i32⟩ : BufTy).Contents (Elt F) → (⟨S32768, .f32⟩ : BufTy).Contents (Elt F))
  :: StableHlo.binary main_v74 main_v52 main_v75 (mulf : (⟨S32768, .f32⟩ : BufTy).Contents (Elt F) → (⟨S32768, .f32⟩ : BufTy).Contents (Elt F) → (⟨S32768, .f32⟩ : BufTy).Contents (Elt F))
  :: StableHlo.binary main_v67 main_v75 main_v76 (addf : (⟨S32768, .f32⟩ : BufTy).Contents (Elt F) → (⟨S32768, .f32⟩ : BufTy).Contents (Elt F) → (⟨S32768, .f32⟩ : BufTy).Contents (Elt F))
  :: StableHlo.unary main_v76 main_v77 (Host.exp : (⟨S32768, .f32⟩ : BufTy).Contents (Elt F) → (⟨S32768, .f32⟩ : BufTy).Contents (Elt F))
  :: StableHlo.nullary main_cst_26 (constant S_ .f32 0x00000000#32)
  :: StableHlo.unary main_cst_26 main_v78 (broadcastInDim S1000 ![] bcast_S_S1000 : (⟨S_, .f32⟩ : BufTy).Contents (Elt F) → (⟨S1000, .f32⟩ : BufTy).Contents (Elt F))
  :: StableHlo.unary main_arg3 main_v79 (broadcastInDim S32768x1 ![0] bcast_S32768_S32768x1_0 : (⟨S32768, .i32⟩ : BufTy).Contents (Elt F) → (⟨S32768x1, .i32⟩ : BufTy).Contents (Elt F))
  :: StableHlo.ternary main_v78 main_v79 main_v4 main_v80 ((fun x i u => Host.scatterAdd scatter_S1000_S32768x1_S32768_n_0_0_1 x i u) : (⟨S1000, .f32⟩ : BufTy).Contents (Elt F) → (⟨S32768x1, .i32⟩ : BufTy).Contents (Elt F) → (⟨S32768, .f32⟩ : BufTy).Contents (Elt F) → (⟨S1000, .f32⟩ : BufTy).Contents (Elt F))
  :: StableHlo.nullary main_cst_27 (constant S_ .f32 0x3F800000#32)
  :: StableHlo.unary main_cst_27 main_v81 (broadcastInDim S32768 ![] bcast_S_S32768 : (⟨S_, .f32⟩ : BufTy).Contents (Elt F) → (⟨S32768, .f32⟩ : BufTy).Contents (Elt F))
  :: StableHlo.nullary main_cst_28 (constant S_ .f32 0x00000000#32)
  :: StableHlo.unary main_cst_28 main_v82 (broadcastInDim S1000 ![] bcast_S_S1000 : (⟨S_, .f32⟩ : BufTy).Contents (Elt F) → (⟨S1000, .f32⟩ : BufTy).Contents (Elt F))
  :: StableHlo.unary main_arg3 main_v83 (broadcastInDim S32768x1 ![0] bcast_S32768_S32768x1_0 : (⟨S32768, .i32⟩ : BufTy).Contents (Elt F) → (⟨S32768x1, .i32⟩ : BufTy).Contents (Elt F))
  :: StableHlo.ternary main_v82 main_v83 main_v81 main_v84 ((fun x i u => Host.scatterAdd scatter_S1000_S32768x1_S32768_n_0_0_1 x i u) : (⟨S1000, .f32⟩ : BufTy).Contents (Elt F) → (⟨S32768x1, .i32⟩ : BufTy).Contents (Elt F) → (⟨S32768, .f32⟩ : BufTy).Contents (Elt F) → (⟨S1000, .f32⟩ : BufTy).Contents (Elt F))
  :: StableHlo.nullary main_cst_29 (constant S_ .f32 0x00000000#32)
  :: StableHlo.unary main_cst_29 main_v85 (broadcastInDim S1000 ![] bcast_S_S1000 : (⟨S_, .f32⟩ : BufTy).Contents (Elt F) → (⟨S1000, .f32⟩ : BufTy).Contents (Elt F))
  :: StableHlo.binary main_v84 main_v85 main_v86 (cmpf .ogt : (⟨S1000, .f32⟩ : BufTy).Contents (Elt F) → (⟨S1000, .f32⟩ : BufTy).Contents (Elt F) → (⟨S1000, .i1⟩ : BufTy).Contents (Elt F))
  :: StableHlo.nullary main_cst_30 (constant S_ .f32 0x3F800000#32)
  :: [] )

/-- The third block's operations, calls opened (69 operations). -/
abbrev win2 : List (HloOp τ sig (Elt F)) :=
  ( StableHlo.unary main_cst_30 main_v87 (broadcastInDim S1000 ![] bcast_S_S1000 : (⟨S_, .f32⟩ : BufTy).Contents (Elt F) → (⟨S1000, .f32⟩ : BufTy).Contents (Elt F))
  :: StableHlo.binary main_v84 main_v87 main_v88 (maximumf : (⟨S1000, .f32⟩ : BufTy).Contents (Elt F) → (⟨S1000, .f32⟩ : BufTy).Contents (Elt F) → (⟨S1000, .f32⟩ : BufTy).Contents (Elt F))
  :: StableHlo.binary main_v80 main_v88 main_v89 (Host.divf : (⟨S1000, .f32⟩ : BufTy).Contents (Elt F) → (⟨S1000, .f32⟩ : BufTy).Contents (Elt F) → (⟨S1000, .f32⟩ : BufTy).Contents (Elt F))
  :: StableHlo.nullary main_cst_31 (constant S_ .f32 0x00000000#32)
  :: StableHlo.TRef.unary (.of main_cst_31 : StableHlo.TRef sig ⟨S_, .f32⟩) (.of main_call6_v0 : StableHlo.TRef sig ⟨S_, .f32⟩) id
  :: StableHlo.TRef.unary (.of main_call6_v0 : StableHlo.TRef sig ⟨S_, .f32⟩) (.of main_call6_v1 : StableHlo.TRef sig ⟨S1000, .f32⟩) (broadcastInDim S1000 ![] bcast_S_S1000)
  :: StableHlo.TRef.ternary (.of main_v86 : StableHlo.TRef sig ⟨S1000, .i1⟩) (.of main_v89 : StableHlo.TRef sig ⟨S1000, .f32⟩) (.of main_call6_v1 : StableHlo.TRef sig ⟨S1000, .f32⟩) (.of main_v90 : StableHlo.TRef sig ⟨S1000, .f32⟩) select
  :: StableHlo.nullary main_cst_32 (constant S_ .f32 0x3F666666#32)
  :: StableHlo.unary main_cst_32 main_v91 (broadcastInDim S1000 ![] bcast_S_S1000 : (⟨S_, .f32⟩ : BufTy).Contents (Elt F) → (⟨S1000, .f32⟩ : BufTy).Contents (Elt F))
  :: StableHlo.binary main_v91 main_v84 main_v92 (Host.powf : (⟨S1000, .f32⟩ : BufTy).Contents (Elt F) → (⟨S1000, .f32⟩ : BufTy).Contents (Elt F) → (⟨S1000, .f32⟩ : BufTy).Contents (Elt F))
  :: StableHlo.binary main_v92 main_arg2 main_v93 (mulf : (⟨S1000, .f32⟩ : BufTy).Contents (Elt F) → (⟨S1000, .f32⟩ : BufTy).Contents (Elt F) → (⟨S1000, .f32⟩ : BufTy).Contents (Elt F))
  :: StableHlo.nullary main_cst_33 (constant S_ .f32 0x3F800000#32)
  :: StableHlo.unary main_cst_33 main_v94 (broadcastInDim S1000 ![] bcast_S_S1000 : (⟨S_, .f32⟩ : BufTy).Contents (Elt F) → (⟨S1000, .f32⟩ : BufTy).Contents (Elt F))
  :: StableHlo.binary main_v94 main_v92 main_v95 (subf : (⟨S1000, .f32⟩ : BufTy).Contents (Elt F) → (⟨S1000, .f32⟩ : BufTy).Contents (Elt F) → (⟨S1000, .f32⟩ : BufTy).Contents (Elt F))
  :: StableHlo.binary main_v95 main_v90 main_v96 (mulf : (⟨S1000, .f32⟩ : BufTy).Contents (Elt F) → (⟨S1000, .f32⟩ : BufTy).Contents (Elt F) → (⟨S1000, .f32⟩ : BufTy).Contents (Elt F))
  :: StableHlo.binary main_v93 main_v96 main_v97 (addf : (⟨S1000, .f32⟩ : BufTy).Contents (Elt F) → (⟨S1000, .f32⟩ : BufTy).Contents (Elt F) → (⟨S1000, .f32⟩ : BufTy).Contents (Elt F))
  :: StableHlo.TRef.ternary (.of main_v86 : StableHlo.TRef sig ⟨S1000, .i1⟩) (.of main_v97 : StableHlo.TRef sig ⟨S1000, .f32⟩) (.of main_arg2 : StableHlo.TRef sig ⟨S1000, .f32⟩) (.of main_v98 : StableHlo.TRef sig ⟨S1000, .f32⟩) select
  :: StableHlo.nullary main_c_34 (constantI S_ 32 0#32)
  :: StableHlo.unary main_c_34 main_v99 (broadcastInDim S32768 ![] bcast_S_S32768 : (⟨S_, .i32⟩ : BufTy).Contents (Elt F) → (⟨S32768, .i32⟩ : BufTy).Contents (Elt F))
  :: StableHlo.binary main_arg3 main_v99 main_v100 (cmpi .slt : (⟨S32768, .i32⟩ : BufTy).Contents (Elt F) → (⟨S32768, .i32⟩ : BufTy).Contents (Elt F) → (⟨S32768, .i1⟩ : BufTy).Contents (Elt F))
  :: StableHlo.nullary main_c_35 (constantI S_ 32 1000#32)
  :: StableHlo.unary main_c_35 main_v101 (broadcastInDim S32768 ![] bcast_S_S32768 : (⟨S_, .i32⟩ : BufTy).Contents (Elt F) → (⟨S32768, .i32⟩ : BufTy).Contents (Elt F))
  :: StableHlo.binary main_arg3 main_v101 main_v102 (addi : (⟨S32768, .i32⟩ : BufTy).Contents (Elt F) → (⟨S32768, .i32⟩ : BufTy).Contents (Elt F) → (⟨S32768, .i32⟩ : BufTy).Contents (Elt F))
  :: StableHlo.ternary main_v100 main_v102 main_arg3 main_v103 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v103 main_v104 (broadcastInDim S32768x1 ![0] bcast_S32768_S32768x1_0 : (⟨S32768, .i32⟩ : BufTy).Contents (Elt F) → (⟨S32768x1, .i32⟩ : BufTy).Contents (Elt F))
  :: StableHlo.binary main_v98 main_v104 main_v105 ((fun x i => Host.gather gather_S1000_S32768x1_S32768_n_0_n_n_0_1_1 x i) : (⟨S1000, .f32⟩ : BufTy).Contents (Elt F) → (⟨S32768x1, .i32⟩ : BufTy).Contents (Elt F) → (⟨S32768, .f32⟩ : BufTy).Contents (Elt F))
  :: StableHlo.nullary main_cst_36 (constant S_ .f32 0x3F800000#32)
  :: StableHlo.unary main_cst_36 main_v106 (broadcastInDim S32768 ![] bcast_S_S32768 : (⟨S_, .f32⟩ : BufTy).Contents (Elt F) → (⟨S32768, .f32⟩ : BufTy).Contents (Elt F))
  :: StableHlo.binary main_v105 main_v106 main_v107 (Host.divf : (⟨S32768, .f32⟩ : BufTy).Contents (Elt F) → (⟨S32768, .f32⟩ : BufTy).Contents (Elt F) → (⟨S32768, .f32⟩ : BufTy).Contents (Elt F))
  :: StableHlo.nullary main_cst_37 (constant S_ .f32 0x3F4010C7#32)
  :: StableHlo.unary main_cst_37 main_v108 (broadcastInDim S32768 ![] bcast_S_S32768 : (⟨S_, .f32⟩ : BufTy).Contents (Elt F) → (⟨S32768, .f32⟩ : BufTy).Contents (Elt F))
  :: StableHlo.binary main_v107 main_v108 main_v109 (addf : (⟨S32768, .f32⟩ : BufTy).Contents (Elt F) → (⟨S32768, .f32⟩ : BufTy).Contents (Elt F) → (⟨S32768, .f32⟩ : BufTy).Contents (Elt F))
  :: StableHlo.unary main_v109 main_v110 (Host.log : (⟨S32768, .f32⟩ : BufTy).Contents (Elt F) → (⟨S32768, .f32⟩ : BufTy).Contents (Elt F))
  :: StableHlo.nullary main_cst_38 (constant S_ .f32 0x3FAB2250#32)
  :: StableHlo.unary main_cst_38 main_v111 (broadcastInDim S32768 ![] bcast_S_S32768 : (⟨S_, .f32⟩ : BufTy).Contents (Elt F) → (⟨S32768, .f32⟩ : BufTy).Contents (Elt F))
  :: StableHlo.binary main_v110 main_v111 main_v112 (subf : (⟨S32768, .f32⟩ : BufTy).Contents (Elt F) → (⟨S32768, .f32⟩ : BufTy).Contents (Elt F) → (⟨S32768, .f32⟩ : BufTy).Contents (Elt F))
  :: StableHlo.nullary main_cst_39 (constant S_ .f32 0x40B243C1#32)
  :: StableHlo.unary main_cst_39 main_v113 (broadcastInDim S32768 ![] bcast_S_S32768 : (⟨S_, .f32⟩ : BufTy).Contents (Elt F) → (⟨S32768, .f32⟩ : BufTy).Contents (Elt F))
  :: StableHlo.binary main_v112 main_v113 main_v114 (Host.divf : (⟨S32768, .f32⟩ : BufTy).Contents (Elt F) → (⟨S32768, .f32⟩ : BufTy).Contents (Elt F) → (⟨S32768, .f32⟩ : BufTy).Contents (Elt F))
  :: StableHlo.binary main_v114 main_v114 main_v115 (cmpf .une : (⟨S32768, .f32⟩ : BufTy).Contents (Elt F) → (⟨S32768, .f32⟩ : BufTy).Contents (Elt F) → (⟨S32768, .i1⟩ : BufTy).Contents (Elt F))
  :: StableHlo.nullary main_cst_40 (constant S_ .f32 0xBF800000#32)
  :: StableHlo.TRef.unary (.of main_cst_40 : StableHlo.TRef sig ⟨S_, .f32⟩) (.of main_call8_v0 : StableHlo.TRef sig ⟨S_, .f32⟩) id
  :: StableHlo.TRef.unary (.of main_call8_v0 : StableHlo.TRef sig ⟨S_, .f32⟩) (.of main_call8_v1 : StableHlo.TRef sig ⟨S32768, .f32⟩) (broadcastInDim S32768 ![] bcast_S_S32768)
  :: StableHlo.TRef.ternary (.of main_v115 : StableHlo.TRef sig ⟨S32768, .i1⟩) (.of main_call8_v1 : StableHlo.TRef sig ⟨S32768, .f32⟩) (.of main_v114 : StableHlo.TRef sig ⟨S32768, .f32⟩) (.of main_v116 : StableHlo.TRef sig ⟨S32768, .f32⟩) select
  :: StableHlo.nullary main_cst_41 (constant S_ .f32 0x3F800000#32)
  :: StableHlo.unary main_cst_41 main_v117 (broadcastInDim S32768 ![] bcast_S_S32768 : (⟨S_, .f32⟩ : BufTy).Contents (Elt F) → (⟨S32768, .f32⟩ : BufTy).Contents (Elt F))
  :: StableHlo.binary main_v116 main_v117 main_v118 (addf : (⟨S32768, .f32⟩ : BufTy).Contents (Elt F) → (⟨S32768, .f32⟩ : BufTy).Contents (Elt F) → (⟨S32768, .f32⟩ : BufTy).Contents (Elt F))
  :: StableHlo.nullary main_cst_42 (constant S_ .f32 0x3F000000#32)
  :: StableHlo.unary main_cst_42 main_v119 (broadcastInDim S32768 ![] bcast_S_S32768 : (⟨S_, .f32⟩ : BufTy).Contents (Elt F) → (⟨S32768, .f32⟩ : BufTy).Contents (Elt F))
  :: StableHlo.binary main_v118 main_v119 main_v120 (mulf : (⟨S32768, .f32⟩ : BufTy).Contents (Elt F) → (⟨S32768, .f32⟩ : BufTy).Contents (Elt F) → (⟨S32768, .f32⟩ : BufTy).Contents (Elt F))
  :: StableHlo.nullary main_cst_43 (constant S_ .f32 0x41F00000#32)
  :: StableHlo.unary main_cst_43 main_v121 (broadcastInDim S32768 ![] bcast_S_S32768 : (⟨S_, .f32⟩ : BufTy).Contents (Elt F) → (⟨S32768, .f32⟩ : BufTy).Contents (Elt F))
  :: StableHlo.binary main_v120 main_v121 main_v122 (mulf : (⟨S32768, .f32⟩ : BufTy).Contents (Elt F) → (⟨S32768, .f32⟩ : BufTy).Contents (Elt F) → (⟨S32768, .f32⟩ : BufTy).Contents (Elt F))
  :: StableHlo.nullary main_cst_44 (constant S_ .f32 0x00000000#32)
  :: StableHlo.nullary main_c_45 (constantI S_ 32 30#32)
  :: StableHlo.TRef.unary (.of main_cst_44 : StableHlo.TRef sig ⟨S_, .f32⟩) (.of main_call9_v0 : StableHlo.TRef sig ⟨S_, .f32⟩) id
  :: StableHlo.TRef.unary (.of main_call9_v0 : StableHlo.TRef sig ⟨S_, .f32⟩) (.of main_call9_v1 : StableHlo.TRef sig ⟨S32768, .f32⟩) (broadcastInDim S32768 ![] bcast_S_S32768)
  :: StableHlo.TRef.binary (.of main_call9_v1 : StableHlo.TRef sig ⟨S32768, .f32⟩) (.of main_v122 : StableHlo.TRef sig ⟨S32768, .f32⟩) (.of main_call9_v2 : StableHlo.TRef sig ⟨S32768, .f32⟩) maximumf
  :: StableHlo.TRef.unary (.of main_c_45 : StableHlo.TRef sig ⟨S_, .i32⟩) (.of main_call9_v3 : StableHlo.TRef sig ⟨S_, .f32⟩) (sitofp .f32)
  :: StableHlo.TRef.unary (.of main_call9_v3 : StableHlo.TRef sig ⟨S_, .f32⟩) (.of main_call9_v4 : StableHlo.TRef sig ⟨S32768, .f32⟩) (broadcastInDim S32768 ![] bcast_S_S32768)
  :: StableHlo.TRef.binary (.of main_call9_v4 : StableHlo.TRef sig ⟨S32768, .f32⟩) (.of main_call9_v2 : StableHlo.TRef sig ⟨S32768, .f32⟩) (.of main_v123 : StableHlo.TRef sig ⟨S32768, .f32⟩) minimumf
  :: StableHlo.unary main_v123 main_v124 (Host.floor : (⟨S32768, .f32⟩ : BufTy).Contents (Elt F) → (⟨S32768, .f32⟩ : BufTy).Contents (Elt F))
  :: StableHlo.binary main_v123 main_v124 main_v125 (subf : (⟨S32768, .f32⟩ : BufTy).Contents (Elt F) → (⟨S32768, .f32⟩ : BufTy).Contents (Elt F) → (⟨S32768, .f32⟩ : BufTy).Contents (Elt F))
  :: StableHlo.unary main_v124 main_v126 (fptosi 32 : (⟨S32768, .f32⟩ : BufTy).Contents (Elt F) → (⟨S32768, .i32⟩ : BufTy).Contents (Elt F))
  :: StableHlo.nullary main_c_46 (constantI S_ 32 1#32)
  :: StableHlo.unary main_c_46 main_v127 (broadcastInDim S32768 ![] bcast_S_S32768 : (⟨S_, .i32⟩ : BufTy).Contents (Elt F) → (⟨S32768, .i32⟩ : BufTy).Contents (Elt F))
  :: StableHlo.binary main_v126 main_v127 main_v128 (addi : (⟨S32768, .i32⟩ : BufTy).Contents (Elt F) → (⟨S32768, .i32⟩ : BufTy).Contents (Elt F) → (⟨S32768, .i32⟩ : BufTy).Contents (Elt F))
  :: StableHlo.nullary main_c_47 (constantI S_ 32 30#32)
  :: StableHlo.unary main_c_47 main_v129 (broadcastInDim S32768 ![] bcast_S_S32768 : (⟨S_, .i32⟩ : BufTy).Contents (Elt F) → (⟨S32768, .i32⟩ : BufTy).Contents (Elt F))
  :: [] )

/-- The fourth block's operations, calls opened (32 operations). -/
abbrev win3 : List (HloOp τ sig (Elt F)) :=
  ( StableHlo.binary main_v128 main_v129 main_v130 (minsi : (⟨S32768, .i32⟩ : BufTy).Contents (Elt F) → (⟨S32768, .i32⟩ : BufTy).Contents (Elt F) → (⟨S32768, .i32⟩ : BufTy).Contents (Elt F))
  :: StableHlo.nullary main_c_48 (constantI S_ 32 0#32)
  :: StableHlo.unary main_c_48 main_v131 (broadcastInDim S32768 ![] bcast_S_S32768 : (⟨S_, .i32⟩ : BufTy).Contents (Elt F) → (⟨S32768, .i32⟩ : BufTy).Contents (Elt F))
  :: StableHlo.binary main_v126 main_v131 main_v132 (cmpi .slt : (⟨S32768, .i32⟩ : BufTy).Contents (Elt F) → (⟨S32768, .i32⟩ : BufTy).Contents (Elt F) → (⟨S32768, .i1⟩ : BufTy).Contents (Elt F))
  :: StableHlo.nullary main_c_49 (constantI S_ 32 31#32)
  :: StableHlo.unary main_c_49 main_v133 (broadcastInDim S32768 ![] bcast_S_S32768 : (⟨S_, .i32⟩ : BufTy).Contents (Elt F) → (⟨S32768, .i32⟩ : BufTy).Contents (Elt F))
  :: StableHlo.binary main_v126 main_v133 main_v134 (addi : (⟨S32768, .i32⟩ : BufTy).Contents (Elt F) → (⟨S32768, .i32⟩ : BufTy).Contents (Elt F) → (⟨S32768, .i32⟩ : BufTy).Contents (Elt F))
  :: StableHlo.ternary main_v132 main_v134 main_v126 main_v135 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v135 main_v136 (broadcastInDim S32768x1 ![0] bcast_S32768_S32768x1_0 : (⟨S32768, .i32⟩ : BufTy).Contents (Elt F) → (⟨S32768x1, .i32⟩ : BufTy).Contents (Elt F))
  :: StableHlo.binary main_cst main_v136 main_v137 ((fun x i => Host.gather gather_S31_S32768x1_S32768_n_0_n_n_0_1_1 x i) : (⟨S31, .f32⟩ : BufTy).Contents (Elt F) → (⟨S32768x1, .i32⟩ : BufTy).Contents (Elt F) → (⟨S32768, .f32⟩ : BufTy).Contents (Elt F))
  :: StableHlo.nullary main_cst_50 (constant S_ .f32 0x3F800000#32)
  :: StableHlo.unary main_cst_50 main_v138 (broadcastInDim S32768 ![] bcast_S_S32768 : (⟨S_, .f32⟩ : BufTy).Contents (Elt F) → (⟨S32768, .f32⟩ : BufTy).Contents (Elt F))
  :: StableHlo.binary main_v138 main_v125 main_v139 (subf : (⟨S32768, .f32⟩ : BufTy).Contents (Elt F) → (⟨S32768, .f32⟩ : BufTy).Contents (Elt F) → (⟨S32768, .f32⟩ : BufTy).Contents (Elt F))
  :: StableHlo.binary main_v137 main_v139 main_v140 (mulf : (⟨S32768, .f32⟩ : BufTy).Contents (Elt F) → (⟨S32768, .f32⟩ : BufTy).Contents (Elt F) → (⟨S32768, .f32⟩ : BufTy).Contents (Elt F))
  :: StableHlo.nullary main_c_51 (constantI S_ 32 0#32)
  :: StableHlo.unary main_c_51 main_v141 (broadcastInDim S32768 ![] bcast_S_S32768 : (⟨S_, .i32⟩ : BufTy).Contents (Elt F) → (⟨S32768, .i32⟩ : BufTy).Contents (Elt F))
  :: StableHlo.binary main_v130 main_v141 main_v142 (cmpi .slt : (⟨S32768, .i32⟩ : BufTy).Contents (Elt F) → (⟨S32768, .i32⟩ : BufTy).Contents (Elt F) → (⟨S32768, .i1⟩ : BufTy).Contents (Elt F))
  :: StableHlo.nullary main_c_52 (constantI S_ 32 31#32)
  :: StableHlo.unary main_c_52 main_v143 (broadcastInDim S32768 ![] bcast_S_S32768 : (⟨S_, .i32⟩ : BufTy).Contents (Elt F) → (⟨S32768, .i32⟩ : BufTy).Contents (Elt F))
  :: StableHlo.binary main_v130 main_v143 main_v144 (addi : (⟨S32768, .i32⟩ : BufTy).Contents (Elt F) → (⟨S32768, .i32⟩ : BufTy).Contents (Elt F) → (⟨S32768, .i32⟩ : BufTy).Contents (Elt F))
  :: StableHlo.ternary main_v142 main_v144 main_v130 main_v145 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v145 main_v146 (broadcastInDim S32768x1 ![0] bcast_S32768_S32768x1_0 : (⟨S32768, .i32⟩ : BufTy).Contents (Elt F) → (⟨S32768x1, .i32⟩ : BufTy).Contents (Elt F))
  :: StableHlo.binary main_cst main_v146 main_v147 ((fun x i => Host.gather gather_S31_S32768x1_S32768_n_0_n_n_0_1_1 x i) : (⟨S31, .f32⟩ : BufTy).Contents (Elt F) → (⟨S32768x1, .i32⟩ : BufTy).Contents (Elt F) → (⟨S32768, .f32⟩ : BufTy).Contents (Elt F))
  :: StableHlo.binary main_v147 main_v125 main_v148 (mulf : (⟨S32768, .f32⟩ : BufTy).Contents (Elt F) → (⟨S32768, .f32⟩ : BufTy).Contents (Elt F) → (⟨S32768, .f32⟩ : BufTy).Contents (Elt F))
  :: StableHlo.binary main_v140 main_v148 main_v149 (addf : (⟨S32768, .f32⟩ : BufTy).Contents (Elt F) → (⟨S32768, .f32⟩ : BufTy).Contents (Elt F) → (⟨S32768, .f32⟩ : BufTy).Contents (Elt F))
  :: StableHlo.unary main_v149 main_v150 (Host.exp : (⟨S32768, .f32⟩ : BufTy).Contents (Elt F) → (⟨S32768, .f32⟩ : BufTy).Contents (Elt F))
  :: StableHlo.binary main_v77 main_v150 main_v151 (mulf : (⟨S32768, .f32⟩ : BufTy).Contents (Elt F) → (⟨S32768, .f32⟩ : BufTy).Contents (Elt F) → (⟨S32768, .f32⟩ : BufTy).Contents (Elt F))
  :: StableHlo.binary main_v4 main_v151 main_v152 (mulf : (⟨S32768, .f32⟩ : BufTy).Contents (Elt F) → (⟨S32768, .f32⟩ : BufTy).Contents (Elt F) → (⟨S32768, .f32⟩ : BufTy).Contents (Elt F))
  :: StableHlo.nullary main_cst_53 (constant S_ .f32 0x00000000#32)
  :: StableHlo.binary main_v152 main_cst_53 main_v153 ((fun x v => Host.reduceAdd x v reducesTo_S32768_S_d0 h_S_) : (⟨S32768, .f32⟩ : BufTy).Contents (Elt F) → (⟨S_, .f32⟩ : BufTy).Contents (Elt F) → (⟨S_, .f32⟩ : BufTy).Contents (Elt F))
  :: StableHlo.nullary main_cst_54 (constant S_ .f32 0x47000000#32)
  :: StableHlo.binary main_v153 main_cst_54 main_v154 (Host.divf : (⟨S_, .f32⟩ : BufTy).Contents (Elt F) → (⟨S_, .f32⟩ : BufTy).Contents (Elt F) → (⟨S_, .f32⟩ : BufTy).Contents (Elt F))
  :: [] )

/-- The four blocks' lists, joined, are the six lists, joined: the same operations in the same order, only cut at other places. -/
theorem wins_eq : (ops : List (HloOp τ sig (Elt F))) = win0 ++ (win1 ++ (win2 ++ win3)) := rfl

set_option maxRecDepth 16384 in
/-- The first block is its list's sequence: with the called functions' bodies opened at their calls and sequencing reassociated, both sides are the same chain of single steps. -/
theorem part0_eq (c : Dev nD) : main_part0 (F := F) c = StableHlo.seq win0 := by
  simp only [main_part0, fn_log_softmax.body, fn_take_along_axis.body, fn_where.body, fn_where_0.body, fn_where_1.body, StableHlo.seq, bind_assoc, pure_bind]

set_option maxRecDepth 16384 in
/-- The second block is its list's sequence: with the called functions' bodies opened at their calls and sequencing reassociated, both sides are the same chain of single steps. -/
theorem part1_eq (c : Dev nD) : main_part1 (F := F) c = StableHlo.seq win1 := by
  simp only [main_part1, fn_clip.body, StableHlo.seq, bind_assoc, pure_bind]
  rfl

set_option maxRecDepth 16384 in
/-- The third block is its list's sequence: with the called functions' bodies opened at their calls and sequencing reassociated, both sides are the same chain of single steps. -/
theorem part2_eq (c : Dev nD) : main_part2 (F := F) c = StableHlo.seq win2 := by
  simp only [main_part2, fn_where_2.body, fn_where_3.body, fn_where_1.body, fn_clip.body, StableHlo.seq, bind_assoc, pure_bind]
  rfl

set_option maxRecDepth 16384 in
/-- The fourth block is its list's sequence: with the called functions' bodies opened at their calls and sequencing reassociated, both sides are the same chain of single steps. -/
theorem part3_eq (c : Dev nD) : main_part3 (F := F) c = StableHlo.seq win3 := by
  simp only [main_part3, StableHlo.seq, bind_assoc, pure_bind]

/-- The entry function runs its four blocks in order, a sequence of two lists is the sequence of their concatenation, and each block is its list's sequence. -/
theorem main_eq (c : Dev nD) : main (F := F) c = StableHlo.seq ops := by
  rw [wins_eq, StableHlo.seq_append, StableHlo.seq_append, StableHlo.seq_append, ← part0_eq c, ← part1_eq c, ← part2_eq c, ← part3_eq c]
  rfl

/-! ## The side conditions of the run -/

set_option maxRecDepth 8192 in
/-- No buffer of the core is scoped to a region: every one is live for the whole program. -/
theorem scopedRefs_eq : (Finset.univ.filter fun b : Ref sig .tc => b.isScoped) = ∅ := by decide
/-- Nor is any semaphore. -/
theorem scopedSems_eq : (Finset.univ.filter fun sm : SemLoc sig => sm.isScoped .tc) = ∅ := by decide

/-- Every operation of the line touches the core's own buffers only: a property of each of the six lists, hence of their concatenation. -/
theorem ops_sub : (ops : List (HloOp τ sig (Elt F))).Forall fun op => op.bufs ⊆ StableHlo.tcRefs τ sig :=
  List.forall_append.2 ⟨opsL_sub, List.forall_append.2 ⟨opsA_sub, List.forall_append.2 ⟨opsB_sub, List.forall_append.2 ⟨opsC_sub, List.forall_append.2 ⟨opsD_sub, opsE_sub⟩⟩⟩⟩⟩

set_option maxRecDepth 16384 in
theorem opsL_fresh : (opsL : List (HloOp τ sig (Elt F))).Forall fun op => op.fresh = ∅ := by
  simp only [List.Forall]; repeat' constructor
set_option maxRecDepth 16384 in
theorem opsA_fresh : (opsA : List (HloOp τ sig (Elt F))).Forall fun op => op.fresh = ∅ := by
  simp only [List.Forall]; repeat' constructor
set_option maxRecDepth 16384 in
theorem opsB_fresh : (opsB : List (HloOp τ sig (Elt F))).Forall fun op => op.fresh = ∅ := by
  simp only [List.Forall]; repeat' constructor
set_option maxRecDepth 16384 in
theorem opsC_fresh : (opsC : List (HloOp τ sig (Elt F))).Forall fun op => op.fresh = ∅ := by
  simp only [List.Forall]; repeat' constructor
set_option maxRecDepth 16384 in
theorem opsD_fresh : (opsD : List (HloOp τ sig (Elt F))).Forall fun op => op.fresh = ∅ := by
  simp only [List.Forall]; repeat' constructor
set_option maxRecDepth 16384 in
theorem opsE_fresh : (opsE : List (HloOp τ sig (Elt F))).Forall fun op => op.fresh = ∅ := by
  simp only [List.Forall]; repeat' constructor
/-- Every operation of the line determines what it writes: none leaves a buffer's contents open. -/
theorem ops_fresh : (ops : List (HloOp τ sig (Elt F))).Forall fun op => op.fresh = ∅ :=
  List.forall_append.2 ⟨opsL_fresh, List.forall_append.2 ⟨opsA_fresh, List.forall_append.2 ⟨opsB_fresh, List.forall_append.2 ⟨opsC_fresh, List.forall_append.2 ⟨opsD_fresh, opsE_fresh⟩⟩⟩⟩⟩

/-! ## The run -/

/-- From any memory with all counters zero, every fair execution of the entry function on the cores terminates, and at the end each buffer of each core holds
    the line's fold, at that buffer, over what the core's buffers held at launch. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ
    (fun _ => List.forall_iff_forall_mem.1 ops_fresh)

/-! ## What the line leaves alone

Each operation writes exactly one buffer, its result's. Listing the results of a list's operations, a buffer outside that list of results holds after the list what it held before. -/

/-- The results of the operations of opsL, in order. -/
abbrev wL : List (Ref sig .tc) :=
  [main_cst, main_call0_cst, main_call0_v0, main_call0_cst_0, main_call0_v1, main_call0_v2, main_call0_v3, main_call0_v4, main_call0_v5, main_call0_v6, main_call0_cst_1, main_call0_v7, main_call0_v8, main_call0_v9, main_call0_v10, main_v0, main_v1, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v2, main_v3, main_v4]
set_option maxRecDepth 16384 in
/-- Each operation of opsL writes its result only, and that is in the list. -/
theorem opsL_writes : (opsL : List (HloOp τ sig (Elt F))).Forall fun op => op.writes ⊆ ((wL).map (Proc.devRef (τ := τ) .tc)).toFinset := by
  simp only [List.Forall, StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)
/-- A buffer outside wL holds after opsL what it held before. -/
theorem after_opsL_of_not_mem (V : Valuation τ sig (Elt F)) {r : Ref sig .tc} (hr : r ∉ wL) :
    StableHlo.after opsL V (Proc.devRef .tc r) = V (Proc.devRef .tc r) :=
  StableHlo.after_of_writes_sub opsL V opsL_writes hr

/-- The results of the operations of opsA, in order. -/
abbrev wA : List (Ref sig .tc) :=
  [main_cst_0, main_v5, main_v6, main_v7, main_cst_1, main_v8, main_cst_2, main_v9, main_v10, main_v11, main_cst_3, main_v12, main_v13, main_cst_4, main_v14, main_v15, main_v16, main_cst_5, main_call2_v0, main_call2_v1, main_v17, main_cst_6, main_v18, main_v19, main_v20, main_cst_7, main_v21, main_v22, main_v23, main_v24, main_v25, main_c, main_v26, main_v27, main_c_8, main_v28, main_v29, main_v30, main_v31, main_v32]
set_option maxRecDepth 16384 in
/-- Each operation of opsA writes its result only, and that is in the list. -/
theorem opsA_writes : (opsA : List (HloOp τ sig (Elt F))).Forall fun op => op.writes ⊆ ((wA).map (Proc.devRef (τ := τ) .tc)).toFinset := by
  simp only [List.Forall, StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)
/-- A buffer outside wA holds after opsA what it held before. -/
theorem after_opsA_of_not_mem (V : Valuation τ sig (Elt F)) {r : Ref sig .tc} (hr : r ∉ wA) :
    StableHlo.after opsA V (Proc.devRef .tc r) = V (Proc.devRef .tc r) :=
  StableHlo.after_of_writes_sub opsA V opsA_writes hr

/-- The results of the operations of opsB, in order. -/
abbrev wB : List (Ref sig .tc) :=
  [main_cst_9, main_v33, main_v34, main_cst_10, main_v35, main_v36, main_v37, main_cst_11, main_v38, main_v39, main_cst_12, main_v40, main_v41, main_v42, main_cst_13, main_call4_v0, main_call4_v1, main_v43, main_cst_14, main_v44, main_v45, main_cst_15, main_v46, main_v47, main_cst_16, main_v48, main_v49, main_cst_17, main_c_18, main_call5_v0, main_call5_v1, main_call5_v2, main_call5_v3, main_call5_v4, main_v50, main_v51, main_v52, main_v53, main_c_19, main_v54, main_v55, main_c_20, main_v56, main_v57, main_c_21, main_v58, main_v59, main_c_22, main_v60, main_v61, main_v62, main_v63, main_v64, main_cst_23, main_v65, main_v66, main_v67, main_c_24, main_v68, main_v69, main_c_25, main_v70, main_v71, main_v72, main_v73, main_v74, main_v75, main_v76, main_v77]
set_option maxRecDepth 16384 in
/-- Each operation of opsB writes its result only, and that is in the list. -/
theorem opsB_writes : (opsB : List (HloOp τ sig (Elt F))).Forall fun op => op.writes ⊆ ((wB).map (Proc.devRef (τ := τ) .tc)).toFinset := by
  simp only [List.Forall, StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)
/-- A buffer outside wB holds after opsB what it held before. -/
theorem after_opsB_of_not_mem (V : Valuation τ sig (Elt F)) {r : Ref sig .tc} (hr : r ∉ wB) :
    StableHlo.after opsB V (Proc.devRef .tc r) = V (Proc.devRef .tc r) :=
  StableHlo.after_of_writes_sub opsB V opsB_writes hr

/-- The results of the operations of opsC, in order. -/
abbrev wC : List (Ref sig .tc) :=
  [main_cst_26, main_v78, main_v79, main_v80, main_cst_27, main_v81, main_cst_28, main_v82, main_v83, main_v84, main_cst_29, main_v85, main_v86, main_cst_30, main_v87, main_v88, main_v89, main_cst_31, main_call6_v0, main_call6_v1, main_v90, main_cst_32, main_v91, main_v92, main_v93, main_cst_33, main_v94, main_v95, main_v96, main_v97, main_v98, main_c_34, main_v99, main_v100, main_c_35, main_v101, main_v102, main_v103, main_v104, main_v105]
set_option maxRecDepth 16384 in
/-- Each operation of opsC writes its result only, and that is in the list. -/
theorem opsC_writes : (opsC : List (HloOp τ sig (Elt F))).Forall fun op => op.writes ⊆ ((wC).map (Proc.devRef (τ := τ) .tc)).toFinset := by
  simp only [List.Forall, StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)
/-- A buffer outside wC holds after opsC what it held before. -/
theorem after_opsC_of_not_mem (V : Valuation τ sig (Elt F)) {r : Ref sig .tc} (hr : r ∉ wC) :
    StableHlo.after opsC V (Proc.devRef .tc r) = V (Proc.devRef .tc r) :=
  StableHlo.after_of_writes_sub opsC V opsC_writes hr

/-- The results of the operations of opsD, in order. -/
abbrev wD : List (Ref sig .tc) :=
  [main_cst_36, main_v106, main_v107, main_cst_37, main_v108, main_v109, main_v110, main_cst_38, main_v111, main_v112, main_cst_39, main_v113, main_v114, main_v115, main_cst_40, main_call8_v0, main_call8_v1, main_v116, main_cst_41, main_v117, main_v118, main_cst_42, main_v119, main_v120, main_cst_43, main_v121, main_v122, main_cst_44, main_c_45, main_call9_v0, main_call9_v1, main_call9_v2, main_call9_v3, main_call9_v4, main_v123, main_v124, main_v125, main_v126, main_c_46, main_v127, main_v128, main_c_47, main_v129, main_v130, main_c_48, main_v131, main_v132, main_c_49, main_v133, main_v134, main_v135, main_v136, main_v137, main_cst_50, main_v138, main_v139, main_v140, main_c_51, main_v141, main_v142, main_c_52, main_v143, main_v144, main_v145, main_v146, main_v147, main_v148, main_v149, main_v150]
set_option maxRecDepth 16384 in
/-- Each operation of opsD writes its result only, and that is in the list. -/
theorem opsD_writes : (opsD : List (HloOp τ sig (Elt F))).Forall fun op => op.writes ⊆ ((wD).map (Proc.devRef (τ := τ) .tc)).toFinset := by
  simp only [List.Forall, StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)
/-- A buffer outside wD holds after opsD what it held before. -/
theorem after_opsD_of_not_mem (V : Valuation τ sig (Elt F)) {r : Ref sig .tc} (hr : r ∉ wD) :
    StableHlo.after opsD V (Proc.devRef .tc r) = V (Proc.devRef .tc r) :=
  StableHlo.after_of_writes_sub opsD V opsD_writes hr

/-- The results of the operations of opsE, in order. -/
abbrev wE : List (Ref sig .tc) :=
  [main_v151, main_v152, main_cst_53, main_v153, main_cst_54, main_v154]
set_option maxRecDepth 16384 in
/-- Each operation of opsE writes its result only, and that is in the list. -/
theorem opsE_writes : (opsE : List (HloOp τ sig (Elt F))).Forall fun op => op.writes ⊆ ((wE).map (Proc.devRef (τ := τ) .tc)).toFinset := by
  simp only [List.Forall, StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)
/-- A buffer outside wE holds after opsE what it held before. -/
theorem after_opsE_of_not_mem (V : Valuation τ sig (Elt F)) {r : Ref sig .tc} (hr : r ∉ wE) :
    StableHlo.after opsE V (Proc.devRef .tc r) = V (Proc.devRef .tc r) :=
  StableHlo.after_of_writes_sub opsE V opsE_writes hr

/-- The fold over the whole line is the fold over the six lists one after the other. -/
theorem after_ops (V : Valuation τ sig (Elt F)) :
    StableHlo.after ops V = StableHlo.after opsE (StableHlo.after opsD (StableHlo.after opsC (StableHlo.after opsB (StableHlo.after opsA (StableHlo.after opsL V))))) := by
  simp only [ops, StableHlo.after_append]

/-- A buffer that is the result of no operation of the line holds at the end what it held at launch. -/
theorem after_ops_of_not_mem (V : Valuation τ sig (Elt F)) {r : Ref sig .tc}
    (hL : r ∉ wL) (hA : r ∉ wA) (hB : r ∉ wB) (hC : r ∉ wC) (hD : r ∉ wD) (hE : r ∉ wE) :
    StableHlo.after ops V (Proc.devRef .tc r) = V (Proc.devRef .tc r) := by
  rw [after_ops, after_opsE_of_not_mem _ hE, after_opsD_of_not_mem _ hD, after_opsC_of_not_mem _ hC, after_opsB_of_not_mem _ hB,
    after_opsA_of_not_mem _ hA, after_opsL_of_not_mem _ hL]

set_option maxRecDepth 8192 in
/-- No operation's result is the entry function's argument 0: it holds at the end what it held at launch. -/
theorem kept_arg0 (V : Valuation τ sig (Elt F)) : StableHlo.after ops V (Proc.devRef .tc main_arg0) = V (Proc.devRef .tc main_arg0) :=
  after_ops_of_not_mem V (by decide) (by decide) (by decide) (by decide) (by decide) (by decide)

set_option maxRecDepth 8192 in
/-- No operation's result is the entry function's argument 1: it holds at the end what it held at launch. -/
theorem kept_arg1 (V : Valuation τ sig (Elt F)) : StableHlo.after ops V (Proc.devRef .tc main_arg1) = V (Proc.devRef .tc main_arg1) :=
  after_ops_of_not_mem V (by decide) (by decide) (by decide) (by decide) (by decide) (by decide)

set_option maxRecDepth 8192 in
/-- No operation's result is the entry function's argument 2: it holds at the end what it held at launch. -/
theorem kept_arg2 (V : Valuation τ sig (Elt F)) : StableHlo.after ops V (Proc.devRef .tc main_arg2) = V (Proc.devRef .tc main_arg2) :=
  after_ops_of_not_mem V (by decide) (by decide) (by decide) (by decide) (by decide) (by decide)

set_option maxRecDepth 8192 in
/-- No operation's result is the entry function's argument 3: it holds at the end what it held at launch. -/
theorem kept_arg3 (V : Valuation τ sig (Elt F)) : StableHlo.after ops V (Proc.devRef .tc main_arg3) = V (Proc.devRef .tc main_arg3) :=
  after_ops_of_not_mem V (by decide) (by decide) (by decide) (by decide) (by decide) (by decide)

set_option maxRecDepth 8192 in
/-- No operation's result is the entry function's argument 4: it holds at the end what it held at launch. -/
theorem kept_arg4 (V : Valuation τ sig (Elt F)) : StableHlo.after ops V (Proc.devRef .tc main_arg4) = V (Proc.devRef .tc main_arg4) :=
  after_ops_of_not_mem V (by decide) (by decide) (by decide) (by decide) (by decide) (by decide)

end Cert.ReferenceIdeal.Hand

end
-- ==== Proof.SpecRef.lean ====
/- Laid out by a script (bun scratch/gen_spec.js) from the printed host operations of this directory's programs: one `let` per
   operation, in the printed order, nothing else. The reference's per-row loss: the log-softmax of the scores, the entry in each row's label
   column taken along the class axis, negated. -/
import proofs.«404843_j25503515804375_1_alg».proof.ReferenceIdeal

set_option maxRecDepth 16384

noncomputable section

namespace Cert.SpecRef

open Idealize.ShloMosaic Cert.ReferenceIdeal Cert.ReferenceIdeal.Facts₀ Cert.ReferenceIdeal.Facts

variable {F : FTy → Type} [FloatOps F] [Cert.ReferenceIdeal.Facts]

/-- Minus the log-softmax of the scores at each row's label. -/
def lossRef (main_arg0 : (⟨S32768x1000, .f32⟩ : BufTy).Contents (Elt F)) (main_arg3 : (⟨S32768, .i32⟩ : BufTy).Contents (Elt F)) :
    (⟨S32768, .f32⟩ : BufTy).Contents (Elt F) :=
  let main_call0_cst : (⟨S_, .f32⟩ : BufTy).Contents (Elt F) := (constant (F := F) S_ .f32 0xFF800000#32)
  let main_call0_v0 : (⟨S32768, .f32⟩ : BufTy).Contents (Elt F) := (fun x v => Host.reduce FloatOps.maximumf x v reducesTo_S32768x1000_S32768_d1 h_S_ : (⟨S32768x1000, .f32⟩ : BufTy).Contents (Elt F) → (⟨S_, .f32⟩ : BufTy).Contents (Elt F) → (⟨S32768, .f32⟩ : BufTy).Contents (Elt F)) main_arg0 main_call0_cst
  let main_call0_cst_0 : (⟨S_, .f32⟩ : BufTy).Contents (Elt F) := (constant (F := F) S_ .f32 0xFF800000#32)
  let main_call0_v1 : (⟨S32768, .f32⟩ : BufTy).Contents (Elt F) := (broadcastInDim S32768 ![] bcast_S_S32768 : (⟨S_, .f32⟩ : BufTy).Contents (Elt F) → (⟨S32768, .f32⟩ : BufTy).Contents (Elt F)) main_call0_cst_0
  let main_call0_v2 : (⟨S32768, .f32⟩ : BufTy).Contents (Elt F) := (maximumf : (⟨S32768, .f32⟩ : BufTy).Contents (Elt F) → (⟨S32768, .f32⟩ : BufTy).Contents (Elt F) → (⟨S32768, .f32⟩ : BufTy).Contents (Elt F)) main_call0_v1 main_call0_v0
  let main_call0_v3 : (⟨S32768x1, .f32⟩ : BufTy).Contents (Elt F) := (broadcastInDim S32768x1 ![0] bcast_S32768_S32768x1_0 : (⟨S32768, .f32⟩ : BufTy).Contents (Elt F) → (⟨S32768x1, .f32⟩ : BufTy).Contents (Elt F)) main_call0_v2
  let main_call0_v4 : (⟨S32768x1000, .f32⟩ : BufTy).Contents (Elt F) := (broadcastInDim S32768x1000 ![0, 1] bcast_S32768x1_S32768x1000_0_1 : (⟨S32768x1, .f32⟩ : BufTy).Contents (Elt F) → (⟨S32768x1000, .f32⟩ : BufTy).Contents (Elt F)) main_call0_v3
  let main_call0_v5 : (⟨S32768x1000, .f32⟩ : BufTy).Contents (Elt F) := (subf : (⟨S32768x1000, .f32⟩ : BufTy).Contents (Elt F) → (⟨S32768x1000, .f32⟩ : BufTy).Contents (Elt F) → (⟨S32768x1000, .f32⟩ : BufTy).Contents (Elt F)) main_arg0 main_call0_v4
  let main_call0_v6 : (⟨S32768x1000, .f32⟩ : BufTy).Contents (Elt F) := (Host.exp : (⟨S32768x1000, .f32⟩ : BufTy).Contents (Elt F) → (⟨S32768x1000, .f32⟩ : BufTy).Contents (Elt F)) main_call0_v5
  let main_call0_cst_1 : (⟨S_, .f32⟩ : BufTy).Contents (Elt F) := (constant (F := F) S_ .f32 0x00000000#32)
  let main_call0_v7 : (⟨S32768, .f32⟩ : BufTy).Contents (Elt F) := (fun x v => Host.reduceAdd x v reducesTo_S32768x1000_S32768_d1 h_S_ : (⟨S32768x1000, .f32⟩ : BufTy).Contents (Elt F) → (⟨S_, .f32⟩ : BufTy).Contents (Elt F) → (⟨S32768, .f32⟩ : BufTy).Contents (Elt F)) main_call0_v6 main_call0_cst_1
  let main_call0_v8 : (⟨S32768x1, .f32⟩ : BufTy).Contents (Elt F) := (broadcastInDim S32768x1 ![0] bcast_S32768_S32768x1_0 : (⟨S32768, .f32⟩ : BufTy).Contents (Elt F) → (⟨S32768x1, .f32⟩ : BufTy).Contents (Elt F)) main_call0_v7
  let main_call0_v9 : (⟨S32768x1, .f32⟩ : BufTy).Contents (Elt F) := (Host.log : (⟨S32768x1, .f32⟩ : BufTy).Contents (Elt F) → (⟨S32768x1, .f32⟩ : BufTy).Contents (Elt F)) main_call0_v8
  let main_call0_v10 : (⟨S32768x1000, .f32⟩ : BufTy).Contents (Elt F) := (broadcastInDim S32768x1000 ![0, 1] bcast_S32768x1_S32768x1000_0_1 : (⟨S32768x1, .f32⟩ : BufTy).Contents (Elt F) → (⟨S32768x1000, .f32⟩ : BufTy).Contents (Elt F)) main_call0_v9
  let main_v0 : (⟨S32768x1000, .f32⟩ : BufTy).Contents (Elt F) := (subf : (⟨S32768x1000, .f32⟩ : BufTy).Contents (Elt F) → (⟨S32768x1000, .f32⟩ : BufTy).Contents (Elt F) → (⟨S32768x1000, .f32⟩ : BufTy).Contents (Elt F)) main_call0_v5 main_call0_v10
  let main_v1 : (⟨S32768x1, .i32⟩ : BufTy).Contents (Elt F) := (broadcastInDim S32768x1 ![0] bcast_S32768_S32768x1_0 : (⟨S32768, .i32⟩ : BufTy).Contents (Elt F) → (⟨S32768x1, .i32⟩ : BufTy).Contents (Elt F)) main_arg3
  let main_call1_c : (⟨S_, .i32⟩ : BufTy).Contents (Elt F) := (constantI S_ 32 0#32)
  let main_call1_v0 : (⟨S32768x1, .i32⟩ : BufTy).Contents (Elt F) := (broadcastInDim S32768x1 ![] bcast_S_S32768x1 : (⟨S_, .i32⟩ : BufTy).Contents (Elt F) → (⟨S32768x1, .i32⟩ : BufTy).Contents (Elt F)) main_call1_c
  let main_call1_v1 : (⟨S32768x1, .i1⟩ : BufTy).Contents (Elt F) := (cmpi .slt : (⟨S32768x1, .i32⟩ : BufTy).Contents (Elt F) → (⟨S32768x1, .i32⟩ : BufTy).Contents (Elt F) → (⟨S32768x1, .i1⟩ : BufTy).Contents (Elt F)) main_v1 main_call1_v0
  let main_call1_c_0 : (⟨S_, .i32⟩ : BufTy).Contents (Elt F) := (constantI S_ 32 1000#32)
  let main_call1_v2 : (⟨S32768x1, .i32⟩ : BufTy).Contents (Elt F) := (broadcastInDim S32768x1 ![] bcast_S_S32768x1 : (⟨S_, .i32⟩ : BufTy).Contents (Elt F) → (⟨S32768x1, .i32⟩ : BufTy).Contents (Elt F)) main_call1_c_0
  let main_call1_v3 : (⟨S32768x1, .i32⟩ : BufTy).Contents (Elt F) := (addi : (⟨S32768x1, .i32⟩ : BufTy).Contents (Elt F) → (⟨S32768x1, .i32⟩ : BufTy).Contents (Elt F) → (⟨S32768x1, .i32⟩ : BufTy).Contents (Elt F)) main_v1 main_call1_v2
  let main_call1_v4 : (⟨S32768x1, .i32⟩ : BufTy).Contents (Elt F) := (select : (⟨S32768x1, .i1⟩ : BufTy).Contents (Elt F) → (⟨S32768x1, .i32⟩ : BufTy).Contents (Elt F) → (⟨S32768x1, .i32⟩ : BufTy).Contents (Elt F) → (⟨S32768x1, .i32⟩ : BufTy).Contents (Elt F)) main_call1_v1 main_call1_v3 main_v1
  let main_call1_v5 : (⟨S32768x1x1, .i32⟩ : BufTy).Contents (Elt F) := shapeCast _ main_call1_v4 shapeCasts_S32768x1_S32768x1x1
  let main_call1_c_1 : (⟨S1, .i32⟩ : BufTy).Contents (Elt F) := (constantI S1 32 999#32)
  let main_call1_c_2 : (⟨S_, .i32⟩ : BufTy).Contents (Elt F) := (constantI S_ 32 0#32)
  let main_call1_v6 : (⟨S32768x1x1, .i32⟩ : BufTy).Contents (Elt F) := (broadcastInDim S32768x1x1 ![] bcast_S_S32768x1x1 : (⟨S_, .i32⟩ : BufTy).Contents (Elt F) → (⟨S32768x1x1, .i32⟩ : BufTy).Contents (Elt F)) main_call1_c_2
  let main_call1_v7 : (⟨S32768x1x1, .i1⟩ : BufTy).Contents (Elt F) := (cmpi .sge : (⟨S32768x1x1, .i32⟩ : BufTy).Contents (Elt F) → (⟨S32768x1x1, .i32⟩ : BufTy).Contents (Elt F) → (⟨S32768x1x1, .i1⟩ : BufTy).Contents (Elt F)) main_call1_v5 main_call1_v6
  let main_call1_v8 : (⟨S1x1x1, .i32⟩ : BufTy).Contents (Elt F) := (broadcastInDim S1x1x1 ![2] bcast_S1_S1x1x1_2 : (⟨S1, .i32⟩ : BufTy).Contents (Elt F) → (⟨S1x1x1, .i32⟩ : BufTy).Contents (Elt F)) main_call1_c_1
  let main_call1_v9 : (⟨S32768x1x1, .i32⟩ : BufTy).Contents (Elt F) := (broadcastInDim S32768x1x1 ![0, 1, 2] bcast_S1x1x1_S32768x1x1_0_1_2 : (⟨S1x1x1, .i32⟩ : BufTy).Contents (Elt F) → (⟨S32768x1x1, .i32⟩ : BufTy).Contents (Elt F)) main_call1_v8
  let main_call1_v10 : (⟨S32768x1x1, .i1⟩ : BufTy).Contents (Elt F) := (cmpi .sle : (⟨S32768x1x1, .i32⟩ : BufTy).Contents (Elt F) → (⟨S32768x1x1, .i32⟩ : BufTy).Contents (Elt F) → (⟨S32768x1x1, .i1⟩ : BufTy).Contents (Elt F)) main_call1_v5 main_call1_v9
  let main_call1_v11 : (⟨S32768x1x1, .i1⟩ : BufTy).Contents (Elt F) := (andi : (⟨S32768x1x1, .i1⟩ : BufTy).Contents (Elt F) → (⟨S32768x1x1, .i1⟩ : BufTy).Contents (Elt F) → (⟨S32768x1x1, .i1⟩ : BufTy).Contents (Elt F)) main_call1_v7 main_call1_v10
  let main_call1_c_3 : (⟨S_, .i1⟩ : BufTy).Contents (Elt F) := (constantI S_ 1 1#1)
  let main_call1_v12 : (⟨S32768x1, .i1⟩ : BufTy).Contents (Elt F) := (fun x v => Host.reduce IntOp.andi x v reducesTo_S32768x1x1_S32768x1_d2 h_S_ : (⟨S32768x1x1, .i1⟩ : BufTy).Contents (Elt F) → (⟨S_, .i1⟩ : BufTy).Contents (Elt F) → (⟨S32768x1, .i1⟩ : BufTy).Contents (Elt F)) main_call1_v11 main_call1_c_3
  let main_call1_v13 : (⟨S32768x1, .f32⟩ : BufTy).Contents (Elt F) := (fun x i => Host.gather gather_S32768x1000_S32768x1x1_S32768x1_n_1_0_0_1_2_11 x i : (⟨S32768x1000, .f32⟩ : BufTy).Contents (Elt F) → (⟨S32768x1x1, .i32⟩ : BufTy).Contents (Elt F) → (⟨S32768x1, .f32⟩ : BufTy).Contents (Elt F)) main_v0 main_call1_v5
  let main_call1_cst : (⟨S_, .f32⟩ : BufTy).Contents (Elt F) := (constant (F := F) S_ .f32 0x7FC00000#32)
  let main_call1_v14 : (⟨S32768x1, .f32⟩ : BufTy).Contents (Elt F) := (broadcastInDim S32768x1 ![] bcast_S_S32768x1 : (⟨S_, .f32⟩ : BufTy).Contents (Elt F) → (⟨S32768x1, .f32⟩ : BufTy).Contents (Elt F)) main_call1_cst
  let main_v2 : (⟨S32768x1, .f32⟩ : BufTy).Contents (Elt F) := (select : (⟨S32768x1, .i1⟩ : BufTy).Contents (Elt F) → (⟨S32768x1, .f32⟩ : BufTy).Contents (Elt F) → (⟨S32768x1, .f32⟩ : BufTy).Contents (Elt F) → (⟨S32768x1, .f32⟩ : BufTy).Contents (Elt F)) main_call1_v12 main_call1_v13 main_call1_v14
  let main_v3 := shapeCast _ main_v2 shapeCasts_S32768x1_S32768
  let main_v4 : (⟨S32768, .f32⟩ : BufTy).Contents (Elt F) := (Host.negf : (⟨S32768, .f32⟩ : BufTy).Contents (Elt F) → (⟨S32768, .f32⟩ : BufTy).Contents (Elt F)) main_v3
  main_v4

end Cert.SpecRef

end
-- ==== Proof.RefValue.lean ====
/- The value the reference program's run leaves in its result buffer: the shared host tail (the two running per-bin
   averages, the two table interpolations, the weighted mean) applied to the reference's own per-row loss, minus the
   log-softmax of the scores at each row's label. The run is a fold over six consecutive lists of operations; each list is
   evaluated once, over an arbitrary starting contents, at the one buffer a later list reads from it, and is shown to leave
   alone the earlier buffers a later list still reads; the fold over the concatenation is then the composition. -/
import proofs.«404843_j25503515804375_1_alg».proof.Proof.RefOps
import proofs.«404843_j25503515804375_1_alg».proof.Proof.Spec
import proofs.«404843_j25503515804375_1_alg».proof.Proof.SpecRef
import proofs.«404843_j25503515804375_1_alg».proof.Proof.Gen.ReferenceIdeal
import proofs.«404843_j25503515804375_1_alg».proof.Proof.Gen.KernelIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
open Idealize.ShloMosaic.StableHlo (after after_cons after_nil)

variable {F : FTy → Type} [FloatOps F]

/-! ## Operations through typed references

An operation of a called function names its buffers through references that carry the type of the value held, and moves
its function to the buffer's own type along that equation. When the carried type IS the buffer's own type the equation is
the identity, both transports vanish, and the operation is the plain one at the same buffers with the same function. Stated
over an arbitrary function, so that nothing of the function is ever opened. -/

section Untyped
open StableHlo

/-- An operation of one operand through references carrying their buffers' own types is the plain operation. -/
theorem rv_unary (x y : Ref sig .tc) (hx : x.ty = x.ty) (hx1 : x.space ≠ .host) (hx2 : x.isScoped = false)
    (hy : y.ty = y.ty) (hy1 : y.space ≠ .host) (hy2 : y.isScoped = false)
    (f : x.ty.Contents (Elt F) → y.ty.Contents (Elt F)) :
    (TRef.unary (τ := τ) (TRef.of x hx hx1 hx2 : TRef sig x.ty) (TRef.of y hy hy1 hy2 : TRef sig y.ty) f : HloOp τ sig (Elt F))
      = StableHlo.unary x y f (TRef.of x hx hx1 hx2 : TRef sig x.ty).dev (TRef.of y hy hy1 hy2 : TRef sig y.ty).dev := rfl

/-- The same for an operation of two operands. -/
theorem rv_binary (a b y : Ref sig .tc) (ha : a.ty = a.ty) (ha1 : a.space ≠ .host) (ha2 : a.isScoped = false)
    (hb : b.ty = b.ty) (hb1 : b.space ≠ .host) (hb2 : b.isScoped = false)
    (hy : y.ty = y.ty) (hy1 : y.space ≠ .host) (hy2 : y.isScoped = false)
    (f : a.ty.Contents (Elt F) → b.ty.Contents (Elt F) → y.ty.Contents (Elt F)) :
    (TRef.binary (τ := τ) (TRef.of a ha ha1 ha2 : TRef sig a.ty) (TRef.of b hb hb1 hb2 : TRef sig b.ty)
        (TRef.of y hy hy1 hy2 : TRef sig y.ty) f : HloOp τ sig (Elt F))
      = StableHlo.binary a b y f (TRef.of a ha ha1 ha2 : TRef sig a.ty).dev (TRef.of b hb hb1 hb2 : TRef sig b.ty).dev
          (TRef.of y hy hy1 hy2 : TRef sig y.ty).dev := rfl

/-- The same for an operation of three operands. -/
theorem rv_ternary (c a b y : Ref sig .tc) (hc : c.ty = c.ty) (hc1 : c.space ≠ .host) (hc2 : c.isScoped = false)
    (ha : a.ty = a.ty) (ha1 : a.space ≠ .host) (ha2 : a.isScoped = false)
    (hb : b.ty = b.ty) (hb1 : b.space ≠ .host) (hb2 : b.isScoped = false)
    (hy : y.ty = y.ty) (hy1 : y.space ≠ .host) (hy2 : y.isScoped = false)
    (f : c.ty.Contents (Elt F) → a.ty.Contents (Elt F) → b.ty.Contents (Elt F) → y.ty.Contents (Elt F)) :
    (TRef.ternary (τ := τ) (TRef.of c hc hc1 hc2 : TRef sig c.ty) (TRef.of a ha ha1 ha2 : TRef sig a.ty)
        (TRef.of b hb hb1 hb2 : TRef sig b.ty) (TRef.of y hy hy1 hy2 : TRef sig y.ty) f : HloOp τ sig (Elt F))
      = StableHlo.ternary c a b y f (TRef.of c hc hc1 hc2 : TRef sig c.ty).dev (TRef.of a ha ha1 ha2 : TRef sig a.ty).dev
          (TRef.of b hb hb1 hb2 : TRef sig b.ty).dev (TRef.of y hy hy1 hy2 : TRef sig y.ty).dev := rfl

/-- The same for a reshape: the element-type equation and the equal element counts are facts, so any two proofs agree. -/
theorem rv_reshape (x y : Ref sig .tc) (hx : x.ty = x.ty) (hx1 : x.space ≠ .host) (hx2 : x.isScoped = false)
    (hy : y.ty = y.ty) (hy1 : y.space ≠ .host) (hy2 : y.isScoped = false)
    (he : x.ty.elt = y.ty.elt) (hn : x.ty.shape.ShapeCasts y.ty.shape) :
    (TRef.reshape (τ := τ) (Val := Elt F) (TRef.of x hx hx1 hx2 : TRef sig x.ty) (TRef.of y hy hy1 hy2 : TRef sig y.ty) he hn : HloOp τ sig (Elt F))
      = StableHlo.reshape x y he hn (TRef.of x hx hx1 hx2 : TRef sig x.ty).dev (TRef.of y hy hy1 hy2 : TRef sig y.ty).dev := rfl

end Untyped

/-! ## Each list at the buffer a later list reads -/

set_option maxRecDepth 16384 in
set_option maxHeartbeats 4000000 in
/-- After the first list the buffer of the negated gathered log-softmax holds the reference's per-row loss of the scores
    and the labels the list started from. Every operation of the two called functions that has an operand is first read
    as the plain operation (the constants keep their transport, which is the identity on a literal buffer); each buffer is
    then read off as its operation's function of its operands' buffers, which is the loss's own chain of definitions. -/
theorem rv_opsL_loss (V : Valuation τ sig (Elt F)) :
    StableHlo.after (opsL (F := F)) V (Proc.devRef .tc main_v4)
      = Cert.SpecRef.lossRef (V (Proc.devRef .tc main_arg0)) (V (Proc.devRef .tc main_arg3)) := by
  simp only [opsL, rv_unary, rv_binary, rv_ternary, rv_reshape]
  after_results_simp
  rfl

set_option maxRecDepth 16384 in
set_option maxHeartbeats 4000000 in
/-- After the first list the table's buffer holds the 31 table entries: the two programs' tables are the same literal words
    in the same order. -/
theorem rv_opsL_tab (V : Valuation τ sig (Elt F)) :
    StableHlo.after (opsL (F := F)) V (Proc.devRef .tc main_cst) = Cert.Spec.tab := by
  after_results_simp <;> rfl

set_option maxRecDepth 16384 in
set_option maxHeartbeats 4000000 in
/-- After the second list the gathered blended per-instance memory is the per-instance smoothing of the loss, the instance
    indices and the memory the list started from. -/
theorem rv_opsA_val (V : Valuation τ sig (Elt F)) :
    StableHlo.after (opsA (F := F)) V (Proc.devRef .tc main_v32)
      = Cert.Spec.smoothIns (V (Proc.devRef .tc main_v4)) (V (Proc.devRef .tc main_arg4)) (V (Proc.devRef .tc main_arg1)) := by
  after_results_simp <;> rfl

set_option maxRecDepth 16384 in
set_option maxHeartbeats 4000000 in
/-- After the third list the exponential of the interpolated table value is the confidence of the table and the
    per-instance smoothed loss the list started from. -/
theorem rv_opsB_val (V : Valuation τ sig (Elt F)) :
    StableHlo.after (opsB (F := F)) V (Proc.devRef .tc main_v77)
      = Cert.Spec.optConf (V (Proc.devRef .tc main_cst)) (V (Proc.devRef .tc main_v32)) := by
  after_results_simp <;> rfl

set_option maxRecDepth 16384 in
set_option maxHeartbeats 4000000 in
/-- After the fourth list the gathered blended per-class memory is the per-class smoothing of the loss, the labels and the
    memory the list started from. -/
theorem rv_opsC_val (V : Valuation τ sig (Elt F)) :
    StableHlo.after (opsC (F := F)) V (Proc.devRef .tc main_v105)
      = Cert.Spec.smoothCls (V (Proc.devRef .tc main_v4)) (V (Proc.devRef .tc main_arg3)) (V (Proc.devRef .tc main_arg2)) := by
  after_results_simp <;> rfl

set_option maxRecDepth 16384 in
set_option maxHeartbeats 4000000 in
/-- After the fifth list the second exponential is the confidence of the table and the per-class smoothed loss. -/
theorem rv_opsD_val (V : Valuation τ sig (Elt F)) :
    StableHlo.after (opsD (F := F)) V (Proc.devRef .tc main_v150)
      = Cert.Spec.optConf (V (Proc.devRef .tc main_cst)) (V (Proc.devRef .tc main_v105)) := by
  after_results_simp <;> rfl

set_option maxRecDepth 16384 in
set_option maxHeartbeats 4000000 in
/-- After the last list the result is the row mean of the loss times the two confidences. -/
theorem rv_opsE_val (V : Valuation τ sig (Elt F)) :
    StableHlo.after (opsE (F := F)) V (Proc.devRef .tc main_v154)
      = Cert.Spec.fin (V (Proc.devRef .tc main_v4)) (V (Proc.devRef .tc main_v77)) (V (Proc.devRef .tc main_v150)) := by
  after_results_simp <;> rfl

/-! ## What each list leaves alone

A buffer no operation of a list writes holds after the list what it held before: each operation's result at a reference
other than its own result buffer is the previous contents, the two references being different literals. -/

set_option maxRecDepth 16384 in
set_option maxHeartbeats 4000000 in
/-- The first list writes none of the four remaining arguments. -/
theorem rv_opsL_arg1 (V : Valuation τ sig (Elt F)) :
    StableHlo.after (opsL (F := F)) V (Proc.devRef .tc main_arg1) = V (Proc.devRef .tc main_arg1) := by
  after_results_simp

set_option maxRecDepth 16384 in
set_option maxHeartbeats 4000000 in
theorem rv_opsL_arg2 (V : Valuation τ sig (Elt F)) :
    StableHlo.after (opsL (F := F)) V (Proc.devRef .tc main_arg2) = V (Proc.devRef .tc main_arg2) := by
  after_results_simp

set_option maxRecDepth 16384 in
set_option maxHeartbeats 4000000 in
theorem rv_opsL_arg3 (V : Valuation τ sig (Elt F)) :
    StableHlo.after (opsL (F := F)) V (Proc.devRef .tc main_arg3) = V (Proc.devRef .tc main_arg3) := by
  after_results_simp

set_option maxRecDepth 16384 in
set_option maxHeartbeats 4000000 in
theorem rv_opsL_arg4 (V : Valuation τ sig (Elt F)) :
    StableHlo.after (opsL (F := F)) V (Proc.devRef .tc main_arg4) = V (Proc.devRef .tc main_arg4) := by
  after_results_simp

set_option maxRecDepth 16384 in
set_option maxHeartbeats 4000000 in
/-- The second list writes neither the per-row loss, nor the labels, nor the per-class memory, nor the table. -/
theorem rv_opsA_v4 (V : Valuation τ sig (Elt F)) :
    StableHlo.after (opsA (F := F)) V (Proc.devRef .tc main_v4) = V (Proc.devRef .tc main_v4) := by
  after_results_simp

set_option maxRecDepth 16384 in
set_option maxHeartbeats 4000000 in
theorem rv_opsA_arg3 (V : Valuation τ sig (Elt F)) :
    StableHlo.after (opsA (F := F)) V (Proc.devRef .tc main_arg3) = V (Proc.devRef .tc main_arg3) := by
  after_results_simp

set_option maxRecDepth 16384 in
set_option maxHeartbeats 4000000 in
theorem rv_opsA_arg2 (V : Valuation τ sig (Elt F)) :
    StableHlo.after (opsA (F := F)) V (Proc.devRef .tc main_arg2) = V (Proc.devRef .tc main_arg2) := by
  after_results_simp

set_option maxRecDepth 16384 in
set_option maxHeartbeats 4000000 in
theorem rv_opsA_cst (V : Valuation τ sig (Elt F)) :
    StableHlo.after (opsA (F := F)) V (Proc.devRef .tc main_cst) = V (Proc.devRef .tc main_cst) := by
  after_results_simp

set_option maxRecDepth 16384 in
set_option maxHeartbeats 4000000 in
/-- The third list writes neither the per-row loss, nor the labels, nor the per-class memory, nor the table. -/
theorem rv_opsB_v4 (V : Valuation τ sig (Elt F)) :
    StableHlo.after (opsB (F := F)) V (Proc.devRef .tc main_v4) = V (Proc.devRef .tc main_v4) := by
  after_results_simp

set_option maxRecDepth 16384 in
set_option maxHeartbeats 4000000 in
theorem rv_opsB_arg3 (V : Valuation τ sig (Elt F)) :
    StableHlo.after (opsB (F := F)) V (Proc.devRef .tc main_arg3) = V (Proc.devRef .tc main_arg3) := by
  after_results_simp

set_option maxRecDepth 16384 in
set_option maxHeartbeats 4000000 in
theorem rv_opsB_arg2 (V : Valuation τ sig (Elt F)) :
    StableHlo.after (opsB (F := F)) V (Proc.devRef .tc main_arg2) = V (Proc.devRef .tc main_arg2) := by
  after_results_simp

set_option maxRecDepth 16384 in
set_option maxHeartbeats 4000000 in
theorem rv_opsB_cst (V : Valuation τ sig (Elt F)) :
    StableHlo.after (opsB (F := F)) V (Proc.devRef .tc main_cst) = V (Proc.devRef .tc main_cst) := by
  after_results_simp

set_option maxRecDepth 16384 in
set_option maxHeartbeats 4000000 in
/-- The fourth list writes neither the table, nor the per-row loss, nor the per-instance weight. -/
theorem rv_opsC_cst (V : Valuation τ sig (Elt F)) :
    StableHlo.after (opsC (F := F)) V (Proc.devRef .tc main_cst) = V (Proc.devRef .tc main_cst) := by
  after_results_simp

set_option maxRecDepth 16384 in
set_option maxHeartbeats 4000000 in
theorem rv_opsC_v4 (V : Valuation τ sig (Elt F)) :
    StableHlo.after (opsC (F := F)) V (Proc.devRef .tc main_v4) = V (Proc.devRef .tc main_v4) := by
  after_results_simp

set_option maxRecDepth 16384 in
set_option maxHeartbeats 4000000 in
theorem rv_opsC_v77 (V : Valuation τ sig (Elt F)) :
    StableHlo.after (opsC (F := F)) V (Proc.devRef .tc main_v77) = V (Proc.devRef .tc main_v77) := by
  after_results_simp

set_option maxRecDepth 16384 in
set_option maxHeartbeats 4000000 in
/-- The fifth list writes neither the per-row loss nor the per-instance weight. -/
theorem rv_opsD_v4 (V : Valuation τ sig (Elt F)) :
    StableHlo.after (opsD (F := F)) V (Proc.devRef .tc main_v4) = V (Proc.devRef .tc main_v4) := by
  after_results_simp

set_option maxRecDepth 16384 in
set_option maxHeartbeats 4000000 in
theorem rv_opsD_v77 (V : Valuation τ sig (Elt F)) :
    StableHlo.after (opsD (F := F)) V (Proc.devRef .tc main_v77) = V (Proc.devRef .tc main_v77) := by
  after_results_simp

/-! ## The whole run -/

/-- Running one list and then another is running their concatenation. -/
theorem rv_after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The result buffer after the whole line: the fold is peeled list by list from the last; each list's value is read at the
    contents the lists before it leave, and each buffer read across a list is carried back through it unchanged, down to the
    starting contents: the loss and the table from the first list, the four other arguments untouched. What is left is the
    host tail's own definition. -/
theorem ref_value (V : Valuation τ sig (Elt F)) :
    StableHlo.after (ops (F := F)) V (Proc.devRef .tc main_v154)
      = Cert.Spec.tail (Cert.SpecRef.lossRef (V (Proc.devRef .tc main_arg0)) (V (Proc.devRef .tc main_arg3)))
          (V (Proc.devRef .tc main_arg1)) (V (Proc.devRef .tc main_arg2)) (V (Proc.devRef .tc main_arg3)) (V (Proc.devRef .tc main_arg4)) := by
  unfold ops
  rw [rv_after_append, rv_after_append, rv_after_append, rv_after_append, rv_after_append]
  rw [rv_opsE_val, rv_opsD_val, rv_opsD_v4, rv_opsD_v77]
  rw [rv_opsC_val, rv_opsC_cst, rv_opsC_v4, rv_opsC_v77]
  rw [rv_opsB_val, rv_opsB_cst, rv_opsB_v4, rv_opsB_arg3, rv_opsB_arg2]
  rw [rv_opsA_val, rv_opsA_cst, rv_opsA_v4, rv_opsA_arg3, rv_opsA_arg2]
  rw [rv_opsL_loss, rv_opsL_tab, rv_opsL_arg1, rv_opsL_arg2, rv_opsL_arg3, rv_opsL_arg4]
  rfl

end Cert.ReferenceIdeal.Hand

end
-- ==== Proof.RefClaims.lean ====
/-
  The value the reference program returns: its result buffer, after all its operations, is the shared host tail
  applied to the reference's own per-row loss (minus the log-softmax at each row's label), and no operation writes an
  argument.
-/
import proofs.«404843_j25503515804375_1_alg».proof.Proof.RefRun
import proofs.«404843_j25503515804375_1_alg».proof.Proof.RefValue

set_option maxRecDepth 16384

noncomputable section

namespace Cert.ReferenceIdeal.Value

open Cert.ReferenceIdeal Cert.ReferenceIdeal.Gen Cert.ReferenceIdeal.Hand
open Idealize.ShloMosaic Idealize.ShloMosaic.TcCoe Idealize.SL.Sem

variable {F : FTy → Type} [FloatOps F]

/-- The reference runs to the end with its result at the shared tail of its own loss and its arguments as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v154)
        = Cert.Spec.tail (Cert.SpecRef.lossRef (m ((c.tc : Thread nD τ).loc main_arg0)) (m ((c.tc : Thread nD τ).loc main_arg3)))
            (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c main_v154).trans (ref_value (StableHlo.launchContents m c)),
        (h c main_arg0).trans (kept_arg0 _), (h c main_arg1).trans (kept_arg1 _), (h c main_arg2).trans (kept_arg2 _),
        (h c main_arg3).trans (kept_arg3 _), (h c main_arg4).trans (kept_arg4 _)⟩) (run_all m ρ)

end Cert.ReferenceIdeal.Value

end
-- ==== Proof.CEMath.lean ====
/-
  The reference's per-row loss is the closed-form cross-entropy.

  For scores x (32768 rows of 1000 classes, every entry a real number) and one label per row lying in 0 … 999, row r of the
  reference program computes  −((x r k − M) − log S),  where k is the row's label, M the row's largest score and
  S = ∑ⱼ exp (x r j − M); the closed form is  (log S + M) − ∑ⱼ [j = k] · x r j.  The two agree:

  • the row maximum the program takes, max (−∞) (fold of max from −∞), is the fold itself, since −∞ is the least element;
  • its sum from 0 of the exponentials of the shifted scores is S, and the logarithm is taken of that;
  • a label that is not negative is left alone by the index normalisation, the range test 0 ≤ · ≤ 999 passes, and the
    gather (rows paired by a batching axis, the class axis collapsed and addressed by the start index) reads the
    log-softmax of row r at column k: the clamp into 0 … 999 does nothing to k;
  • exactly one class j < 1000 has its 32-bit word equal to the label (words of numbers below 2³² are distinct), so the
    one-hot sum is x r k;
  • M is the maximum of a nonempty finite family of reals, so a real; each exponential of a real is a positive real, and so
    is the sum of 1000 of them; its logarithm is real. In the reals  −((a − M) − L) = (L + M) − a,  and the coercion of the
    reals into the extended reals carries sums, differences and negations.

  The program's composite is cut into named stages first (the equation between the program and the stages put together
  holds by unfolding); every stage is then read at one index, each operation through an equation stated for an arbitrary
  operand, so that no step ever evaluates a reduction over the whole array.
-/
import proofs.«404843_j25503515804375_1_alg».proof.Proof.SpecRef
import proofs.«404843_j25503515804375_1_alg».proof.Proof.SpecCE
import Idealize.ShloMosaic.Lib.IdealHost
import Idealize.ShloMosaic.Lib.ValueLayout
import Idealize.ShloMosaic.Lib.Pipeline.Value
import Idealize.ShloMosaic.Lib.Affine
import Mathlib.Data.Finset.Fold
import Mathlib.Data.Finset.BooleanAlgebra
import Mathlib.Data.Finset.Lattice.Fold
import Mathlib.Algebra.Order.BigOperators.Group.Finset
import Mathlib.Analysis.Complex.Exponential
import Mathlib.Analysis.SpecialFunctions.Log.Basic
import Mathlib.Data.EReal.Basic

set_option maxRecDepth 16384

noncomputable section

namespace Cert.CEMath

open Idealize.ShloMosaic Idealize.ShloMosaic.ValueIdx Cert.ReferenceIdeal Cert.ReferenceIdeal.Facts₀ Cert.ReferenceIdeal.Facts Cert.SpecCE

variable [Cert.ReferenceIdeal.Facts]

/-! Elementwise host operations read at an index (each holds by unfolding, over any operand). -/

theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl
theorem hostNegf_apply {s : Shape} {φ : FTy} (a : FVec Ideal s φ) (i : s.Idx) : Host.negf a i = -(a i) := rfl
theorem cmpi_apply {s : Shape} {w : Nat} (p : CmpIPredicate) (a b : IVec s w) (i : s.Idx) :
    cmpi p a b i = IntOp.cmpi p (a i) (b i) := rfl
theorem addi_apply {s : Shape} {w : Nat} (a b : IVec s w) (i : s.Idx) : addi a b i = IntOp.addi (a i) (b i) := rfl
theorem andi_apply {s : Shape} {w : Nat} (a b : IVec s w) (i : s.Idx) : andi a b i = IntOp.andi (a i) (b i) := rfl

/-- A vector of 32768 entries broadcast along a new unit axis reads, at row r, the entry r. -/
theorem bcast_col_apply {α : Type} (v : S32768.Idx → α) (r : Fin 32768) (u : Fin 1) :
    broadcastInDim S32768x1 ![0] bcast_S32768_S32768x1_0 v (ix2 r u) = v (ix1 r) := by
  refine broadcastInDim_apply _ _ _ _ (ix1 r) ?_
  intro a
  obtain rfl : a = 0 := Subsingleton.elim _ _
  rfl

/-- A column broadcast across the 1000 classes reads, at (r, j), the column's entry r. -/
theorem bcast_row_apply {α : Type} (v : S32768x1.Idx → α) (r : Fin 32768) (j : Fin 1000) :
    broadcastInDim S32768x1000 ![0, 1] bcast_S32768x1_S32768x1000_0_1 v (ix2 r j) = v (ix2 r 0) := by
  refine broadcastInDim_apply _ _ _ _ (ix2 r 0) ?_
  intro a
  match a with
  | ⟨0, _⟩ => rfl
  | ⟨1, _⟩ => rfl

/-- A column recast with a second unit axis reads, at (r, 0, 0), the column's entry r: both positions are r in row-major order. -/
theorem cast3_apply {α : Type} (v : S32768x1.Idx → α) (r : Fin 32768) :
    shapeCast S32768x1x1 v shapeCasts_S32768x1_S32768x1x1 (ix3 r 0 0) = v (ix2 r 0) := by
  refine shapeCast_apply _ _ _ (ix2 r 0) ?_
  rw [Shape.rowMajor_val_two, Shape.rowMajor_val_three]
  show r.val * 1 + 0 = (r.val * 1 + 0) * 1 + 0
  omega

/-- A column recast to a vector reads, at r, the column's entry r. -/
theorem cast1_apply {α : Type} (v : S32768x1.Idx → α) (r : Fin 32768) :
    shapeCast S32768 v shapeCasts_S32768x1_S32768 (ix1 r) = v (ix2 r 0) := by
  refine shapeCast_apply _ _ _ (ix2 r 0) ?_
  rw [Shape.rowMajor_val_two, Shape.rowMajor_val_one]
  show r.val * 1 + 0 = r.val
  omega

/-- The row-wise reduction's shape fact in the form that names the inserted index. -/
theorem red1 : S32768x1000.Reduces [1] S32768 := by decide

/-- Row r with the class coordinate j inserted is the index (r, j). -/
theorem lift1 (r : Fin 32768) (j : Fin 1000) : red1.lift (ix1 r) j = ix2 r j := by
  funext a
  match a with
  | ⟨0, _⟩ => rfl
  | ⟨1, _⟩ => rfl

/-- The pattern of −∞ is the bottom of the extended reals. -/
theorem negInf : Ideal.ofBits .f32 0xFF800000#32 = (⊥ : EReal) := by simp [Ideal.ofBits, Ideal.ieee]

/-- The reference's max-reduction over the classes: the fold of max over the row from −∞. -/
theorem refMax_apply (x : Scores) (r : Fin 32768) :
    Host.reduce FloatOps.maximumf x (constant (F := Ideal) S_ .f32 0xFF800000#32) reducesTo_S32768x1000_S32768_d1 h_S_ (ix1 r)
      = rowMax x r := by
  refine (Host.reduce_eq_fold_single _ _ _ _ red1 _ _).trans ?_
  unfold rowMax
  rw [constant_apply, negInf]
  refine congrArg (fun f => Finset.fold max (⊥ : EReal) f (Finset.univ : Finset (Fin 1000))) ?_
  funext j
  exact congrArg x (lift1 r j)

/-- The reference's gather: operand [32768, 1000], start indices [32768, 1, 1], result [32768, 1]; axis 0 is a batching
    axis of both, axis 1 of the operand is collapsed and is the one the start index addresses. -/
abbrev gd := gather_S32768x1000_S32768x1x1_S32768x1_n_1_0_0_1_2_11

/-- That gather read at (r, 0): the operand's row r (the batching coordinate) at the column the start index (r, 0, 0) names,
    read signed and clamped into 0 … 999. On the batching axis the start and the offset are zero; on the collapsed axis
    the batching and the offset coordinates are zero. -/
theorem gather_apply {α : Type} (v : S32768x1000.Idx → α) (idx : IVec S32768x1x1 32) (r : Fin 32768) :
    Host.gather gd v idx (ix2 r 0)
      = v (ix2 r ⟨min (idx (ix3 r 0 0)).toInt.toNat 999, by omega⟩) := by
  unfold Host.gather
  congr 1
  funext a
  refine Fin.ext ?_
  match a with
  | ⟨0, _⟩ =>
    show gd.start (ix2 r 0) idx 0 + gd.batchCoord (ix2 r 0) 0 + gd.offCoord (ix2 r 0) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gd.operandBatchingDims from List.mem_singleton.mpr rfl)]
    rfl
  | ⟨1, _⟩ =>
    show gd.start (ix2 r 0) idx 1 + gd.batchCoord (ix2 r 0) 1 + gd.offCoord (ix2 r 0) 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gd.startIndexMap from List.mem_singleton.mpr rfl)]
    have hsi : gd.siIdx (ix2 r 0) ⟨List.idxOf (1 : Fin 2) gd.startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi]
    rfl

/-! The reference's stages, named: each is the reference's own composite of operations up to that point. -/

/-- The row maximum as the reference takes it: max of a broadcast −∞ with the fold of max from −∞. -/
def refM (x : Scores) : FVec Ideal S32768 .f32 :=
  maximumf (broadcastInDim S32768 ![] bcast_S_S32768 (constant (F := Ideal) S_ .f32 0xFF800000#32))
    (Host.reduce FloatOps.maximumf x (constant (F := Ideal) S_ .f32 0xFF800000#32) reducesTo_S32768x1000_S32768_d1 h_S_)

/-- The scores shifted by their row's maximum. -/
def refShift (x : Scores) : FVec Ideal S32768x1000 .f32 :=
  subf x (broadcastInDim S32768x1000 ![0, 1] bcast_S32768x1_S32768x1000_0_1
    (broadcastInDim S32768x1 ![0] bcast_S32768_S32768x1_0 (refM x)))

/-- The logarithm of each row's sum of exponentials of the shifted scores, as a column. -/
def refLse (x : Scores) : FVec Ideal S32768x1 .f32 :=
  Host.log (broadcastInDim S32768x1 ![0] bcast_S32768_S32768x1_0
    (Host.reduceAdd (Host.exp (refShift x)) (constant (F := Ideal) S_ .f32 0x00000000#32) reducesTo_S32768x1000_S32768_d1 h_S_))

/-- The log-softmax of the scores. -/
def refLogp (x : Scores) : FVec Ideal S32768x1000 .f32 :=
  subf (refShift x) (broadcastInDim S32768x1000 ![0, 1] bcast_S32768x1_S32768x1000_0_1 (refLse x))

/-- The labels as a column. -/
def refLab (l : Labels) : IVec S32768x1 32 :=
  broadcastInDim S32768x1 ![0] bcast_S32768_S32768x1_0 l

/-- The start indices of the gather: a negative label is moved up by 1000, the others are kept. -/
def refIdx (l : Labels) : IVec S32768x1x1 32 :=
  shapeCast _ (select (cmpi .slt (refLab l) (broadcastInDim S32768x1 ![] bcast_S_S32768x1 (constantI S_ 32 0#32)))
    (addi (refLab l) (broadcastInDim S32768x1 ![] bcast_S_S32768x1 (constantI S_ 32 1000#32))) (refLab l))
    shapeCasts_S32768x1_S32768x1x1

/-- The in-range test of the start indices, 0 ≤ · ≤ 999, reduced by "and" over the index vector's axis. -/
def refOk (l : Labels) : IVec S32768x1 1 :=
  Host.reduce IntOp.andi
    (andi (cmpi .sge (refIdx l) (broadcastInDim S32768x1x1 ![] bcast_S_S32768x1x1 (constantI S_ 32 0#32)))
      (cmpi .sle (refIdx l) (broadcastInDim S32768x1x1 ![0, 1, 2] bcast_S1x1x1_S32768x1x1_0_1_2
        (broadcastInDim S1x1x1 ![2] bcast_S1_S1x1x1_2 (constantI S1 32 999#32)))))
    (constantI S_ 1 1#1) reducesTo_S32768x1x1_S32768x1_d2 h_S_

/-- The reference's loss is those stages put together: gather the log-softmax at the start indices, fill the rows that
    fail the range test, drop the unit axis, negate. -/
theorem lossRef_stages (x : Scores) (l : Labels) :
    Cert.SpecRef.lossRef (F := Ideal) x l
      = Host.negf (shapeCast S32768 (select (refOk l) (Host.gather gd (refLogp x) (refIdx l))
          (broadcastInDim S32768x1 ![] bcast_S_S32768x1 (constant (F := Ideal) S_ .f32 0x7FC00000#32)))
          shapeCasts_S32768x1_S32768) := rfl

/-! The stages read at an index. -/

/-- max (−∞) M = M: the reference's row maximum is the fold. -/
theorem refM_apply (x : Scores) (r : Fin 32768) : refM x (ix1 r) = rowMax x r := by
  unfold refM
  rw [maximumf_apply, refMax_apply, broadcastInDim_scalar_apply, constant_apply, negInf]
  exact max_eq_right bot_le

theorem refShift_apply (x : Scores) (r : Fin 32768) (j : Fin 1000) :
    refShift x (ix2 r j) = x (ix2 r j) - rowMax x r := by
  unfold refShift
  rw [subf_apply, bcast_row_apply, bcast_col_apply, refM_apply]

/-- The add-reduction from 0 over the classes of the exponentials of the shifted scores is the row's sum of exponentials. -/
theorem refSum_apply (x : Scores) (r : Fin 32768) :
    Host.reduceAdd (Host.exp (refShift x)) (constant (F := Ideal) S_ .f32 0x00000000#32) reducesTo_S32768x1000_S32768_d1 h_S_ (ix1 r)
      = sumExp x r := by
  rw [hostReduceAdd_apply, Ideal.hostReduceAdd_single _ red1, constant_apply, Ideal.ofBits_zero_f32, zero_add]
  unfold sumExp
  refine Finset.sum_congr rfl fun (j : Fin 1000) _ => ?_
  rw [lift1, hostExp_apply, refShift_apply]

theorem refLse_apply (x : Scores) (r : Fin 32768) : refLse x (ix2 r 0) = Ideal.log (sumExp x r) := by
  unfold refLse
  rw [hostLog_apply, bcast_col_apply, refSum_apply]

/-- The log-softmax at (r, j): the shifted score less the logarithm of the row's sum of exponentials. -/
theorem refLogp_apply (x : Scores) (r : Fin 32768) (j : Fin 1000) :
    refLogp x (ix2 r j) = (x (ix2 r j) - rowMax x r) - Ideal.log (sumExp x r) := by
  unfold refLogp
  rw [subf_apply, refShift_apply, bcast_row_apply, refLse_apply]

theorem refLab_apply (l : Labels) (r : Fin 32768) : refLab l (ix2 r 0) = l (ix1 r) := bcast_col_apply l r 0

/-! Signed comparisons of a word known to lie in 0 … 999. -/

theorem cmpi_slt_zero {a : BitVec 32} (h : 0 ≤ a.toInt) : IntOp.cmpi .slt a 0#32 = 0#1 := by
  refine eq_zero_of_ne_one fun e => ?_
  have := IntOp.cmpi_slt.mp e
  rw [BitVec.toInt_zero] at this
  omega

theorem cmpi_sge_zero {a : BitVec 32} (h : 0 ≤ a.toInt) : IntOp.cmpi .sge a 0#32 = 1#1 :=
  IntOp.cmpi_sge.mpr (by rw [BitVec.toInt_zero]; exact h)

theorem cmpi_sle_999 {a : BitVec 32} (h : a.toInt < 1000) : IntOp.cmpi .sle a 999#32 = 1#1 :=
  IntOp.cmpi_sle.mpr (by have e : (999#32 : BitVec 32).toInt = 999 := by decide
                         omega)

/-- A label that is not negative is its own start index. -/
theorem refIdx_apply (l : Labels) (r : Fin 32768) (h : 0 ≤ (l (ix1 r)).toInt) : refIdx l (ix3 r 0 0) = l (ix1 r) := by
  unfold refIdx
  rw [cast3_apply, select_apply, cmpi_apply, refLab_apply, broadcastInDim_scalar_apply, constantI_apply, cmpi_slt_zero h,
    select_zero]

theorem red2 : S32768x1x1.Reduces [2] S32768x1 := by decide

/-- (r, 0) with the one coordinate of the reduced unit axis inserted is (r, 0, 0). -/
theorem lift2 (r : Fin 32768) (k : Fin 1) : red2.lift (ix2 r 0) k = ix3 r 0 0 := by
  funext a
  match a with
  | ⟨0, _⟩ => rfl
  | ⟨1, _⟩ => rfl
  | ⟨2, _⟩ => exact Fin.ext (by show k.val = 0; omega)

/-- A fold over a one-element index set combines that element with the initial value. -/
theorem fold_fin_one {α : Type} (op : α → α → α) [Std.Commutative op] [Std.Associative op] (b : α) (f : Fin 1 → α) :
    Finset.fold op b f (Finset.univ : Finset (Fin 1)) = op (f 0) b := by
  rw [Finset.univ_unique, Finset.fold_singleton]
  rfl

/-- The constant 999 broadcast to the start indices' shape reads 999 everywhere. -/
theorem bcast999_apply (j : S32768x1x1.Idx) :
    broadcastInDim S32768x1x1 ![0, 1, 2] bcast_S1x1x1_S32768x1x1_0_1_2
      (broadcastInDim S1x1x1 ![2] bcast_S1_S1x1x1_2 (constantI S1 32 999#32)) j = 999#32 := rfl

/-- The "and"-reduction over the unit axis, read at (r, 0): the one entry (r, 0, 0) combined with the initial value. -/
theorem reduce_and_apply (p : IVec S32768x1x1 1) (init : IVec S_ 1) (r : Fin 32768) :
    Host.reduce IntOp.andi p init reducesTo_S32768x1x1_S32768x1_d2 h_S_ (ix2 r 0) = IntOp.andi (p (ix3 r 0 0)) (init ix0) := by
  refine (Host.reduce_eq_fold_single _ _ _ _ red2 _ _).trans ?_
  refine (fold_fin_one _ _ _).trans ?_
  show IntOp.andi (p (red2.lift (ix2 r 0) (0 : Fin 1))) (init _) = _
  rw [lift2, eq_ix0 (Shape.Idx.first h_S_)]

/-- For a label in 0 … 999 the range test passes: the "and", from 1, of two true bits. -/
theorem refOk_apply (l : Labels) (r : Fin 32768) (h : 0 ≤ (l (ix1 r)).toInt ∧ (l (ix1 r)).toInt < 1000) :
    refOk l (ix2 r 0) = 1#1 := by
  unfold refOk
  rw [reduce_and_apply, andi_apply, cmpi_apply, cmpi_apply, refIdx_apply l r h.1, broadcastInDim_scalar_apply,
    bcast999_apply, constantI_apply, constantI_apply, cmpi_sge_zero h.1, cmpi_sle_999 h.2]
  decide
/-- The gather at (r, 0) with the clamped start index named. -/
theorem gather_apply' {α : Type} (v : S32768x1000.Idx → α) (idx : IVec S32768x1x1 32) (r : Fin 32768) (k : Fin 1000)
    (hk : min (idx (ix3 r 0 0)).toInt.toNat 999 = k.val) : Host.gather gd v idx (ix2 r 0) = v (ix2 r k) := by
  rw [gather_apply]
  exact congrArg (fun k => v (ix2 r k)) (Fin.ext hk)

/-! The one-hot sum. -/

/-- Exactly one class j < 1000 has the 32-bit word of j equal to a label in 0 … 999, the label's own value: words below 2³² are
    distinct numbers. So the one-hot sum keeps that one score. -/
theorem picked_eq (x : Scores) (l : Labels) (r : Fin 32768) (k : Fin 1000) (hk : k.val = (l (ix1 r)).toInt.toNat)
    (h : 0 ≤ (l (ix1 r)).toInt) : picked x l r = x (ix2 r k) := by
  unfold picked
  have e := BitVec.toInt_eq_toNat_cond (l (ix1 r))
  have hlt := (l (ix1 r)).isLt
  have hkl := k.isLt
  have key : ∀ j : Fin 1000, BitVec.ofNat 32 j.val = l (ix1 r) ↔ j = k := by
    intro j
    have hjl := j.isLt
    constructor
    · intro ej
      have := congrArg BitVec.toNat ej
      rw [BitVec.toNat_ofNat] at this
      exact Fin.ext (by omega)
    · rintro rfl
      refine BitVec.eq_of_toNat_eq ?_
      rw [BitVec.toNat_ofNat]
      omega
  refine (Finset.sum_eq_single k (fun j _ hne => if_neg (mt (key j).mp hne)) (fun hn => absurd (Finset.mem_univ _) hn)).trans ?_
  exact if_pos ((key k).mpr rfl)

/-! Everything is a real number. -/

/-- A finite sum of reals, read in the extended reals, is the real sum. -/
theorem coe_sum {ι : Type} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- The maximum of a nonempty row of reals, folded from −∞, is one of the row's entries, so a real. -/
theorem rowMax_real (x : Scores) (hx : ∀ i, ∃ a : ℝ, x i = (a : EReal)) (r : Fin 32768) : ∃ m : ℝ, rowMax x r = (m : EReal) := by
  have h : rowMax x r = (Finset.univ : Finset (Fin 1000)).sup fun j => x (ix2 r j) := rfl
  obtain ⟨j, -, hj⟩ := Finset.exists_mem_eq_sup (Finset.univ : Finset (Fin 1000)) ⟨0, Finset.mem_univ _⟩ fun j => x (ix2 r j)
  rw [h, hj]
  exact hx _

/-- The exponentials of reals are positive reals, and so is the sum of 1000 of them. -/
theorem sumExp_real (x : Scores) (hx : ∀ i, ∃ a : ℝ, x i = (a : EReal)) (r : Fin 32768) :
    ∃ s : ℝ, 0 < s ∧ sumExp x r = (s : EReal) := by
  obtain ⟨m, hm⟩ := rowMax_real x hx r
  choose a ha using fun j : Fin 1000 => hx (ix2 r j)
  refine ⟨∑ j : Fin 1000, Real.exp (a j - m), Finset.sum_pos (fun j _ => Real.exp_pos _) ⟨0, Finset.mem_univ _⟩, ?_⟩
  unfold sumExp
  rw [← coe_sum]
  refine Finset.sum_congr rfl fun j _ => ?_
  rw [ha j, hm, ← EReal.coe_sub, Ideal.exp_coe]

/-- The closed form, in the reals: −((a − M) − L) = (L + M) − a. -/
theorem lossRow_eq (x : Scores) (l : Labels) (hx : ∀ i, ∃ a : ℝ, x i = (a : EReal)) (r : Fin 32768) (k : Fin 1000)
    (hk : picked x l r = x (ix2 r k)) :
    -((x (ix2 r k) - rowMax x r) - Ideal.log (sumExp x r)) = lossRow x l r := by
  obtain ⟨m, hm⟩ := rowMax_real x hx r
  obtain ⟨s, hs, hS⟩ := sumExp_real x hx r
  obtain ⟨a, ha⟩ := hx (ix2 r k)
  unfold lossRow
  rw [hk, ha, hm, hS, Ideal.log_coe, if_neg (not_le.mpr hs)]
  rw [← EReal.coe_sub, ← EReal.coe_sub, ← EReal.coe_neg, ← EReal.coe_add, ← EReal.coe_sub]
  congr 1
  ring

/-- The reference's per-row loss is the closed-form cross-entropy, for real scores and labels in 0 … 999: at row r the
    range test passes, the gather reads the log-softmax at the label's column, and the real identity joins the two sides. -/
theorem lossRef_eq (x : Cert.SpecCE.Scores) (l : Cert.SpecCE.Labels)
    (hx : ∀ i, ∃ r : ℝ, x i = (r : EReal)) (hl : ∀ i, 0 ≤ (l i).toInt ∧ (l i).toInt < 1000) :
    Cert.SpecRef.lossRef (F := Ideal) x l = Cert.SpecCE.lossK x l := by
  funext i
  obtain ⟨r, rfl⟩ : ∃ r, i = ix1 r := ⟨i 0, eq_ix1 i⟩
  have h := hl (ix1 r)
  have hk : (l (ix1 r)).toInt.toNat < 1000 := by omega
  rw [lossRef_stages, lossK_ix1, hostNegf_apply, cast1_apply, select_apply, refOk_apply l r h, select_one,
    gather_apply' _ _ r ⟨(l (ix1 r)).toInt.toNat, hk⟩ (by rw [refIdx_apply l r h.1]; exact Nat.min_eq_left (by omega)),
    refLogp_apply]
  exact lossRow_eq x l hx r _ (picked_eq x l r _ rfl h.1)

end Cert.CEMath

end
-- ==== Proof.PreFacts.lean ====
/-
  The precondition, decoded. The printed predicate is a conjunction of four "for all" statements, each a
  reduction by AND (from the constant 1) of an array of one-bit words down to a single bit:
    |a0| < +∞ everywhere,  |a1| < +∞ everywhere,  |a2| < +∞ everywhere,  and  0 ≤ a3 < 1000 (signed) everywhere.
  Saying that its one result bit is 1 therefore says each conjunct's bit is 1 (x AND y = 1 iff x = 1 and y = 1),
  and an AND-reduction onto a single index that is 1 met a 1 at every operand index. What remains is elementwise:
  over the extended reals the absolute value is max x (-x) and the pattern 0x7F800000 denotes ⊤, so
  max x (-x) < ⊤ rules out x = ⊤ and x = ⊥ and leaves a real number; the signed comparisons against the constant
  words 0 and 1000 are the order of the words' integer values.
-/
import proofs.«404843_j25503515804375_1_alg».proof.Pre_finite_inputs
import proofs.«404843_j25503515804375_1_alg».proof.Proof.Gen.Pre_finite_inputs
import Idealize.ShloMosaic.PureOps.Ideal
import Idealize.ShloMosaic.Lib.ReduceAll
import Idealize.ShloMosaic.Lib.ValueIdx

noncomputable section

namespace Cert.PreFacts

open Idealize.ShloMosaic Cert.Pre_finite_inputs

/-- The shape of rank zero has exactly one index (the empty tuple of coordinates). -/
instance : Subsingleton S_.Idx := ⟨fun a b => funext fun d => d.elim0⟩

/-- An extended real x with max x (-x) < ⊤ is a real: at x = ⊤ the maximum is ⊤, at x = ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The single-precision pattern with exponent field all ones and fraction zero denotes +∞. -/
theorem inf_pattern : Ideal.ofBits .f32 0x7F800000#32 = (⊤ : EReal) := by
  simp [Ideal.ofBits, Ideal.ieee]

/-- One element of a finiteness conjunct: the bit of the comparison |x| < +∞ being 1 makes x a real. -/
theorem real_of_cmp (x : EReal)
    (h : Ideal.cmp .olt (max x (-x)) (Ideal.ofBits .f32 0x7F800000#32) = 1#1) : ∃ r : ℝ, x = (r : EReal) := by
  rw [inf_pattern] at h
  apply real_of_abs_lt_top
  unfold Ideal.cmp at h
  by_contra hc
  simp [hc] at h

/-- The precondition's result bit being 1 splits into its four conjunct bits, each an AND-reduction to one index. -/
theorem conjuncts [Facts] (a0 : FVec Ideal S32768x1000 .f32) (a1 : FVec Ideal S1000000 .f32) (a2 : FVec Ideal S1000 .f32)
    (a3 a4 : IVec S32768 32) (h : fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, 0 ≤ (a3 i).toInt ∧ (a3 i).toInt < 1000) := by
  have h0 := congrFun h ValueIdx.ix0
  dsimp only [fn, fn_part1] at h0
  -- ((A0 ∧ A1) ∧ A2) ∧ L, each AND of bits being 1 exactly when both bits are
  obtain ⟨h123, hL⟩ := IntOp.andi_eq_one.1 h0
  obtain ⟨h12, hA2⟩ := IntOp.andi_eq_one.1 h123
  obtain ⟨hA0, hA1⟩ := IntOp.andi_eq_one.1 h12
  refine ⟨fun i => ?_, fun i => ?_, fun i => ?_, fun i => ?_⟩
  · exact real_of_cmp (a0 i) (Host.reduce_andi_all _ _ _ _ _ hA0 i)
  · exact real_of_cmp (a1 i) (Host.reduce_andi_all _ _ _ _ _ hA1 i)
  · exact real_of_cmp (a2 i) (Host.reduce_andi_all _ _ _ _ _ hA2 i)
  · -- the label conjunct at i is itself an AND of two signed comparisons against constant words
    obtain ⟨e1, e2⟩ := IntOp.andi_eq_one.1 (Host.reduce_andi_all _ _ _ _ _ hL i)
    have g1 : (0#32 : BitVec 32).toInt ≤ (a3 i).toInt := IntOp.cmpi_sge.1 e1
    have g2 : (a3 i).toInt < (1000#32 : BitVec 32).toInt := IntOp.cmpi_slt.1 e2
    have z0 : (0#32 : BitVec 32).toInt = 0 := by decide
    have z1 : (1000#32 : BitVec 32).toInt = 1000 := by decide
    rw [z0] at g1
    rw [z1] at g2
    exact ⟨g1, g2⟩

/-- What the claims use: every score is a real number and every label lies in [0, 1000) as a signed integer. -/
theorem of_pre [Facts] (a0 : FVec Ideal S32768x1000 .f32) (a1 : FVec Ideal S1000000 .f32) (a2 : FVec Ideal S1000 .f32)
    (a3 a4 : IVec S32768 32) (h : fn (F := Ideal) a0 a1 a2 a3 a4 = (fun _ => 1#1)) :
    (∀ i, ∃ r : ℝ, a0 i = (r : EReal)) ∧ (∀ i, 0 ≤ (a3 i).toInt ∧ (a3 i).toInt < 1000) :=
  let c := conjuncts a0 a1 a2 a3 a4 h
  ⟨c.1, c.2.2.2⟩

/-- The other two float arrays hold real numbers too. -/
theorem finite_a1_a2 [Facts] (a0 : FVec Ideal S32768x1000 .f32) (a1 : FVec Ideal S1000000 .f32) (a2 : FVec Ideal S1000 .f32)
    (a3 a4 : IVec S32768 32) (h : fn (F := Ideal) a0 a1 a2 a3 a4 = (fun _ => 1#1)) :
    (∀ i, ∃ r : ℝ, a1 i = (r : EReal)) ∧ (∀ i, ∃ r : ℝ, a2 i = (r : EReal)) :=
  let c := conjuncts a0 a1 a2 a3 a4 h
  ⟨c.2.1, c.2.2.1⟩

end Cert.PreFacts
-- ==== Proof.lean ====
/-
  The certificate: a Pallas cross-entropy kernel inside a confidence-weighted loss, against its jnp reference, over
  the extended reals.

  Both programs compute, from scores x (32768 rows of 1000 classes), labels, instance indices and two memories, the
  mean over the rows of  loss · conf_ins · conf_cls,  where loss is the per-row cross-entropy and the two confidences
  are table interpolations of running per-instance and per-class averages of the loss. Everything after the loss is
  the same sequence of host operations in both programs (`Cert.Spec.tail`); they differ in how the loss is made:
  the kernel computes, block of 512 rows by block,  log ∑ⱼ exp (x − M) + M − ∑ⱼ [j = label] x  with M the row's
  maximum, the reference  −(log_softmax x) [label]  by a gather along the class axis. For finite scores and labels
  in 0 … 999 the two are the same real number, row by row (`Cert.CEMath.lossRef_eq`); the label range is the
  precondition's added conjunct (outside it the reference's gather is filled with a NaN pattern or wraps around).

  The three frames: the kernel's program at both instances by the library's frame run around its one region (the
  body's triple, the structural facts of the 224 host operations after it); the reference's by its run as a straight
  line of host operations. No rewrite separates the printed kernel from its idealization, so `preserves` asks nothing.
-/
import proofs.«404843_j25503515804375_1_alg».proof.Defs
import proofs.«404843_j25503515804375_1_alg».proof.Proof.Gen.Kernel
import proofs.«404843_j25503515804375_1_alg».proof.Proof.Gen.KernelIdeal
import proofs.«404843_j25503515804375_1_alg».proof.Proof.Gen.ReferenceIdeal
import proofs.«404843_j25503515804375_1_alg».proof.Proof.Gen.Pre_finite_inputs
import proofs.«404843_j25503515804375_1_alg».proof.Proof.KFrame
import proofs.«404843_j25503515804375_1_alg».proof.Proof.KIRun
import proofs.«404843_j25503515804375_1_alg».proof.Proof.RefClaims
import proofs.«404843_j25503515804375_1_alg».proof.Proof.CEMath
import proofs.«404843_j25503515804375_1_alg».proof.Proof.PreFacts
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the shared tail of a per-row loss; the two losses are one array when the scores are finite
    and the labels in range, which the precondition says. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hl⟩ := Cert.PreFacts.of_pre _ _ _ _ _ (hpre c)
  rw [(hagree c).1, (hagree c).2.1, (hagree c).2.2.1, (hagree c).2.2.2.1, (hagree c).2.2.2.2]
  exact congrArg (fun L => Cert.Spec.tail L _ _ _ _) (Cert.CEMath.lossRef_eq _ _ hx hl)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
